-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x151 : Shape := ⟨2, ![50000, 151]⟩
abbrev S800000x51 : Shape := ⟨2, ![800000, 51]⟩
abbrev S51x151 : Shape := ⟨2, ![51, 151]⟩
abbrev S151 : Shape := ⟨1, ![151]⟩
abbrev S151x128 : Shape := ⟨2, ![151, 128]⟩
abbrev S128 : Shape := ⟨1, ![128]⟩
abbrev S51x128 : Shape := ⟨2, ![51, 128]⟩
abbrev S128x128 : Shape := ⟨2, ![128, 128]⟩
abbrev S128x51 : Shape := ⟨2, ![128, 51]⟩
abbrev S51 : Shape := ⟨1, ![51]⟩
abbrev S2x800000 : Shape := ⟨2, ![2, 800000]⟩
abbrev S_ : Shape := ⟨0, ![]⟩
abbrev S1x800000 : Shape := ⟨2, ![1, 800000]⟩
abbrev S800000 : Shape := ⟨1, ![800000]⟩

class Facts : Prop where
  bcast_S_S50000x151 : S_.BroadcastsInDim S50000x151 (![] : Fin 0 → Fin S50000x151.rank)
  reducesTo_S50000x151_S_d0_1 : S50000x151.ReducesTo [0, 1] S_
  h_S_ : 0 < S_.numel
  bcast_S_S800000x51 : S_.BroadcastsInDim S800000x51 (![] : Fin 0 → Fin S800000x51.rank)
  reducesTo_S800000x51_S_d0_1 : S800000x51.ReducesTo [0, 1] S_
  bcast_S_S51x151 : S_.BroadcastsInDim S51x151 (![] : Fin 0 → Fin S51x151.rank)
  reducesTo_S51x151_S_d0_1 : S51x151.ReducesTo [0, 1] S_
  bcast_S_S151 : S_.BroadcastsInDim S151 (![] : Fin 0 → Fin S151.rank)
  reducesTo_S151_S_d0 : S151.ReducesTo [0] S_
  bcast_S_S151x128 : S_.BroadcastsInDim S151x128 (![] : Fin 0 → Fin S151x128.rank)
  reducesTo_S151x128_S_d0_1 : S151x128.ReducesTo [0, 1] S_
  bcast_S_S128 : S_.BroadcastsInDim S128 (![] : Fin 0 → Fin S128.rank)
  reducesTo_S128_S_d0 : S128.ReducesTo [0] S_
  bcast_S_S51x128 : S_.BroadcastsInDim S51x128 (![] : Fin 0 → Fin S51x128.rank)
  reducesTo_S51x128_S_d0_1 : S51x128.ReducesTo [0, 1] S_
  bcast_S_S128x128 : S_.BroadcastsInDim S128x128 (![] : Fin 0 → Fin S128x128.rank)
  reducesTo_S128x128_S_d0_1 : S128x128.ReducesTo [0, 1] S_
  bcast_S_S128x51 : S_.BroadcastsInDim S128x51 (![] : Fin 0 → Fin S128x51.rank)
  reducesTo_S128x51_S_d0_1 : S128x51.ReducesTo [0, 1] S_
  bcast_S_S51 : S_.BroadcastsInDim S51 (![] : Fin 0 → Fin S51.rank)
  reducesTo_S51_S_d0 : S51.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part4 {F : FTy → Type} [FloatOps F] (main_v58 : IVec S_ 1) (main_v68 : IVec S_ 1) : IVec S_ 1 :=
  let main_v69 : IVec S_ 1 := andi main_v58 main_v68
  main_v69

def fn_part3 {F : FTy → Type} [FloatOps F] (main_arg11 : FVec F S51 .f32) (main_arg12 : IVec S2x800000 32) (main_v48 : IVec S_ 1) (main_v49 : FVec F S128x51 .f32) (main_v50 : FVec F S128x51 .f32) : IVec S_ 1 :=
  let main_v51 : IVec S128x51 1 := cmpf .olt main_v49 main_v50
  let main_c_19 : IVec S_ 1 := constantI S_ 1 1#1
  let main_v52 : IVec S_ 1 := (fun x v => Host.reduce IntOp.andi x v reducesTo_S128x51_S_d0_1 h_S_) main_v51 main_c_19
  let main_v53 : IVec S_ 1 := andi main_v48 main_v52
  let main_v54 : FVec F S51 .f32 := Host.absf main_arg11
  let main_cst_20 : FVec F S_ .f32 := constant S_ .f32 0x7F800000#32
  let main_v55 : FVec F S51 .f32 := broadcastInDim S51 ![] bcast_S_S51 main_cst_20
  let main_v56 : IVec S51 1 := cmpf .olt main_v54 main_v55
  let main_c_21 : IVec S_ 1 := constantI S_ 1 1#1
  let main_v57 : IVec S_ 1 := (fun x v => Host.reduce IntOp.andi x v reducesTo_S51_S_d0 h_S_) main_v56 main_c_21
  let main_v58 : IVec S_ 1 := andi main_v53 main_v57
  let main_v59 : IVec S1x800000 32 := (extractStridedSlice S1x800000 ![0, 0] · slices_S2x800000_S1x800000_0_0) main_arg12
  let main_v60 : IVec S800000 32 := shapeCast S800000 main_v59 shapeCasts_S1x800000_S800000
  let main_c_22 : IVec S_ 32 := constantI S_ 32 4294917296#32
  let main_v61 : IVec S800000 32 := broadcastInDim S800000 ![] bcast_S_S800000 main_c_22
  let main_v62 : IVec S800000 1 := cmpi .sge main_v60 main_v61
  let main_v63 : IVec S1x800000 32 := (extractStridedSlice S1x800000 ![0, 0] · slices_S2x800000_S1x800000_0_0) main_arg12
  let main_v64 : IVec S800000 32 := shapeCast S800000 main_v63 shapeCasts_S1x800000_S800000
  let main_c_23 : IVec S_ 32 := constantI S_ 32 50000#32
  let main_v65 : IVec S800000 32 := broadcastInDim S800000 ![] bcast_S_S800000 main_c_23
  let main_v66 : IVec S800000 1 := cmpi .slt main_v64 main_v65
  let main_v67 : IVec S800000 1 := andi main_v62 main_v66
  let main_c_24 : IVec S_ 1 := constantI S_ 1 1#1
  let main_v68 : IVec S_ 1 := (fun x v => Host.reduce IntOp.andi x v reducesTo_S800000_S_d0 h_S_) main_v67 main_c_24
  fn_part4 (F := F) main_v58 main_v68

def fn_part2 {F : FTy → Type} [FloatOps F] (main_arg7 : FVec F S128 .f32) (main_arg8 : FVec F S128x128 .f32) (main_arg9 : FVec F S128 .f32) (main_arg10 : FVec F S128x51 .f32) (main_arg11 : FVec F S51 .f32) (main_arg12 : IVec S2x800000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x51 .f32 := Host.absf main_arg10
  let main_cst_18 : FVec F S_ .f32 := constant S_ .f32 0x7F800000#32
  let main_v50 : FVec F S128x51 .f32 := broadcastInDim S128x51 ![] bcast_S_S128x51 main_cst_18
  fn_part3 (F := F) main_arg11 main_arg12 main_v48 main_v49 main_v50

def fn_part1 {F : FTy → Type} [FloatOps F] (main_arg4 : FVec F S151x128 .f32) (main_arg5 : FVec F S128 .f32) (main_arg6 : FVec F S51x128 .f32) (main_arg7 : FVec F S128 .f32) (main_arg8 : FVec F S128x128 .f32) (main_arg9 : FVec F S128 .f32) (main_arg10 : FVec F S128x51 .f32) (main_arg11 : FVec F S51 .f32) (main_arg12 : IVec S2x800000 32) (main_v13 : IVec S_ 1) (main_v16 : IVec S151 1) : IVec S_ 1 :=
  let main_c_5 : IVec S_ 1 := constantI S_ 1 1#1
  let main_v17 : IVec S_ 1 := (fun x v => Host.reduce IntOp.andi x v reducesTo_S151_S_d0 h_S_) main_v16 main_c_5
  let main_v18 : IVec S_ 1 := andi main_v13 main_v17
  let main_v19 : FVec F S151x128 .f32 := Host.absf main_arg4
  let main_cst_6 : FVec F S_ .f32 := constant S_ .f32 0x7F800000#32
  let main_v20 : FVec F S151x128 .f32 := broadcastInDim S151x128 ![] bcast_S_S151x128 main_cst_6
  let main_v21 : IVec S151x128 1 := cmpf .olt main_v19 main_v20
  let main_c_7 : IVec S_ 1 := constantI S_ 1 1#1
  let main_v22 : IVec S_ 1 := (fun x v => Host.reduce IntOp.andi x v reducesTo_S151x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S51x128 .f32 := Host.absf main_arg6
  let main_cst_10 : FVec F S_ .f32 := constant S_ .f32 0x7F800000#32
  let main_v30 : FVec F S51x128 .f32 := broadcastInDim S51x128 ![] bcast_S_S51x128 main_cst_10
  let main_v31 : IVec S51x128 1 := cmpf .olt main_v29 main_v30
  let main_c_11 : IVec S_ 1 := constantI S_ 1 1#1
  let main_v32 : IVec S_ 1 := (fun x v => Host.reduce IntOp.andi x v reducesTo_S51x128_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S50000x151 .f32) (main_arg1 : FVec F S800000x51 .f32) (main_arg2 : FVec F S51x151 .f32) (main_arg3 : FVec F S151 .f32) (main_arg4 : FVec F S151x128 .f32) (main_arg5 : FVec F S128 .f32) (main_arg6 : FVec F S51x128 .f32) (main_arg7 : FVec F S128 .f32) (main_arg8 : FVec F S128x128 .f32) (main_arg9 : FVec F S128 .f32) (main_arg10 : FVec F S128x51 .f32) (main_arg11 : FVec F S51 .f32) (main_arg12 : IVec S2x800000 32) : IVec S_ 1 :=
  let main_v0 : FVec F S50000x151 .f32 := Host.absf main_arg0
  let main_cst : FVec F S_ .f32 := constant S_ .f32 0x7F800000#32
  let main_v1 : FVec F S50000x151 .f32 := broadcastInDim S50000x151 ![] bcast_S_S50000x151 main_cst
  let main_v2 : IVec S50000x151 1 := cmpf .olt main_v0 main_v1
  let main_c : IVec S_ 1 := constantI S_ 1 1#1
  let main_v3 : IVec S_ 1 := (fun x v => Host.reduce IntOp.andi x v reducesTo_S50000x151_S_d0_1 h_S_) main_v2 main_c
  let main_v4 : FVec F S800000x51 .f32 := Host.absf main_arg1
  let main_cst_0 : FVec F S_ .f32 := constant S_ .f32 0x7F800000#32
  let main_v5 : FVec F S800000x51 .f32 := broadcastInDim S800000x51 ![] bcast_S_S800000x51 main_cst_0
  let main_v6 : IVec S800000x51 1 := cmpf .olt main_v4 main_v5
  let main_c_1 : IVec S_ 1 := constantI S_ 1 1#1
  let main_v7 : IVec S_ 1 := (fun x v => Host.reduce IntOp.andi x v reducesTo_S800000x51_S_d0_1 h_S_) main_v6 main_c_1
  let main_v8 : IVec S_ 1 := andi main_v3 main_v7
  let main_v9 : FVec F S51x151 .f32 := Host.absf main_arg2
  let main_cst_2 : FVec F S_ .f32 := constant S_ .f32 0x7F800000#32
  let main_v10 : FVec F S51x151 .f32 := broadcastInDim S51x151 ![] bcast_S_S51x151 main_cst_2
  let main_v11 : IVec S51x151 1 := cmpf .olt main_v9 main_v10
  let main_c_3 : IVec S_ 1 := constantI S_ 1 1#1
  let main_v12 : IVec S_ 1 := (fun x v => Host.reduce IntOp.andi x v reducesTo_S51x151_S_d0_1 h_S_) main_v11 main_c_3
  let main_v13 : IVec S_ 1 := andi main_v8 main_v12
  let main_v14 : FVec F S151 .f32 := Host.absf main_arg3
  let main_cst_4 : FVec F S_ .f32 := constant S_ .f32 0x7F800000#32
  let main_v15 : FVec F S151 .f32 := broadcastInDim S151 ![] bcast_S_S151 main_cst_4
  let main_v16 : IVec S151 1 := cmpf .olt main_v14 main_v15
  fn_part1 (F := F) main_arg4 main_arg5 main_arg6 main_arg7 main_arg8 main_arg9 main_arg10 main_arg11 main_arg12 main_v13 main_v16
-- ==== Kernel.lean ====
abbrev S50000x151 : Shape := ⟨2, ![50000, 151]⟩
abbrev S800000x51 : Shape := ⟨2, ![800000, 51]⟩
abbrev S51x151 : Shape := ⟨2, ![51, 151]⟩
abbrev S151 : Shape := ⟨1, ![151]⟩
abbrev S151x128 : Shape := ⟨2, ![151, 128]⟩
abbrev S128 : Shape := ⟨1, ![128]⟩
abbrev S51x128 : Shape := ⟨2, ![51, 128]⟩
abbrev S128x128 : Shape := ⟨2, ![128, 128]⟩
abbrev S128x51 : Shape := ⟨2, ![128, 51]⟩
abbrev S51 : Shape := ⟨1, ![51]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x52 : Shape := ⟨2, ![800000, 52]⟩
abbrev S50000x52 : Shape := ⟨2, ![50000, 52]⟩
abbrev S50000x51 : Shape := ⟨2, ![50000, 51]⟩
abbrev S50000x1 : Shape := ⟨2, ![50000, 1]⟩
abbrev S1 : Shape := ⟨1, ![1]⟩
abbrev S1x1 : Shape := ⟨2, ![1, 1]⟩
abbrev S800000x151 : Shape := ⟨2, ![800000, 151]⟩
abbrev S1x151 : Shape := ⟨2, ![1, 151]⟩
abbrev S1x128 : Shape := ⟨2, ![1, 128]⟩
abbrev S50000x128 : Shape := ⟨2, ![50000, 128]⟩
abbrev S5000x151 : Shape := ⟨2, ![5000, 151]⟩
abbrev S5000x51 : Shape := ⟨2, ![5000, 51]⟩
abbrev S5000x1 : Shape := ⟨2, ![5000, 1]⟩
abbrev S5000x128 : Shape := ⟨2, ![5000, 128]⟩
abbrev S800000x128 : Shape := ⟨2, ![800000, 128]⟩
abbrev S1x51 : Shape := ⟨2, ![1, 51]⟩

abbrev nBuf : Space → Nat
  | .hbm => 87
  | .vmem => 30
  | .smem => 0
  | _ => 0

abbrev bufTy : (tb : Table) → Fin (tcTables nBuf tb) → BufTy
  | .hbm, ⟨0, _⟩ => ⟨S50000x151, .f32⟩
  | .hbm, ⟨1, _⟩ => ⟨S800000x51, .f32⟩
  | .hbm, ⟨2, _⟩ => ⟨S51x151, .f32⟩
  | .hbm, ⟨3, _⟩ => ⟨S151, .f32⟩
  | .hbm, ⟨4, _⟩ => ⟨S151x128, .f32⟩
  | .hbm, ⟨5, _⟩ => ⟨S128, .f32⟩
  | .hbm, ⟨6, _⟩ => ⟨S51x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x51, .f32⟩
  | .hbm, ⟨11, _⟩ => ⟨S51, .f32⟩
  | .hbm, ⟨12, _⟩ => ⟨S2x800000, .i32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S800000x1, .f32⟩
  | .hbm, ⟨19, _⟩ => ⟨S800000x52, .f32⟩
  | .hbm, ⟨20, _⟩ => ⟨S_, .f32⟩
  | .hbm, ⟨21, _⟩ => ⟨S50000x52, .f32⟩
  | .hbm, ⟨22, _⟩ => ⟨S800000x1, .i32⟩
  | .hbm, ⟨23, _⟩ => ⟨S50000x52, .f32⟩
  | .hbm, ⟨24, _⟩ => ⟨S50000x51, .f32⟩
  | .hbm, ⟨25, _⟩ => ⟨S50000x1, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S1, .i32⟩
  | .hbm, ⟨35, _⟩ => ⟨S_, .i32⟩
  | .hbm, ⟨36, _⟩ => ⟨S800000x1, .i32⟩
  | .hbm, ⟨37, _⟩ => ⟨S800000x1, .i1⟩
  | .hbm, ⟨38, _⟩ => ⟨S1x1, .i32⟩
  | .hbm, ⟨39, _⟩ => ⟨S800000x1, .i32⟩
  | .hbm, ⟨40, _⟩ => ⟨S800000x1, .i1⟩
  | .hbm, ⟨41, _⟩ => ⟨S800000x1, .i1⟩
  | .hbm, ⟨42, _⟩ => ⟨S_, .i1⟩
  | .hbm, ⟨43, _⟩ => ⟨S800000, .i1⟩
  | .hbm, ⟨44, _⟩ => ⟨S800000x151, .f32⟩
  | .hbm, ⟨45, _⟩ => ⟨S800000x151, .i1⟩
  | .hbm, ⟨46, _⟩ => ⟨S_, .f32⟩
  | .hbm, ⟨47, _⟩ => ⟨S800000x151, .f32⟩
  | .hbm, ⟨48, _⟩ => ⟨S800000x151, .f32⟩
  | .hbm, ⟨49, _⟩ => ⟨S_, .f32⟩
  | .hbm, ⟨50, _⟩ => ⟨S50000x151, .f32⟩
  | .hbm, ⟨51, _⟩ => ⟨S800000x1, .i32⟩
  | .hbm, ⟨52, _⟩ => ⟨S50000x151, .f32⟩
  | .hbm, ⟨53, _⟩ => ⟨S1x151, .f32⟩
  | .hbm, ⟨54, _⟩ => ⟨S1x128, .f32⟩
  | .hbm, ⟨55, _⟩ => ⟨S50000x128, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S1, .i32⟩
  | .hbm, ⟨65, _⟩ => ⟨S_, .i32⟩
  | .hbm, ⟨66, _⟩ => ⟨S800000x1, .i32⟩
  | .hbm, ⟨67, _⟩ => ⟨S800000x1, .i1⟩
  | .hbm, ⟨68, _⟩ => ⟨S1x1, .i32⟩
  | .hbm, ⟨69, _⟩ => ⟨S800000x1, .i32⟩
  | .hbm, ⟨70, _⟩ => ⟨S800000x1, .i1⟩
  | .hbm, ⟨71, _⟩ => ⟨S800000x1, .i1⟩
  | .hbm, ⟨72, _⟩ => ⟨S_, .i1⟩
  | .hbm, ⟨73, _⟩ => ⟨S800000, .i1⟩
  | .hbm, ⟨74, _⟩ => ⟨S800000x128, .f32⟩
  | .hbm, ⟨75, _⟩ => ⟨S800000x128, .i1⟩
  | .hbm, ⟨76, _⟩ => ⟨S_, .f32⟩
  | .hbm, ⟨77, _⟩ => ⟨S800000x128, .f32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S1x128, .f32⟩
  | .hbm, ⟨84, _⟩ => ⟨S1x128, .f32⟩
  | .hbm, ⟨85, _⟩ => ⟨S1x51, .f32⟩
  | .hbm, ⟨86, _⟩ => ⟨S50000x51, .f32⟩
  | .local _ .vmem, ⟨0, _⟩ => ⟨S5000x151, .f32⟩
  | .local _ .vmem, ⟨1, _⟩ => ⟨S5000x151, .f32⟩
  | .local _ .vmem, ⟨2, _⟩ => ⟨S5000x151, .f32⟩
  | .local _ .vmem, ⟨3, _⟩ => ⟨S5000x151, .f32⟩
  | .local _ .vmem, ⟨4, _⟩ => ⟨S5000x51, .f32⟩
  | .local _ .vmem, ⟨5, _⟩ => ⟨S5000x51, .f32⟩
  | .local _ .vmem, ⟨6, _⟩ => ⟨S5000x1, .f32⟩
  | .local _ .vmem, ⟨7, _⟩ => ⟨S5000x1, .f32⟩
  | .local _ .vmem, ⟨8, _⟩ => ⟨S51x151, .f32⟩
  | .local _ .vmem, ⟨9, _⟩ => ⟨S1x151, .f32⟩
  | .local _ .vmem, ⟨10, _⟩ => ⟨S151x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x51, .f32⟩
  | .local _ .vmem, ⟨19, _⟩ => ⟨S5000x51, .f32⟩
  | .local _ .vmem, ⟨20, _⟩ => ⟨S5000x1, .f32⟩
  | .local _ .vmem, ⟨21, _⟩ => ⟨S5000x1, .f32⟩
  | .local _ .vmem, ⟨22, _⟩ => ⟨S51x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S128x51, .f32⟩
  | .local _ .vmem, ⟨27, _⟩ => ⟨S1x51, .f32⟩
  | .local _ .vmem, ⟨28, _⟩ => ⟨S5000x51, .f32⟩
  | .local _ .vmem, ⟨29, _⟩ => ⟨S5000x51, .f32⟩
  | _, _ => ⟨S50000x151, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v11 : Ref sig .tc := ⟨.hbm, 48, rfl⟩
abbrev main_cst_1 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_call1_cst : Ref sig .tc := ⟨.hbm, 76, rfl⟩
abbrev main_call1_v15 : Ref sig .tc := ⟨.hbm, 77, rfl⟩
abbrev main_v18 : Ref sig .tc := ⟨.hbm, 78, rfl⟩
abbrev main_cst_2 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg10_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem10_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x151 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x151 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x51 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S51x151 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x151 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S151x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x51 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S51x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x51 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x51 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x51 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  concatenates_S800000x51_S800000x1_S800000x52_d1 : Shape.Concatenates [S800000x51, S800000x1] S800000x52 1
  bcast_S_S50000x52 : S_.BroadcastsInDim S50000x52 (![] : Fin 0 → Fin S50000x52.rank)
  bcast_S800000_S800000x1_0 : S800000.BroadcastsInDim S800000x1 (![0] : Fin 1 → Fin S800000x1.rank)
  slices_S50000x52_S50000x51_0_0 : S50000x52.Slices ![0, 0] S50000x51
  slices_S50000x52_S50000x1_0_51 : S50000x52.Slices ![0, 51] S50000x1
  bcast_S_S800000 : S_.BroadcastsInDim S800000 (![] : Fin 0 → Fin S800000.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x151_0 : S800000.BroadcastsInDim S800000x151 (![0] : Fin 1 → Fin S800000x151.rank)
  bcast_S_S800000x151 : S_.BroadcastsInDim S800000x151 (![] : Fin 0 → Fin S800000x151.rank)
  bcast_S_S50000x151 : S_.BroadcastsInDim S50000x151 (![] : Fin 0 → Fin S50000x151.rank)
  shapeCasts_S151_S1x151 : S151.ShapeCasts S1x151
  shapeCasts_S128_S1x128 : S128.ShapeCasts S1x128
  inb_S5000x51_S5000x51_0_0 : ∀ a, (![0, 0] : Fin 2 → Nat) a + S5000x51.size a ≤ S5000x51.size a
  h_S5000x51 : 0 < S5000x51.numel
  shapeCasts_S5000x51_S5000x51 : S5000x51.ShapeCasts S5000x51
  inb_S51x151_S51x151_0_0 : ∀ a, (![0, 0] : Fin 2 → Nat) a + S51x151.size a ≤ S51x151.size a
  h_S51x151 : 0 < S51x151.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x151_S5000x151_0_0 : ∀ a, (![0, 0] : Fin 2 → Nat) a + S5000x151.size a ≤ S5000x151.size a
  h_S5000x151 : 0 < S5000x151.numel
  shapeCasts_S5000x151_S5000x151 : S5000x151.ShapeCasts S5000x151
  inb_S1x151_S1x151_0_0 : ∀ a, (![0, 0] : Fin 2 → Nat) a + S1x151.size a ≤ S1x151.size a
  h_S1x151 : 0 < S1x151.numel
  shapeCasts_S1x151_S1x151 : S1x151.ShapeCasts S1x151
  broadcasts_S5000x1_S5000x151 : S5000x1.Broadcasts S5000x151
  broadcasts_S1x151_S5000x151 : S1x151.Broadcasts S5000x151
  inb_S151x128_S151x128_0_0 : ∀ a, (![0, 0] : Fin 2 → Nat) a + S151x128.size a ≤ S151x128.size a
  h_S151x128 : 0 < S151x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  shapeCasts_S51_S1x51 : S51.ShapeCasts S1x51
  inb_S51x128_S51x128_0_0 : ∀ a, (![0, 0] : Fin 2 → Nat) a + S51x128.size a ≤ S51x128.size a
  h_S51x128 : 0 < S51x128.numel
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S128x51_S128x51_0_0 : ∀ a, (![0, 0] : Fin 2 → Nat) a + S128x51.size a ≤ S128x51.size a
  h_S128x51 : 0 < S128x51.numel
  inb_S1x51_S1x51_0_0 : ∀ a, (![0, 0] : Fin 2 → Nat) a + S1x51.size a ≤ S1x51.size a
  h_S1x51 : 0 < S1x51.numel
  shapeCasts_S1x51_S1x51 : S1x51.ShapeCasts S1x51
  broadcasts_S1x51_S5000x51 : S1x51.Broadcasts S5000x51
  scatter_S50000x52_S800000x1_S800000x52_1_0_0_1_wf : ScatterDims.WF S50000x52 S800000x1 S800000x52 [1] [0] [0] 1
  gather_S50000x151_S800000x1_S800000x151_1_0_n_n_0_1_1151_wf : GatherDims.WF S50000x151 S800000x1 S800000x151 [1] [0] [] [0] [] 1 ![1, 151]
  scatter_S50000x151_S800000x1_S800000x151_1_0_0_1_wf : ScatterDims.WF S50000x151 S800000x1 S800000x151 [1] [0] [0] 1
  dot_S5000x51_S51x151_S5000x151_1_0_0_1_n_n_wf : DotDims.WF S5000x51 S51x151 S5000x151 [1] [0] [0] [1] [] []
  dot_S5000x151_S151x128_S5000x128_1_0_0_1_n_n_wf : DotDims.WF S5000x151 S151x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x51_S51x128_S5000x128_1_0_0_1_n_n_wf : DotDims.WF S5000x51 S51x128 S5000x128 [1] [0] [0] [1] [] []
  dot_S5000x128_S128x128_S5000x128_1_0_0_1_n_n_wf : DotDims.WF S5000x128 S128x128 S5000x128 [1] [0] [0] [1] [] []
  dot_S5000x128_S128x51_S5000x51_1_0_0_1_n_n_wf : DotDims.WF S5000x128 S128x51 S5000x51 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x151.size a ≤ S50000x151.size a
  hwx0_0 : ∀ i : grid0.Coords, EltTy.bits .f32 = 32 ∨ (Rect.block (s := S50000x151) S5000x151.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x151.size a ≤ S50000x151.size a
  hwx0_1 : ∀ i : grid0.Coords, EltTy.bits .f32 = 32 ∨ (Rect.block (s := S50000x151) S5000x151.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x51.size a ≤ S50000x51.size a
  hwx0_2 : ∀ i : grid0.Coords, EltTy.bits .f32 = 32 ∨ (Rect.block (s := S50000x51) S5000x51.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S50000x1.size a
  hwx0_3 : ∀ i : grid0.Coords, EltTy.bits .f32 = 32 ∨ (Rect.block (s := S50000x1) S5000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S51x151.size a ≤ S51x151.size a
  hwx0_4 : ∀ i : grid0.Coords, EltTy.bits .f32 = 32 ∨ (Rect.block (s := S51x151) S51x151.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x151.size a ≤ S1x151.size a
  hwx0_5 : ∀ i : grid0.Coords, EltTy.bits .f32 = 32 ∨ (Rect.block (s := S1x151) S1x151.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S151x128.size a ≤ S151x128.size a
  hwx0_6 : ∀ i : grid0.Coords, EltTy.bits .f32 = 32 ∨ (Rect.block (s := S151x128) S151x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .f32 = 32 ∨ (Rect.block (s := S50000x128) S5000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x51.size a ≤ S50000x51.size a
  hwx1_2 : ∀ i : grid1.Coords, EltTy.bits .f32 = 32 ∨ (Rect.block (s := S50000x51) S5000x51.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S51x128.size a ≤ S51x128.size a
  hwx1_4 : ∀ i : grid1.Coords, EltTy.bits .f32 = 32 ∨ (Rect.block (s := S51x128) S51x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x51.size a ≤ S128x51.size a
  hwx1_8 : ∀ i : grid1.Coords, EltTy.bits .f32 = 32 ∨ (Rect.block (s := S128x51) S128x51.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x51.size a ≤ S1x51.size a
  hwx1_9 : ∀ i : grid1.Coords, EltTy.bits .f32 = 32 ∨ (Rect.block (s := S1x51) S1x51.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x51.size a ≤ S50000x51.size a
  hwx1_10 : ∀ i : grid1.Coords, EltTy.bits .f32 = 32 ∨ (Rect.block (s := S50000x51) S5000x51.size (cc1_transform_10 i) (hinb1_10 i)).WholeWords (EltTy.packing .f32)

variable [Facts₀]

def scatter_S50000x52_S800000x1_S800000x52_1_0_0_1 : ScatterDims S50000x52 S800000x1 S800000x52 where
  updateWindowDims := [1]
  insertedWindowDims := [0]
  scatterDimsToOperandDims := [0]
  indexVectorDim := 1
  wf := scatter_S50000x52_S800000x1_S800000x52_1_0_0_1_wf
def gather_S50000x151_S800000x1_S800000x151_1_0_n_n_0_1_1151 : GatherDims S50000x151 S800000x1 S800000x151 where
  offsetDims := [1]
  collapsedSliceDims := [0]
  operandBatchingDims := []
  startIndicesBatchingDims := []
  startIndexMap := [0]
  indexVectorDim := 1
  sliceSizes := ![1, 151]
  wf := gather_S50000x151_S800000x1_S800000x151_1_0_n_n_0_1_1151_wf
def scatter_S50000x151_S800000x1_S800000x151_1_0_0_1 : ScatterDims S50000x151 S800000x1 S800000x151 where
  updateWindowDims := [1]
  insertedWindowDims := [0]
  scatterDimsToOperandDims := [0]
  indexVectorDim := 1
  wf := scatter_S50000x151_S800000x1_S800000x151_1_0_0_1_wf
def dot_S5000x51_S51x151_S5000x151_1_0_0_1_n_n : DotDims S5000x51 S51x151 S5000x151 where
  lhsContracting := [1]
  rhsContracting := [0]
  lhsNonContracting := [0]
  rhsNonContracting := [1]
  lhsBatch := []
  rhsBatch := []
  wf := dot_S5000x51_S51x151_S5000x151_1_0_0_1_n_n_wf
def dot_S5000x151_S151x128_S5000x128_1_0_0_1_n_n : DotDims S5000x151 S151x128 S5000x128 where
  lhsContracting := [1]
  rhsContracting := [0]
  lhsNonContracting := [0]
  rhsNonContracting := [1]
  lhsBatch := []
  rhsBatch := []
  wf := dot_S5000x151_S151x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x51_S51x128_S5000x128_1_0_0_1_n_n : DotDims S5000x51 S51x128 S5000x128 where
  lhsContracting := [1]
  rhsContracting := [0]
  lhsNonContracting := [0]
  rhsNonContracting := [1]
  lhsBatch := []
  rhsBatch := []
  wf := dot_S5000x51_S51x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x51_S5000x51_1_0_0_1_n_n : DotDims S5000x128 S128x51 S5000x51 where
  lhsContracting := [1]
  rhsContracting := [0]
  lhsNonContracting := [0]
  rhsNonContracting := [1]
  lhsBatch := []
  rhsBatch := []
  wf := dot_S5000x128_S128x51_S5000x51_1_0_0_1_n_n_wf

abbrev win0_0 : Pipeline.Window sig grid0 :=
  Pipeline.Window.ofSpec (Memref.whole main_v14) S5000x151.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x151.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x51.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S51x151.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x151.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S151x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S5000x51.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S51x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S128x51.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v24) S1x51.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v25) S5000x51.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x151 : Shape := ⟨2, ![50000, 151]⟩
abbrev S800000x51 : Shape := ⟨2, ![800000, 51]⟩
abbrev S51x151 : Shape := ⟨2, ![51, 151]⟩
abbrev S151 : Shape := ⟨1, ![151]⟩
abbrev S151x128 : Shape := ⟨2, ![151, 128]⟩
abbrev S128 : Shape := ⟨1, ![128]⟩
abbrev S51x128 : Shape := ⟨2, ![51, 128]⟩
abbrev S128x128 : Shape := ⟨2, ![128, 128]⟩
abbrev S128x51 : Shape := ⟨2, ![128, 51]⟩
abbrev S51 : Shape := ⟨1, ![51]⟩
abbrev S2x800000 : Shape := ⟨2, ![2, 800000]⟩
abbrev S1x800000 : Shape := ⟨2, ![1, 800000]⟩
abbrev S800000 : Shape := ⟨1, ![800000]⟩
abbrev S800000x151 : Shape := ⟨2, ![800000, 151]⟩
abbrev S1x151 : Shape := ⟨2, ![1, 151]⟩
abbrev S_ : Shape := ⟨0, ![]⟩
abbrev S800000x1 : Shape := ⟨2, ![800000, 1]⟩
abbrev S50000x128 : Shape := ⟨2, ![50000, 128]⟩
abbrev S1x128 : Shape := ⟨2, ![1, 128]⟩
abbrev S800000x128 : Shape := ⟨2, ![800000, 128]⟩
abbrev S50000x51 : Shape := ⟨2, ![50000, 51]⟩
abbrev S1x51 : Shape := ⟨2, ![1, 51]⟩

abbrev nBuf : Space → Nat
  | .hbm => 73
  | .vmem => 0
  | .smem => 0
  | _ => 0

abbrev bufTy : (tb : Table) → Fin (tcTables nBuf tb) → BufTy
  | .hbm, ⟨0, _⟩ => ⟨S50000x151, .f32⟩
  | .hbm, ⟨1, _⟩ => ⟨S800000x51, .f32⟩
  | .hbm, ⟨2, _⟩ => ⟨S51x151, .f32⟩
  | .hbm, ⟨3, _⟩ => ⟨S151, .f32⟩
  | .hbm, ⟨4, _⟩ => ⟨S151x128, .f32⟩
  | .hbm, ⟨5, _⟩ => ⟨S128, .f32⟩
  | .hbm, ⟨6, _⟩ => ⟨S51x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x51, .f32⟩
  | .hbm, ⟨11, _⟩ => ⟨S51, .f32⟩
  | .hbm, ⟨12, _⟩ => ⟨S2x800000, .i32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S800000x151, .f32⟩
  | .hbm, ⟨18, _⟩ => ⟨S1x151, .f32⟩
  | .hbm, ⟨19, _⟩ => ⟨S800000x151, .f32⟩
  | .hbm, ⟨20, _⟩ => ⟨S800000x151, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x151, .f32⟩
  | .hbm, ⟨30, _⟩ => ⟨S800000x151, .f32⟩
  | .hbm, ⟨31, _⟩ => ⟨S_, .f32⟩
  | .hbm, ⟨32, _⟩ => ⟨S50000x151, .f32⟩
  | .hbm, ⟨33, _⟩ => ⟨S800000x1, .i32⟩
  | .hbm, ⟨34, _⟩ => ⟨S50000x151, .f32⟩
  | .hbm, ⟨35, _⟩ => ⟨S50000x151, .f32⟩
  | .hbm, ⟨36, _⟩ => ⟨S1x151, .f32⟩
  | .hbm, ⟨37, _⟩ => ⟨S50000x151, .f32⟩
  | .hbm, ⟨38, _⟩ => ⟨S50000x151, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S800000x128, .f32⟩
  | .hbm, ⟨44, _⟩ => ⟨S1x128, .f32⟩
  | .hbm, ⟨45, _⟩ => ⟨S800000x128, .f32⟩
  | .hbm, ⟨46, _⟩ => ⟨S800000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S50000x51, .f32⟩
  | .hbm, ⟨70, _⟩ => ⟨S1x51, .f32⟩
  | .hbm, ⟨71, _⟩ => ⟨S50000x51, .f32⟩
  | .hbm, ⟨72, _⟩ => ⟨S50000x51, .f32⟩
  | _, _ => ⟨S50000x151, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_1 : Ref sig .tc := ⟨.hbm, 47, rfl⟩
abbrev main_v31 : Ref sig .tc := ⟨.hbm, 48, rfl⟩
abbrev main_v32 : Ref sig .tc := ⟨.hbm, 49, rfl⟩
abbrev main_c_2 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S151_S1x151_1 : S151.BroadcastsInDim S1x151 (![1] : Fin 1 → Fin S1x151.rank)
  bcast_S1x151_S800000x151_0_1 : S1x151.BroadcastsInDim S800000x151 (![0, 1] : Fin 2 → Fin S800000x151.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x151 : S_.BroadcastsInDim S50000x151 (![] : Fin 0 → Fin S50000x151.rank)
  bcast_S1x151_S50000x151_0_1 : S1x151.BroadcastsInDim S50000x151 (![0, 1] : Fin 2 → Fin S50000x151.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S800000x128_0_1 : S1x128.BroadcastsInDim S800000x128 (![0, 1] : Fin 2 → Fin S800000x128.rank)
  bcast_S_S50000x128 : S_.BroadcastsInDim S50000x128 (![] : Fin 0 → Fin S50000x128.rank)
  bcast_S51_S1x51_1 : S51.BroadcastsInDim S1x51 (![1] : Fin 1 → Fin S1x51.rank)
  bcast_S1x51_S50000x51_0_1 : S1x51.BroadcastsInDim S50000x51 (![0, 1] : Fin 2 → Fin S50000x51.rank)
  dot_S800000x51_S51x151_S800000x151_1_0_0_1_n_n_wf : DotDims.WF S800000x51 S51x151 S800000x151 [1] [0] [0] [1] [] []
  gather_S50000x151_S800000x1_S800000x151_1_0_n_n_0_1_1151_wf : GatherDims.WF S50000x151 S800000x1 S800000x151 [1] [0] [] [0] [] 1 ![1, 151]
  scatter_S50000x151_S800000x1_S800000x151_1_0_0_1_wf : ScatterDims.WF S50000x151 S800000x1 S800000x151 [1] [0] [0] 1
  dot_S50000x151_S151x128_S50000x128_1_0_0_1_n_n_wf : DotDims.WF S50000x151 S151x128 S50000x128 [1] [0] [0] [1] [] []
  dot_S800000x51_S51x128_S800000x128_1_0_0_1_n_n_wf : DotDims.WF S800000x51 S51x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x51_S50000x51_1_0_0_1_n_n_wf : DotDims.WF S50000x128 S128x51 S50000x51 [1] [0] [0] [1] [] []

variable [Facts₀]

def dot_S800000x51_S51x151_S800000x151_1_0_0_1_n_n : DotDims S800000x51 S51x151 S800000x151 where
  lhsContracting := [1]
  rhsContracting := [0]
  lhsNonContracting := [0]
  rhsNonContracting := [1]
  lhsBatch := []
  rhsBatch := []
  wf := dot_S800000x51_S51x151_S800000x151_1_0_0_1_n_n_wf
def gather_S50000x151_S800000x1_S800000x151_1_0_n_n_0_1_1151 : GatherDims S50000x151 S800000x1 S800000x151 where
  offsetDims := [1]
  collapsedSliceDims := [0]
  operandBatchingDims := []
  startIndicesBatchingDims := []
  startIndexMap := [0]
  indexVectorDim := 1
  sliceSizes := ![1, 151]
  wf := gather_S50000x151_S800000x1_S800000x151_1_0_n_n_0_1_1151_wf
def scatter_S50000x151_S800000x1_S800000x151_1_0_0_1 : ScatterDims S50000x151 S800000x1 S800000x151 where
  updateWindowDims := [1]
  insertedWindowDims := [0]
  scatterDimsToOperandDims := [0]
  indexVectorDim := 1
  wf := scatter_S50000x151_S800000x1_S800000x151_1_0_0_1_wf
def dot_S50000x151_S151x128_S50000x128_1_0_0_1_n_n : DotDims S50000x151 S151x128 S50000x128 where
  lhsContracting := [1]
  rhsContracting := [0]
  lhsNonContracting := [0]
  rhsNonContracting := [1]
  lhsBatch := []
  rhsBatch := []
  wf := dot_S50000x151_S151x128_S50000x128_1_0_0_1_n_n_wf
def dot_S800000x51_S51x128_S800000x128_1_0_0_1_n_n : DotDims S800000x51 S51x128 S800000x128 where
  lhsContracting := [1]
  rhsContracting := [0]
  lhsNonContracting := [0]
  rhsNonContracting := [1]
  lhsBatch := []
  rhsBatch := []
  wf := dot_S800000x51_S51x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x51_S50000x51_1_0_0_1_n_n : DotDims S50000x128 S128x51 S50000x51 where
  lhsContracting := [1]
  rhsContracting := [0]
  lhsNonContracting := [0]
  rhsNonContracting := [1]
  lhsBatch := []
  rhsBatch := []
  wf := dot_S50000x128_S128x51_S50000x51_1_0_0_1_n_n_wf

class Facts : Prop extends Facts₀ where

variable [Facts]
-- ==== Proof.PreFacts.lean ====
/-
  What the precondition says, element by element: every entry of each of the twelve float inputs is a real number
  (neither infinity), and every source-node index, the first row of the edge index array, lies in [-50000, 50000).
-/
import proofs.«417725_j34583076668022_2_alg».proof.Pre_finite_inputs
import Idealize.ShloMosaic.Lib.ValueIdx
import Idealize.ShloMosaic.Lib.ReduceAll
import Idealize.ShloMosaic.PureOps.Ideal.Laws

noncomputable section

namespace Cert.PreFacts

open Idealize.ShloMosaic Idealize.ShloMosaic.ValueIdx Cert.Pre_finite_inputs

variable [hF : Cert.Pre_finite_inputs.Facts]

/-- The source-node column: row 0 of the 2 x 800000 edge index array, as a vector of 800000 words. -/
def srcCol (a12 : IVec S2x800000 32) : IVec S800000 32 :=
  shapeCast S800000 (extractStridedSlice S1x800000 ![0, 0] a12 hF.slices_S2x800000_S1x800000_0_0) hF.shapeCasts_S1x800000_S800000

/-- The precondition, read element by element. -/
structure Holds (a0 : FVec Ideal S50000x151 .f32) (a1 : FVec Ideal S800000x51 .f32) (a2 : FVec Ideal S51x151 .f32) (a3 : FVec Ideal S151 .f32) (a4 : FVec Ideal S151x128 .f32) (a5 : FVec Ideal S128 .f32) (a6 : FVec Ideal S51x128 .f32) (a7 : FVec Ideal S128 .f32) (a8 : FVec Ideal S128x128 .f32) (a9 : FVec Ideal S128 .f32) (a10 : FVec Ideal S128x51 .f32) (a11 : FVec Ideal S51 .f32) (a12 : IVec S2x800000 32) : Prop where
  real0 : ∀ i : S50000x151.Idx, ∃ r : ℝ, a0 i = (r : EReal)
  real1 : ∀ i : S800000x51.Idx, ∃ r : ℝ, a1 i = (r : EReal)
  real2 : ∀ i : S51x151.Idx, ∃ r : ℝ, a2 i = (r : EReal)
  real3 : ∀ i : S151.Idx, ∃ r : ℝ, a3 i = (r : EReal)
  real4 : ∀ i : S151x128.Idx, ∃ r : ℝ, a4 i = (r : EReal)
  real5 : ∀ i : S128.Idx, ∃ r : ℝ, a5 i = (r : EReal)
  real6 : ∀ i : S51x128.Idx, ∃ r : ℝ, a6 i = (r : EReal)
  real7 : ∀ i : S128.Idx, ∃ r : ℝ, a7 i = (r : EReal)
  real8 : ∀ i : S128x128.Idx, ∃ r : ℝ, a8 i = (r : EReal)
  real9 : ∀ i : S128.Idx, ∃ r : ℝ, a9 i = (r : EReal)
  real10 : ∀ i : S128x51.Idx, ∃ r : ℝ, a10 i = (r : EReal)
  real11 : ∀ i : S51.Idx, ∃ r : ℝ, a11 i = (r : EReal)
  src_lo : ∀ i : S800000.Idx, (-50000 : ℤ) ≤ (srcCol a12 i).toInt
  src_hi : ∀ i : S800000.Idx, (srcCol a12 i).toInt < (50000 : ℤ)

/-- The rank-zero shape has exactly one index. -/
private instance : Subsingleton S_.Idx := ⟨fun a b => funext fun d => d.elim0⟩

/-- A truth value written as a one-bit word is the word one exactly when it is true. -/
private theorem ofBool_one {b : Bool} : BitVec.ofBool b = 1#1 ↔ b = true := by cases b <;> decide

/-- An extended real whose absolute value is strictly below plus infinity is a real number. -/
private theorem real_of_abs_lt_top (x : EReal) (h : max x (-x) < ⊤) : ∃ r : ℝ, x = (r : EReal) := by
  induction x using EReal.rec with
  | bot => simp at h
  | top => simp at h
  | coe r => exact ⟨r, rfl⟩

/-- The pattern with all exponent bits set and nothing else denotes plus infinity. -/
private theorem inf_bits : Ideal.ofBits .f32 0x7F800000#32 = ⊤ := by simp [Ideal.ofBits, Ideal.ieee]

/-- If "every |a i| < +inf", taken as a reduction by and over all axes, came out one, every entry of a is real. -/
private theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
      (constantI S_ 1 1#1) hr hu ValueIdx.ix0 = 1#1)
    (i : s.Idx) : ∃ r : ℝ, a i = (r : EReal) := by
  have h1 := Host.reduce_andi_all _ _ hr hu _ e i
  have h2 : Ideal.cmp .olt (max (a i) (-(a i))) (Ideal.ofBits .f32 0x7F800000#32) = 1#1 := h1
  rw [inf_bits] at h2
  simp only [Ideal.cmp, ofBool_one, decide_eq_true_eq] at h2
  exact real_of_abs_lt_top _ h2

/-- If "every lo <= v i and v i < hi" (signed), taken as a reduction by and, came out one, every word of v is in
    range: here lo is -50000 and hi is 50000. -/
private theorem range_of_all {axes : List (Fin S800000.rank)} (v : IVec S800000 32)
    (hb : S_.BroadcastsInDim S800000 (![] : Fin 0 → Fin S800000.rank)) (hr : S800000.ReducesTo axes S_) (hu : 0 < S_.numel)
    (e : Host.reduce IntOp.andi
      (andi (cmpi .sge v (broadcastInDim S800000 ![] hb (constantI S_ 32 4294917296#32)))
        (cmpi .slt v (broadcastInDim S800000 ![] hb (constantI S_ 32 50000#32))))
      (constantI S_ 1 1#1) hr hu ValueIdx.ix0 = 1#1)
    (i : S800000.Idx) : (-50000 : ℤ) ≤ (v i).toInt ∧ (v i).toInt < (50000 : ℤ) := by
  have h1 := Host.reduce_andi_all _ _ hr hu _ e i
  have h2 : IntOp.andi (IntOp.cmpi .sge (v i) 4294917296#32) (IntOp.cmpi .slt (v i) 50000#32) = 1#1 := h1
  rw [IntOp.andi_eq_one, IntOp.cmpi_sge, IntOp.cmpi_slt] at h2
  have e1 : (4294917296#32 : BitVec 32).toInt = -50000 := by decide
  have e2 : (50000#32 : BitVec 32).toInt = 50000 := by decide
  rw [e1, e2] at h2
  exact h2

/-- The printed precondition, all ones, gives the element facts. -/
theorem holds_of_pre (a0 : FVec Ideal S50000x151 .f32) (a1 : FVec Ideal S800000x51 .f32) (a2 : FVec Ideal S51x151 .f32) (a3 : FVec Ideal S151 .f32) (a4 : FVec Ideal S151x128 .f32) (a5 : FVec Ideal S128 .f32) (a6 : FVec Ideal S51x128 .f32) (a7 : FVec Ideal S128 .f32) (a8 : FVec Ideal S128x128 .f32) (a9 : FVec Ideal S128 .f32) (a10 : FVec Ideal S128x51 .f32) (a11 : FVec Ideal S51 .f32) (a12 : IVec S2x800000 32)
    (h : Cert.Pre_finite_inputs.fn (F := Ideal) a0 a1 a2 a3 a4 a5 a6 a7 a8 a9 a10 a11 a12 = fun _ => 1#1) : Holds a0 a1 a2 a3 a4 a5 a6 a7 a8 a9 a10 a11 a12 := by
  have h0 := congrFun h ValueIdx.ix0
  dsimp only [fn, fn_part1, fn_part2, fn_part3, fn_part4] at h0
  simp only [andi, IntOp.andi_eq_one] at h0
  obtain ⟨⟨⟨⟨⟨⟨⟨⟨⟨⟨⟨⟨e0, e1⟩, e2⟩, e3⟩, e4⟩, e5⟩, e6⟩, e7⟩, e8⟩, e9⟩, e10⟩, e11⟩, e12⟩ := h0
  have hs := range_of_all (srcCol a12) _ _ _ e12
  exact
    { real0 := real_of_all a0 _ _ _ e0
      real1 := real_of_all a1 _ _ _ e1
      real2 := real_of_all a2 _ _ _ e2
      real3 := real_of_all a3 _ _ _ e3
      real4 := real_of_all a4 _ _ _ e4
      real5 := real_of_all a5 _ _ _ e5
      real6 := real_of_all a6 _ _ _ e6
      real7 := real_of_all a7 _ _ _ e7
      real8 := real_of_all a8 _ _ _ e8
      real9 := real_of_all a9 _ _ _ e9
      real10 := real_of_all a10 _ _ _ e10
      real11 := real_of_all a11 _ _ _ e11
      src_lo := fun i => (hs i).1
      src_hi := fun i => (hs i).2 }

end Cert.PreFacts

end
-- ==== Proof.KTerms.lean ====
/-
  The values the kernel's host program computes around its two kernel calls, as functions of the argument arrays.
  From the edge index array: the source column, the destination column as a column of scatter indices, the source
  column with a negative index wrapped (src + 50000) as a column of gather indices, and the mask "the wrapped index is
  in [0, 49999]". A masked gather of the rows of a node array z: row e is z's row at the wrapped source index where
  the mask holds and the not-a-number word elsewhere. The segment sums: each node row n collects the update rows
  whose destination index is n — of the edge attributes with a column of ones appended (columns 0..50 the aggregated
  attributes, column 51 the in-degree), and of a gathered node array.
-/
import proofs.«417725_j34583076668022_2_alg».proof.Proof.Gen.KernelIdeal

noncomputable section

namespace Cert.KernelIdeal.Terms

open Idealize.ShloMosaic Idealize.SL.Sem Cert.KernelIdeal Cert.KernelIdeal.Facts₀ Cert.KernelIdeal.Facts

variable {F : FTy → Type} [FloatOps F]

/-- The source-node column of the edge index array. -/
def srcT (a12 : IVec S2x800000 32) : IVec S800000 32 :=
  shapeCast S800000 (extractStridedSlice S1x800000 ![0, 0] a12 slices_S2x800000_S1x800000_0_0) shapeCasts_S1x800000_S800000

/-- The destination-node column of the edge index array. -/
def dstT (a12 : IVec S2x800000 32) : IVec S800000 32 :=
  shapeCast S800000 (extractStridedSlice S1x800000 ![1, 0] a12 slices_S2x800000_S1x800000_1_0) shapeCasts_S1x800000_S800000

/-- The destination column as an 800000 x 1 array of scatter indices. -/
def dstI (a12 : IVec S2x800000 32) : IVec S800000x1 32 :=
  broadcastInDim S800000x1 ![0] bcast_S800000_S800000x1_0 (dstT a12)

/-- The source column with a negative index counted from the end: src + 50000 where src < 0. -/
def wrapT (a12 : IVec S2x800000 32) : IVec S800000 32 :=
  select (cmpi .slt (srcT a12) (broadcastInDim S800000 ![] bcast_S_S800000 (constantI S_ 32 0#32)))
    (addi (srcT a12) (broadcastInDim S800000 ![] bcast_S_S800000 (constantI S_ 32 50000#32))) (srcT a12)

/-- The wrapped source column as an 800000 x 1 array of gather indices. -/
def srcW (a12 : IVec S2x800000 32) : IVec S800000x1 32 :=
  broadcastInDim S800000x1 ![0] bcast_S800000_S800000x1_0 (wrapT a12)

/-- Per edge: the wrapped source index lies in [0, 49999]. -/
def maskT (a12 : IVec S2x800000 32) : IVec S800000 1 :=
  Host.reduce IntOp.andi
    (andi (cmpi .sge (srcW a12) (broadcastInDim S800000x1 ![] bcast_S_S800000x1 (constantI S_ 32 0#32)))
      (cmpi .sle (srcW a12) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The masked gather of the rows of a 50000 x 151 node array. -/
def take151 (z : FVec F S50000x151 .f32) (a12 : IVec S2x800000 32) : FVec F S800000x151 .f32 :=
  select (broadcastInDim S800000x151 ![0] bcast_S800000_S800000x151_0 (maskT a12))
    (Host.gather gather_S50000x151_S800000x1_S800000x151_1_0_n_n_0_1_1151 z (srcW a12))
    (broadcastInDim S800000x151 ![] bcast_S_S800000x151 (constant S_ .f32 0x7FC00000#32))

/-- The masked gather of the rows of a 50000 x 128 node array. -/
def take128 (z : FVec F S50000x128 .f32) (a12 : IVec S2x800000 32) : FVec F S800000x128 .f32 :=
  select (broadcastInDim S800000x128 ![0] bcast_S800000_S800000x128_0 (maskT a12))
    (Host.gather gather_S50000x128_S800000x1_S800000x128_1_0_n_n_0_1_1128 z (srcW a12))
    (broadcastInDim S800000x128 ![] bcast_S_S800000x128 (constant S_ .f32 0x7FC00000#32))

/-- The segment sum, by destination node, of the edge attributes with a column of ones appended. -/
def seg52 (a1 : FVec F S800000x51 .f32) (a12 : IVec S2x800000 32) : FVec F S50000x52 .f32 :=
  Host.scatterAdd scatter_S50000x52_S800000x1_S800000x52_1_0_0_1
    (broadcastInDim S50000x52 ![] bcast_S_S50000x52 (constant S_ .f32 0x00000000#32)) (dstI a12)
    (concatenate S800000x52 1 [⟨S800000x51, a1⟩,
      ⟨S800000x1, broadcastInDim S800000x1 ![] bcast_S_S800000x1 (constant S_ .f32 0x3F800000#32)⟩]
      concatenates_S800000x51_S800000x1_S800000x52_d1)

/-- Columns 0..50 of that segment sum: the aggregated edge attributes. -/
def eaAgg (a1 : FVec F S800000x51 .f32) (a12 : IVec S2x800000 32) : FVec F S50000x51 .f32 :=
  extractStridedSlice S50000x51 ![0, 0] (seg52 a1 a12) slices_S50000x52_S50000x51_0_0

/-- Column 51 of that segment sum: the in-degree. -/
def degT (a1 : FVec F S800000x51 .f32) (a12 : IVec S2x800000 32) : FVec F S50000x1 .f32 :=
  extractStridedSlice S50000x1 ![0, 51] (seg52 a1 a12) slices_S50000x52_S50000x1_0_51

/-- The segment sum, by destination node, of an 800000 x 151 array of edge rows. -/
def seg151 (u : FVec F S800000x151 .f32) (a12 : IVec S2x800000 32) : FVec F S50000x151 .f32 :=
  Host.scatterAdd scatter_S50000x151_S800000x1_S800000x151_1_0_0_1
    (broadcastInDim S50000x151 ![] bcast_S_S50000x151 (constant S_ .f32 0x00000000#32)) (dstI a12) u

/-- The segment sum, by destination node, of an 800000 x 128 array of edge rows. -/
def seg128 (u : FVec F S800000x128 .f32) (a12 : IVec S2x800000 32) : FVec F S50000x128 .f32 :=
  Host.scatterAdd scatter_S50000x128_S800000x1_S800000x128_1_0_0_1
    (broadcastInDim S50000x128 ![] bcast_S_S50000x128 (constant S_ .f32 0x00000000#32)) (dstI a12) u

end Cert.KernelIdeal.Terms

end
-- ==== Proof.KHost.lean ====
/-
  What each kernel call finds in its operand arrays, as host terms of the launched arguments.
  The first call reads: the segment sum of the masked gather of the node features, the node features, the aggregated
  edge attributes, the in-degree column, the first edge weights, the first edge bias as a 1 x 151 row, the first node
  weights, the first node bias as a 1 x 128 row. The second call reads: the segment sum of the masked gather of the
  first call's output, that output, the same aggregated edge attributes and in-degree column, and the second layer's
  and the output projection's weights and bias rows. No host operation between the calls writes any of these but the
  ones named, and the first call leaves its input arrays as it found them.
-/
import proofs.«417725_j34583076668022_2_alg».proof.Proof.Gen.KernelIdeal.Frame
import proofs.«417725_j34583076668022_2_alg».proof.Proof.KTerms
import Idealize.ShloMosaic.Lib.StableHlo.Run

set_option maxRecDepth 16384

noncomputable section

namespace Cert.KernelIdeal.KHost

open Idealize.ShloMosaic Idealize.ShloMosaic.TcCoe Idealize.SL.Sem Idealize.ShloMosaic.StableHlo
open Cert.KernelIdeal Cert.KernelIdeal.Gen Cert.KernelIdeal.Terms Cert.KernelIdeal.Facts₀ Cert.KernelIdeal.Facts

variable {F : FTy → Type} [FloatOps F]
variable (m : (ℓ : Loc nD τ sig) → Buf (Elt F) ℓ) (ρ : Dev nD → PrngReg)

/-- Argument 0 as launched. -/
abbrev in0 (c : Dev nD) : FVec F S50000x151 .f32 := m ((c : Thread nD τ).loc main_arg0)
/-- Argument 1 as launched. -/
abbrev in1 (c : Dev nD) : FVec F S800000x51 .f32 := m ((c : Thread nD τ).loc main_arg1)
/-- Argument 2 as launched. -/
abbrev in2 (c : Dev nD) : FVec F S51x151 .f32 := m ((c : Thread nD τ).loc main_arg2)
/-- Argument 3 as launched. -/
abbrev in3 (c : Dev nD) : FVec F S151 .f32 := m ((c : Thread nD τ).loc main_arg3)
/-- Argument 4 as launched. -/
abbrev in4 (c : Dev nD) : FVec F S151x128 .f32 := m ((c : Thread nD τ).loc main_arg4)
/-- Argument 5 as launched. -/
abbrev in5 (c : Dev nD) : FVec F S128 .f32 := m ((c : Thread nD τ).loc main_arg5)
/-- Argument 6 as launched. -/
abbrev in6 (c : Dev nD) : FVec F S51x128 .f32 := m ((c : Thread nD τ).loc main_arg6)
/-- Argument 7 as launched. -/
abbrev in7 (c : Dev nD) : FVec F S128 .f32 := m ((c : Thread nD τ).loc main_arg7)
/-- Argument 8 as launched. -/
abbrev in8 (c : Dev nD) : FVec F S128x128 .f32 := m ((c : Thread nD τ).loc main_arg8)
/-- Argument 9 as launched. -/
abbrev in9 (c : Dev nD) : FVec F S128 .f32 := m ((c : Thread nD τ).loc main_arg9)
/-- Argument 10 as launched. -/
abbrev in10 (c : Dev nD) : FVec F S128x51 .f32 := m ((c : Thread nD τ).loc main_arg10)
/-- Argument 11 as launched. -/
abbrev in11 (c : Dev nD) : FVec F S51 .f32 := m ((c : Thread nD τ).loc main_arg11)
/-- The edge index array as launched. -/
abbrev in12 (c : Dev nD) : IVec S2x800000 32 := m ((c : Thread nD τ).loc main_arg12)

/-- The first call's output array after its run: what its ten write-backs leave. -/
abbrev hidden (c : Dev nD) : FVec F S50000x128 .f32 := (dat0 (V3 m ρ) c).arrAt 8 cfg0.N

/-! ## The five stretches of host operations, each read from any contents -/

section Stretches
variable (V : Valuation τ sig (Elt F))

/-- A buffer none of a stretch's operations writes keeps its contents: the stretch's result buffers are told apart
    from it as references. -/
local macro "keeps" hb:ident : tactic => `(tactic| (
  refine StableHlo.after_of_forall_not_mem _ _ (List.forall_iff_forall_mem.mp ?_)
  simp only [hostOps0, hostOps0_1, hostOps0_2, hostOps1, hostOps1_1, List.Forall, StableHlo.nullary_writes,
    StableHlo.unary_writes, StableHlo.binary_writes, StableHlo.ternary_writes, StableHlo.reshape_writes,
    Finset.mem_singleton]
  repeat' apply And.intro
  all_goals exact StableHlo.devRef_ne_of_ne (fun h => $hb (by subst h; decide))))

/-- The result buffers of the five stretches of host operations. -/
private abbrev wr0 : List (Ref sig .tc) :=
  [main_v0, main_v1, main_v2, main_v3, main_cst, main_v4, main_v5, main_cst_0, main_v6, main_v7, main_v8, main_v9, main_v10]
private abbrev wr01 : List (Ref sig .tc) :=
  [main_call0_c, main_call0_v0, main_call0_v1, main_call0_c_0, main_call0_v2, main_call0_v3, main_call0_v4, main_call0_v5,
    main_call0_c_1, main_call0_c_2, main_call0_v6, main_call0_v7, main_call0_v8, main_call0_v9, main_call0_v10,
    main_call0_v11, main_call0_c_3, main_call0_v12, main_call0_v13, main_call0_v14, main_call0_cst, main_call0_v15, main_v11]
private abbrev wr02 : List (Ref sig .tc) := [main_cst_1, main_v12, main_v13, main_v14, main_v15, main_v16]
private abbrev wr1 : List (Ref sig .tc) :=
  [main_call1_c, main_call1_v0, main_call1_v1, main_call1_c_0, main_call1_v2, main_call1_v3, main_call1_v4, main_call1_v5,
    main_call1_c_1, main_call1_c_2, main_call1_v6, main_call1_v7, main_call1_v8, main_call1_v9, main_call1_v10,
    main_call1_v11, main_call1_c_3, main_call1_v12, main_call1_v13, main_call1_v14, main_call1_cst, main_call1_v15, main_v18]
private abbrev wr11 : List (Ref sig .tc) := [main_cst_2, main_v19, main_v20, main_v21, main_v22, main_v23, main_v24]

private theorem keep0 (b : Ref sig .tc) (hb : b ∉ wr0) :
    StableHlo.after hostOps0 V (Proc.devRef .tc b) = V (Proc.devRef .tc b) := by
  keeps hb
private theorem keep01 (b : Ref sig .tc) (hb : b ∉ wr01) :
    StableHlo.after hostOps0_1 V (Proc.devRef .tc b) = V (Proc.devRef .tc b) := by
  keeps hb
private theorem keep02 (b : Ref sig .tc) (hb : b ∉ wr02) :
    StableHlo.after hostOps0_2 V (Proc.devRef .tc b) = V (Proc.devRef .tc b) := by
  keeps hb
private theorem keep1 (b : Ref sig .tc) (hb : b ∉ wr1) :
    StableHlo.after hostOps1 V (Proc.devRef .tc b) = V (Proc.devRef .tc b) := by
  keeps hb
private theorem keep11 (b : Ref sig .tc) (hb : b ∉ wr11) :
    StableHlo.after hostOps1_1 V (Proc.devRef .tc b) = V (Proc.devRef .tc b) := by
  keeps hb

/-! What the first stretch leaves in the four buffers read later: the two columns of the edge index array and the two
    slices of the segment sum of the edge attributes. -/

private theorem ops0_v1 :
    (StableHlo.after hostOps0 V (Proc.devRef .tc main_v1) : IVec S800000 32) = srcT (V (Proc.devRef .tc main_arg12)) := by
  unfold srcT
  after_results
  rfl
private theorem ops0_v3 :
    (StableHlo.after hostOps0 V (Proc.devRef .tc main_v3) : IVec S800000 32) = dstT (V (Proc.devRef .tc main_arg12)) := by
  unfold dstT
  after_results
  rfl

private theorem ops0_v9 :
    (StableHlo.after hostOps0 V (Proc.devRef .tc main_v9) : FVec F S50000x51 .f32)
      = eaAgg (V (Proc.devRef .tc main_arg1)) (V (Proc.devRef .tc main_arg12)) := by
  unfold eaAgg seg52 dstI dstT
  after_results
  rfl
private theorem ops0_v10 :
    (StableHlo.after hostOps0 V (Proc.devRef .tc main_v10) : FVec F S50000x1 .f32)
      = degT (V (Proc.devRef .tc main_arg1)) (V (Proc.devRef .tc main_arg12)) := by
  unfold degT seg52 dstI dstT
  after_results
  rfl

/-! The typed references' transports, which are identities at a literal reference: a value moved to the buffer's
    type and back, a read of a buffer at its own type, a write at its own type. -/

private theorem ofBuf_toBuf {T : BufTy} (x : StableHlo.TRef sig T) (v : T.Contents (Elt F)) : x.ofBuf (x.toBuf v) = v := by
  obtain ⟨r, rfl, _, _⟩ := x
  rfl
private theorem ofBuf_v1 :
    (.of main_v1 : StableHlo.TRef sig ⟨S800000, .i32⟩).ofBuf (V (Proc.devRef .tc main_v1)) = V (Proc.devRef .tc main_v1) := rfl
private theorem ofBuf_arg0 :
    (.of main_arg0 : StableHlo.TRef sig ⟨S50000x151, .f32⟩).ofBuf (V (Proc.devRef .tc main_arg0))
      = V (Proc.devRef .tc main_arg0) := rfl
private theorem ofBuf_v17 :
    (.of main_v17 : StableHlo.TRef sig ⟨S50000x128, .f32⟩).ofBuf (V (Proc.devRef .tc main_v17))
      = V (Proc.devRef .tc main_v17) := rfl
private theorem toBuf_v11 (v : (⟨S800000x151, .f32⟩ : BufTy).Contents (Elt F)) :
    (.of main_v11 : StableHlo.TRef sig ⟨S800000x151, .f32⟩).toBuf v = v := rfl
private theorem toBuf_v18 (v : (⟨S800000x128, .f32⟩ : BufTy).Contents (Elt F)) :
    (.of main_v18 : StableHlo.TRef sig ⟨S800000x128, .f32⟩).toBuf v = v := rfl

/-! The masked gather's stretch, read at its result, from contents whose source column is the edge index array's. -/

private theorem ops01_v11 (a12 : IVec S2x800000 32) (hs : (V (Proc.devRef .tc main_v1) : IVec S800000 32) = srcT a12) :
    (StableHlo.after hostOps0_1 V (Proc.devRef .tc main_v11) : FVec F S800000x151 .f32)
      = take151 (V (Proc.devRef .tc main_arg0)) a12 := by
  unfold take151 maskT srcW wrapT
  rw [← hs]
  after_results_simp
  simp only [ofBuf_toBuf, ofBuf_v1, ofBuf_arg0, toBuf_v11]
private theorem ops1_v18 (a12 : IVec S2x800000 32) (hs : (V (Proc.devRef .tc main_v1) : IVec S800000 32) = srcT a12) :
    (StableHlo.after hostOps1 V (Proc.devRef .tc main_v18) : FVec F S800000x128 .f32)
      = take128 (V (Proc.devRef .tc main_v17)) a12 := by
  unfold take128 maskT srcW wrapT
  rw [← hs]
  after_results_simp
  simp only [ofBuf_toBuf, ofBuf_v1, ofBuf_v17, toBuf_v18]

/-! The segment sums' stretches, read at their results, from contents whose destination column is the edge index
    array's; and the bias rows. -/

private theorem ops02_v14 (a12 : IVec S2x800000 32) (hd : (V (Proc.devRef .tc main_v3) : IVec S800000 32) = dstT a12) :
    (StableHlo.after hostOps0_2 V (Proc.devRef .tc main_v14) : FVec F S50000x151 .f32)
      = seg151 (V (Proc.devRef .tc main_v11)) a12 := by
  unfold seg151 dstI
  rw [← hd]
  after_results
private theorem ops02_v15 :
    (StableHlo.after hostOps0_2 V (Proc.devRef .tc main_v15) : FVec F S1x151 .f32)
      = shapeCast S1x151 (V (Proc.devRef .tc main_arg3)) Facts₀.shapeCasts_S151_S1x151 := by
  after_results
  rfl
private theorem ops02_v16 :
    (StableHlo.after hostOps0_2 V (Proc.devRef .tc main_v16) : FVec F S1x128 .f32)
      = shapeCast S1x128 (V (Proc.devRef .tc main_arg5)) Facts₀.shapeCasts_S128_S1x128 := by
  after_results
  rfl
private theorem ops11_v21 (a12 : IVec S2x800000 32) (hd : (V (Proc.devRef .tc main_v3) : IVec S800000 32) = dstT a12) :
    (StableHlo.after hostOps1_1 V (Proc.devRef .tc main_v21) : FVec F S50000x128 .f32)
      = seg128 (V (Proc.devRef .tc main_v18)) a12 := by
  unfold seg128 dstI
  rw [← hd]
  after_results
private theorem ops11_v22 :
    (StableHlo.after hostOps1_1 V (Proc.devRef .tc main_v22) : FVec F S1x128 .f32)
      = shapeCast S1x128 (V (Proc.devRef .tc main_arg7)) Facts₀.shapeCasts_S128_S1x128 := by
  after_results
  rfl
private theorem ops11_v23 :
    (StableHlo.after hostOps1_1 V (Proc.devRef .tc main_v23) : FVec F S1x128 .f32)
      = shapeCast S1x128 (V (Proc.devRef .tc main_arg9)) Facts₀.shapeCasts_S128_S1x128 := by
  after_results
  rfl
private theorem ops11_v24 :
    (StableHlo.after hostOps1_1 V (Proc.devRef .tc main_v24) : FVec F S1x51 .f32)
      = shapeCast S1x51 (V (Proc.devRef .tc main_arg11)) Facts₀.shapeCasts_S51_S1x51 := by
  after_results
  rfl

end Stretches

/-! ## Buffers no stretch writes, walked back to the launch -/

/-- A buffer the first two stretches do not write holds, after them, what was launched. -/
private theorem W2_keep (c : Dev nD) (b : Ref sig .tc) (h0 : b ∉ wr0) (h01 : b ∉ wr01) :
    W2 m ρ c (Proc.devRef .tc b) = m ((c : Thread nD τ).loc b) :=
  (keep01 _ b h01).trans ((keep0 _ b h0).trans rfl)
/-- A buffer the first three stretches do not write holds, at the first call's entry, what was launched. -/
private theorem W3_keep (c : Dev nD) (b : Ref sig .tc) (h0 : b ∉ wr0) (h01 : b ∉ wr01) (h02 : b ∉ wr02) :
    W3 m ρ c (Proc.devRef .tc b) = m ((c : Thread nD τ).loc b) :=
  (keep02 _ b h02).trans (W2_keep m ρ c b h0 h01)
/-- A buffer that is no array of the first call and that the first four stretches do not write holds, after them,
    what was launched. -/
private theorem W5_keep (c : Dev nD) (b : Ref sig .tc) (h0 : b ∉ wr0) (h01 : b ∉ wr01) (h02 : b ∉ wr02)
    (hs : ∀ w, Pipeline.arrRef spec0 w ≠ b) (h1 : b ∉ wr1) :
    W5 m ρ c (Proc.devRef .tc b) = m ((c : Thread nD τ).loc b) :=
  (keep1 _ b h1).trans ((W4_of_ne m ρ c b hs).trans (W3_keep m ρ c b h0 h01 h02))
/-- The same through the fifth stretch, to the second call's entry. -/
private theorem W6_keep (c : Dev nD) (b : Ref sig .tc) (h0 : b ∉ wr0) (h01 : b ∉ wr01) (h02 : b ∉ wr02)
    (hs : ∀ w, Pipeline.arrRef spec0 w ≠ b) (h1 : b ∉ wr1) (h11 : b ∉ wr11) :
    W6 m ρ c (Proc.devRef .tc b) = m ((c : Thread nD τ).loc b) :=
  (keep11 _ b h11).trans (W5_keep m ρ c b h0 h01 h02 hs h1)

/-- The source column, as the first stretch leaves it. -/
private theorem W1_v1 (c : Dev nD) : (W1 m ρ c (Proc.devRef .tc main_v1) : IVec S800000 32) = srcT (in12 m c) :=
  ops0_v1 (W0 m ρ c)
/-- The destination column, as the first stretch leaves it. -/
private theorem W1_v3 (c : Dev nD) : (W1 m ρ c (Proc.devRef .tc main_v3) : IVec S800000 32) = dstT (in12 m c) :=
  ops0_v3 (W0 m ρ c)
/-- Neither column is written again before the first call. -/
private theorem W2_v3 (c : Dev nD) : (W2 m ρ c (Proc.devRef .tc main_v3) : IVec S800000 32) = dstT (in12 m c) :=
  (keep01 _ main_v3 (by decide)).trans (W1_v3 m ρ c)
private theorem W3_v1 (c : Dev nD) : (W3 m ρ c (Proc.devRef .tc main_v1) : IVec S800000 32) = srcT (in12 m c) :=
  (keep02 _ main_v1 (by decide)).trans ((keep01 _ main_v1 (by decide)).trans (W1_v1 m ρ c))
private theorem W3_v3 (c : Dev nD) : (W3 m ρ c (Proc.devRef .tc main_v3) : IVec S800000 32) = dstT (in12 m c) :=
  (keep02 _ main_v3 (by decide)).trans (W2_v3 m ρ c)

/-- An input array of the first call holds at its exit what it held at its entry. -/
private theorem W4_in (c : Dev nD) (w : Fin cfg0.W) (hw : (cfg0.win w).isOut = false) :
    W4 m ρ c (Proc.devRef .tc (Pipeline.arrRef spec0 w)) = V3 m ρ c (Pipeline.arrRef spec0 w) :=
  (W4_arr m ρ c w).trans (((dat0 (V3 m ρ) c).arrAt_in w hw _).trans (A_eq0 (V3 m ρ) c w))

/-! ## The first call's operands at its entry -/

theorem V3_xagg (c : Dev nD) :
    (V3 m ρ c main_v14 : FVec F S50000x151 .f32) = seg151 (take151 (in0 m c) (in12 m c)) (in12 m c) :=
  (ops02_v14 (W2 m ρ c) (in12 m c) (W2_v3 m ρ c)).trans
    (congrArg (fun u : FVec F S800000x151 .f32 => seg151 u (in12 m c))
      ((ops01_v11 (W1 m ρ c) (in12 m c) (W1_v1 m ρ c)).trans
        (congrArg (fun z : FVec F S50000x151 .f32 => take151 z (in12 m c)) ((keep0 _ main_arg0 (by decide)).trans rfl))))
theorem V3_x (c : Dev nD) : (V3 m ρ c main_arg0 : FVec F S50000x151 .f32) = in0 m c :=
  W3_keep m ρ c main_arg0 (by decide) (by decide) (by decide)
theorem V3_eaAgg (c : Dev nD) : (V3 m ρ c main_v9 : FVec F S50000x51 .f32) = eaAgg (in1 m c) (in12 m c) :=
  (keep02 _ main_v9 (by decide)).trans ((keep01 _ main_v9 (by decide)).trans (ops0_v9 (W0 m ρ c)))
theorem V3_deg (c : Dev nD) : (V3 m ρ c main_v10 : FVec F S50000x1 .f32) = degT (in1 m c) (in12 m c) :=
  (keep02 _ main_v10 (by decide)).trans ((keep01 _ main_v10 (by decide)).trans (ops0_v10 (W0 m ρ c)))
theorem V3_we (c : Dev nD) : (V3 m ρ c main_arg2 : FVec F S51x151 .f32) = in2 m c :=
  W3_keep m ρ c main_arg2 (by decide) (by decide) (by decide)
theorem V3_be (c : Dev nD) :
    (V3 m ρ c main_v15 : FVec F S1x151 .f32) = shapeCast S1x151 (in3 m c) Facts₀.shapeCasts_S151_S1x151 :=
  (ops02_v15 (W2 m ρ c)).trans
    (congrArg (fun z : FVec F S151 .f32 => shapeCast S1x151 z Facts₀.shapeCasts_S151_S1x151)
      (W2_keep m ρ c main_arg3 (by decide) (by decide)))
theorem V3_w (c : Dev nD) : (V3 m ρ c main_arg4 : FVec F S151x128 .f32) = in4 m c :=
  W3_keep m ρ c main_arg4 (by decide) (by decide) (by decide)
theorem V3_b (c : Dev nD) :
    (V3 m ρ c main_v16 : FVec F S1x128 .f32) = shapeCast S1x128 (in5 m c) Facts₀.shapeCasts_S128_S1x128 :=
  (ops02_v16 (W2 m ρ c)).trans
    (congrArg (fun z : FVec F S128 .f32 => shapeCast S1x128 z Facts₀.shapeCasts_S128_S1x128)
      (W2_keep m ρ c main_arg5 (by decide) (by decide)))

/-- Neither column is an array of the first call, nor written by the second gather's stretch. -/
private theorem W4_v1 (c : Dev nD) : (W4 m ρ c (Proc.devRef .tc main_v1) : IVec S800000 32) = srcT (in12 m c) :=
  (W4_of_ne m ρ c main_v1 (by decide)).trans (W3_v1 m ρ c)
private theorem W5_v3 (c : Dev nD) : (W5 m ρ c (Proc.devRef .tc main_v3) : IVec S800000 32) = dstT (in12 m c) :=
  (keep1 _ main_v3 (by decide)).trans ((W4_of_ne m ρ c main_v3 (by decide)).trans (W3_v3 m ρ c))

/-! ## The second call's operands at its entry -/

theorem V6_xagg (c : Dev nD) :
    (V6 m ρ c main_v21 : FVec F S50000x128 .f32) = seg128 (take128 (hidden m ρ c) (in12 m c)) (in12 m c) :=
  (ops11_v21 (W5 m ρ c) (in12 m c) (W5_v3 m ρ c)).trans
    (congrArg (fun u : FVec F S800000x128 .f32 => seg128 u (in12 m c))
      ((ops1_v18 (W4 m ρ c) (in12 m c) (W4_v1 m ρ c)).trans
        (congrArg (fun z : FVec F S50000x128 .f32 => take128 z (in12 m c)) (W4_arr m ρ c 8))))

theorem V6_h (c : Dev nD) : (V6 m ρ c main_v17 : FVec F S50000x128 .f32) = hidden m ρ c :=
  (keep11 _ main_v17 (by decide)).trans ((keep1 _ main_v17 (by decide)).trans (W4_arr m ρ c 8))
theorem V6_eaAgg (c : Dev nD) : (V6 m ρ c main_v9 : FVec F S50000x51 .f32) = eaAgg (in1 m c) (in12 m c) :=
  (keep11 _ main_v9 (by decide)).trans ((keep1 _ main_v9 (by decide)).trans ((W4_in m ρ c 2 rfl).trans (V3_eaAgg m ρ c)))
theorem V6_deg (c : Dev nD) : (V6 m ρ c main_v10 : FVec F S50000x1 .f32) = degT (in1 m c) (in12 m c) :=
  (keep11 _ main_v10 (by decide)).trans ((keep1 _ main_v10 (by decide)).trans ((W4_in m ρ c 3 rfl).trans (V3_deg m ρ c)))
theorem V6_we (c : Dev nD) : (V6 m ρ c main_arg6 : FVec F S51x128 .f32) = in6 m c :=
  W6_keep m ρ c main_arg6 (by decide) (by decide) (by decide) (by decide) (by decide) (by decide)
theorem V6_be (c : Dev nD) :
    (V6 m ρ c main_v22 : FVec F S1x128 .f32) = shapeCast S1x128 (in7 m c) Facts₀.shapeCasts_S128_S1x128 :=
  (ops11_v22 (W5 m ρ c)).trans
    (congrArg (fun z : FVec F S128 .f32 => shapeCast S1x128 z Facts₀.shapeCasts_S128_S1x128)
      (W5_keep m ρ c main_arg7 (by decide) (by decide) (by decide) (by decide) (by decide)))
theorem V6_w1 (c : Dev nD) : (V6 m ρ c main_arg8 : FVec F S128x128 .f32) = in8 m c :=
  W6_keep m ρ c main_arg8 (by decide) (by decide) (by decide) (by decide) (by decide) (by decide)
theorem V6_b1 (c : Dev nD) :
    (V6 m ρ c main_v23 : FVec F S1x128 .f32) = shapeCast S1x128 (in9 m c) Facts₀.shapeCasts_S128_S1x128 :=
  (ops11_v23 (W5 m ρ c)).trans
    (congrArg (fun z : FVec F S128 .f32 => shapeCast S1x128 z Facts₀.shapeCasts_S128_S1x128)
      (W5_keep m ρ c main_arg9 (by decide) (by decide) (by decide) (by decide) (by decide)))
theorem V6_wo (c : Dev nD) : (V6 m ρ c main_arg10 : FVec F S128x51 .f32) = in10 m c :=
  W6_keep m ρ c main_arg10 (by decide) (by decide) (by decide) (by decide) (by decide) (by decide)
theorem V6_bo (c : Dev nD) :
    (V6 m ρ c main_v24 : FVec F S1x51 .f32) = shapeCast S1x51 (in11 m c) Facts₀.shapeCasts_S51_S1x51 :=
  (ops11_v24 (W5 m ρ c)).trans
    (congrArg (fun z : FVec F S51 .f32 => shapeCast S1x51 z Facts₀.shapeCasts_S51_S1x51)
      (W5_keep m ρ c main_arg11 (by decide) (by decide) (by decide) (by decide) (by decide)))

end Cert.KernelIdeal.KHost

end
-- ==== Proof.NodeRow.lean ====
/-
  One row of a fused node update, at the extended reals, as a formula over the rows of its operands.
  For node row p and channel a:
      combined p a = ((xa[p,a] + Σ_d ea[p,d] · we[d,a]) + (dg[p,0] + 1) · be[0,a]) + x[p,a]
  (the aggregated neighbour features, plus the aggregated edge attributes through the edge weights, plus one more
  than the in-degree times the edge bias, plus the node's own features). The first layer's output is
  Σ_a combined p a · w[a,q] + b[0,q]; the second layer followed by the output projection is
  Σ_k (Σ_c combined p c · w1[c,k] + b1[0,k]) · wo[k,o] + bo[0,o].
  The row count R is a parameter: the same formula reads a block of rows and the whole array.
-/
import Idealize.ShloMosaic.Lib.ValueIdx
import Idealize.ShloMosaic.PureOps.Ideal

noncomputable section

namespace Cert.NodeRow

open Idealize.ShloMosaic Idealize.ShloMosaic.ValueIdx

/-- The combined features of node row p, channel a. -/
def combined {R C : Nat} (xa x : FVec Ideal ⟨2, ![R, C]⟩ .f32) (ea : FVec Ideal ⟨2, ![R, 51]⟩ .f32)
    (dg : FVec Ideal ⟨2, ![R, 1]⟩ .f32) (we : FVec Ideal ⟨2, ![51, C]⟩ .f32) (be : FVec Ideal ⟨2, ![1, C]⟩ .f32)
    (p : Fin R) (a : Fin C) : EReal :=
  ((xa (ix2 p a) + ∑ d : Fin 51, ea (ix2 p d) * we (ix2 d a)) + (dg (ix2 p (0 : Fin 1)) + 1) * be (ix2 (0 : Fin 1) a))
    + x (ix2 p a)

/-- The first layer's output at node row p, hidden channel q. -/
def layer0At {R : Nat} (xa x : FVec Ideal ⟨2, ![R, 151]⟩ .f32) (ea : FVec Ideal ⟨2, ![R, 51]⟩ .f32)
    (dg : FVec Ideal ⟨2, ![R, 1]⟩ .f32) (we : FVec Ideal ⟨2, ![51, 151]⟩ .f32) (be : FVec Ideal ⟨2, ![1, 151]⟩ .f32)
    (w : FVec Ideal ⟨2, ![151, 128]⟩ .f32) (b : FVec Ideal ⟨2, ![1, 128]⟩ .f32) (p : Fin R) (q : Fin 128) : EReal :=
  (∑ a : Fin 151, combined xa x ea dg we be p a * w (ix2 a q)) + b (ix2 (0 : Fin 1) q)

/-- The second layer followed by the output projection, at node row p, output channel o. -/
def layer1At {R : Nat} (xa h : FVec Ideal ⟨2, ![R, 128]⟩ .f32) (ea : FVec Ideal ⟨2, ![R, 51]⟩ .f32)
    (dg : FVec Ideal ⟨2, ![R, 1]⟩ .f32) (we : FVec Ideal ⟨2, ![51, 128]⟩ .f32) (be : FVec Ideal ⟨2, ![1, 128]⟩ .f32)
    (w1 : FVec Ideal ⟨2, ![128, 128]⟩ .f32) (b1 : FVec Ideal ⟨2, ![1, 128]⟩ .f32)
    (wo : FVec Ideal ⟨2, ![128, 51]⟩ .f32) (bo : FVec Ideal ⟨2, ![1, 51]⟩ .f32) (p : Fin R) (o : Fin 51) : EReal :=
  (∑ k : Fin 128, ((∑ c : Fin 128, combined xa h ea dg we be p c * w1 (ix2 c k)) + b1 (ix2 (0 : Fin 1) k)) * wo (ix2 k o))
    + bo (ix2 (0 : Fin 1) o)

end Cert.NodeRow

end
-- ==== Proof.LibDot.lean ====
/-
  General reading lemmas at the extended reals, over any extents:
  a matrix product into a zero accumulator and a host dot, rows by columns, as a sum over the shared coordinate;
  a product that contracts the FIRST axis of both operands (the transpose of the left one times the right one);
  a sum over `a · b` consecutive naturals as a double sum.
-/
import Idealize.ShloMosaic.Lib.ValueIdx
import Idealize.ShloMosaic.Lib.StackMember
import Idealize.ShloMosaic.PureOps.Ideal.Laws

noncomputable section

namespace Cert.LibDot

open Idealize.ShloMosaic Idealize.ShloMosaic.ValueIdx

/-- A rows-by-columns matrix product into the zero accumulator, read at (a, b): `∑ c, A[a, c] · B[c, b]`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  -- the product into the zero accumulator is the bare sum over the contraction index set, which has one axis of extent k
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand is read at (c, b): its row is the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

/-- The product that contracts the first axis of both operands, read at (a, b): the accumulator there plus
    `∑ c, A[c, a] · B[c, b]`. -/
theorem matmul_colcol_apply {k m n : Nat} {φ₁ φ₂ : FTy}
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (acc : FVec Ideal ⟨2, ![m, n]⟩ .f32) (a : Fin m) (b : Fin n) :
    FloatOps.matmul (⟨[0], [0], [1], [1], [], [], w⟩ : DotDims _ _ _) prec A B acc (ix2 a b)
      = acc (ix2 a b) + ∑ c : Fin k, A (ix2 c a) * B (ix2 c b) := by
  -- the accumulator plus the sum over the contraction index set, which has one axis of extent k
  rw [Ideal.matmul_apply,
    ← Equiv.sum_comp (contrEquiv1 (⟨[0], [0], [1], [1], [], [], w⟩ : DotDims _ _ _) k rfl rfl).symm]
  refine congrArg (acc (ix2 a b) + ·) (Finset.sum_congr rfl fun c _ => ?_)
  have hc := contrEquiv1_symm_val
    (⟨[0], [0], [1], [1], [], [], w⟩ : DotDims ⟨2, ![k, m]⟩ ⟨2, ![k, n]⟩ ⟨2, ![m, n]⟩) k rfl rfl c
  -- the left operand is read at (c, a): its row is the contracted coordinate, its column the output's row
  have hl : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact hc
    | ⟨1, _⟩ => simp [DotDims.lhsIdx]; rfl
  -- the right operand is read at (c, b): its row is the contracted coordinate, its column the output's column
  have hr : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-- A sum over the first `a · b` naturals is the sum over `q < a` of the sums over `r < b` at `q · b + r`. -/
theorem sum_range_mul {M : Type*} [AddCommMonoid M] (f : ℕ → M) (a b : ℕ) :
    ∑ i ∈ Finset.range (a * b), f i = ∑ q ∈ Finset.range a, ∑ r ∈ Finset.range b, f (q * b + r) := by
  induction a with
  | zero => simp
  | succ a ih =>
    -- the first (a + 1) · b naturals are the first a · b of them followed by the b naturals a · b + r
    rw [Nat.succ_mul, Finset.sum_range_add, Finset.sum_range_succ, ih]

end Cert.LibDot

end
-- ==== Proof.Pay0.lean ====
/-
  The first kernel's body, as one pure value of the blocks it loads, read at an index (p, q) of its 5000 x 128 output
  block: the two matrix products into zero accumulators are sums over the shared coordinate, the broadcasts of the
  degree column and of the bias rows read their one row or column, and what is left is the fused first-layer row.
-/
import proofs.«417725_j34583076668022_2_alg».proof.Proof.Gen.KernelIdeal.Skeleton
import proofs.«417725_j34583076668022_2_alg».proof.Proof.NodeRow
import proofs.«417725_j34583076668022_2_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay0

open Idealize.ShloMosaic Idealize.ShloMosaic.ValueIdx Cert.KernelIdeal Cert.KernelIdeal.Gen Cert.NodeRow

/-- The single-precision pattern 0x3F800000 denotes the real number one. -/
private theorem ofBits_one_f32 : Ideal.ofBits .f32 0x3F800000#32 = 1 := by
  simp [Ideal.ofBits, Ideal.ieee]
  rw [← EReal.coe_mul]
  norm_num

/-- A column of extent one broadcast along the second axis reads, at (p, c), the column's entry of row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The combined node features as the kernel computes them (the first matrix product into a zero accumulator, the
    degree column plus one broadcast along the channels, the bias row broadcast along the rows), read at (p, a). -/
private theorem combined_block (v0 : FVec Ideal S5000x51 .f32) (v2 : FVec Ideal S51x151 .f32) (v4 : FVec Ideal S5000x1 .f32)
    (v8 : FVec Ideal S5000x151 .f32) (v11 : FVec Ideal S1x151 .f32) (v17 : FVec Ideal S5000x151 .f32)
    (p : Fin 5000) (a : Fin 151) :
    (addf
          (addf
            (addf (shapeCast S5000x151 v8 shapeCasts_S5000x151_S5000x151)
              (matmul (φ₁ := .f32) (φ₂ := .f32) dot_S5000x51_S51x151_S5000x151_1_0_0_1_n_n none
                (shapeCast S5000x51 v0 shapeCasts_S5000x51_S5000x51) v2 (constant S5000x151 FTy.f32 0x00000000#32)))
            (mulf
              (broadcastTo S5000x151
                (addf (shapeCast S5000x1 v4 shapeCasts_S5000x1_S5000x1)
                  (broadcast S5000x1 (Scalar.ofBits (F := Ideal) FTy.f32 0x3F800000#32)))
                broadcasts_S5000x1_S5000x151)
              (broadcastTo S5000x151 (shapeCast S1x151 v11 shapeCasts_S1x151_S1x151) broadcasts_S1x151_S5000x151)))
          v17 : FVec Ideal S5000x151 .f32) (ix2 p a)
      = combined (R := 5000) v8 v17 v0 v4 v2 v11 p a := by
  unfold combined
  rw [shapeCast_self, shapeCast_self, shapeCast_self, shapeCast_self]
  -- the matrix product into the zero accumulator is the sum over the shared coordinate
  have hdot : (matmul (φ₁ := .f32) (φ₂ := .f32) dot_S5000x51_S51x151_S5000x151_1_0_0_1_n_n none v0 v2
      (constant (F := Ideal) S5000x151 FTy.f32 0x00000000#32) : FVec Ideal S5000x151 .f32) (ix2 p a)
      = ∑ d : Fin 51, v0 (ix2 p d) * v2 (ix2 d a) :=
    Cert.LibDot.matmul_plain_zero_apply none v0 v2 p a
  -- the degree column plus one, broadcast along the channels, reads row p of the column
  have hcol : (broadcastTo S5000x151 (addf v4 (broadcast S5000x1 (Scalar.ofBits (F := Ideal) FTy.f32 0x3F800000#32)))
      broadcasts_S5000x1_S5000x151 : FVec Ideal S5000x151 .f32) (ix2 p a) = v4 (ix2 p (0 : Fin 1)) + 1 := by
    refine (broadcastTo_a1_ab_apply _ broadcasts_S5000x1_S5000x151 p a).trans ?_
    show v4 (ix2 p (0 : Fin 1)) + Ideal.ofBits .f32 0x3F800000#32 = _
    rw [ofBits_one_f32]
  -- the bias row broadcast along the rows reads its one row
  have hrow : (broadcastTo S5000x151 v11 broadcasts_S1x151_S5000x151 : FVec Ideal S5000x151 .f32) (ix2 p a)
      = v11 (ix2 (0 : Fin 1) a) :=
    broadcastTo_1b_ab_apply v11 broadcasts_S1x151_S5000x151 p a
  show ((v8 (ix2 p a) + _) + _ * _) + v17 (ix2 p a) = _
  rw [hdot, hcol, hrow]

/-- The first kernel's stored value at (p, q) is the first layer's output for row p of the loaded blocks. -/
theorem k0_pay1_apply (v0 : Vec Ideal S5000x51 .f32) (v2 : Vec Ideal S51x151 .f32) (v4 : Vec Ideal S5000x1 .f32)
    (v8 : Vec Ideal S5000x151 .f32) (v11 : Vec Ideal S1x151 .f32) (v17 : Vec Ideal S5000x151 .f32)
    (v19 : Vec Ideal S151x128 .f32) (v21 : Vec Ideal S1x128 .f32) (p : Fin 5000) (q : Fin 128) :
    k0_pay1 (F := Ideal) v0 v2 v4 v8 v11 v17 v19 v21 (ix2 p q)
      = layer0At (R := 5000) v8 v17 v0 v4 v2 v11 v19 v21 p q := by
  unfold k0_pay1 layer0At
  rw [shapeCast_self v21]
  -- the sum of the second matrix product and the broadcast bias row, read at (p, q)
  refine (addf_apply (φ := .f32) _ _ (ix2 p q)).trans ?_
  refine congrArg₂ (· + ·) ?_ (broadcastTo_1b_ab_apply v21 broadcasts_S1x128_S5000x128 p q)
  -- the second matrix product is the sum over the 151 channels of the combined features times the weights
  refine (Cert.LibDot.matmul_plain_zero_apply (φ₁ := .f32) (φ₂ := .f32) none _ v19 p q).trans ?_
  exact Finset.sum_congr rfl fun a _ => congrArg (· * v19 (ix2 a q)) (combined_block v0 v2 v4 v8 v11 v17 p a)

end Cert.KernelIdeal.Pay0

end
-- ==== Proof.Final0.lean ====
/-
  The first kernel call, from blocks to the array. The grid has ten points; point t stages rows 5000 t .. 5000 t + 4999
  of the four row-tiled operands and the whole of the four small ones, and writes back the 5000 x 128 block of rows
  5000 t .. of the output. What point t writes back is the fused first-layer row of its input blocks, which are the
  restrictions of the entry arrays to those rows; the ten blocks cover the output. So after the call the output array
  is, index by index, the fused first-layer row of the entry arrays.
-/
import proofs.«417725_j34583076668022_2_alg».proof.Proof.Gen.KernelIdeal.Frame
import proofs.«417725_j34583076668022_2_alg».proof.Proof.Pay0
import proofs.«417725_j34583076668022_2_alg».proof.Proof.NodeRow
import Idealize.ShloMosaic.Lib.Pipeline.Value
import Idealize.ShloMosaic.Lib.ValueIdx

set_option maxRecDepth 16384

noncomputable section

namespace Cert.KernelIdeal.Final0

open Idealize.ShloMosaic Idealize.ShloMosaic.TcCoe Idealize.ShloMosaic.ValueIdx Idealize.SL.Sem
open Cert.KernelIdeal Cert.KernelIdeal.Gen Cert.NodeRow
open Idealize.ShloMosaic.Pipeline (Dat Cfg Window)

-- the TensorCore's buffer contents when the call is entered
variable (V : (c : Dev nD) → (b : Ref sig .tc) → Buf (Elt Ideal) ((c : Thread nD τ).loc b))

abbrev xagg (c : Dev nD) : FVec Ideal S50000x151 .f32 := V c main_v14
abbrev xin (c : Dev nD) : FVec Ideal S50000x151 .f32 := V c main_arg0
abbrev eaA (c : Dev nD) : FVec Ideal S50000x51 .f32 := V c main_v9
abbrev deg (c : Dev nD) : FVec Ideal S50000x1 .f32 := V c main_v10
abbrev we (c : Dev nD) : FVec Ideal S51x151 .f32 := V c main_arg2
abbrev be (c : Dev nD) : FVec Ideal S1x151 .f32 := V c main_v15
abbrev w (c : Dev nD) : FVec Ideal S151x128 .f32 := V c main_arg4
abbrev b (c : Dev nD) : FVec Ideal S1x128 .f32 := V c main_v16

private theorem hz : (![0, 0] : Fin 2 → Nat) = fun _ => 0 := funext fun a => by fin_cases a <;> rfl

/-- The block index maps over the ten grid points: the four row-tiled inputs and the output sit at block row t,
    block column 0; the four small operands sit at block (0, 0). -/
private theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- Entry y of point t's block of the aggregated features is entry (5000 t + y 0, y 1) of the array. -/
private theorem read_xagg (c : Dev nD) (t : Fin cfg0.N) (y : S5000x151.Idx) (i : S50000x151.Idx)
    (h0 : (i 0).val = 5000 * t.val + (y 0).val) (h1 : (i 1).val = (y 1).val) : iblk0 V c 0 t y = xagg V c i := by
  show V c main_v14 (((cfg0.win 0).blk t).view.emb y) = V c main_v14 i
  have e := index_facts t
  congr 1
  funext a; apply Fin.ext
  match a with
  | ⟨0, _⟩ => show win0_0.index t (0 : Fin 2) * 5000 + 1 * (y 0).val = (i 0).val; omega
  | ⟨1, _⟩ => show win0_0.index t (1 : Fin 2) * 151 + 1 * (y 1).val = (i 1).val; omega

/-- Entry y of point t's block of the node features is entry (5000 t + y 0, y 1) of the array. -/
private theorem read_xin (c : Dev nD) (t : Fin cfg0.N) (y : S5000x151.Idx) (i : S50000x151.Idx)
    (h0 : (i 0).val = 5000 * t.val + (y 0).val) (h1 : (i 1).val = (y 1).val) : iblk0 V c 1 t y = xin V c i := by
  show V c main_arg0 (((cfg0.win 1).blk t).view.emb y) = V c main_arg0 i
  have e := index_facts t
  congr 1
  funext a; apply Fin.ext
  match a with
  | ⟨0, _⟩ => show win0_1.index t (0 : Fin 2) * 5000 + 1 * (y 0).val = (i 0).val; omega
  | ⟨1, _⟩ => show win0_1.index t (1 : Fin 2) * 151 + 1 * (y 1).val = (i 1).val; omega

/-- Entry y of point t's block of the aggregated edge attributes is entry (5000 t + y 0, y 1) of the array. -/
private theorem read_eaA (c : Dev nD) (t : Fin cfg0.N) (y : S5000x51.Idx) (i : S50000x51.Idx)
    (h0 : (i 0).val = 5000 * t.val + (y 0).val) (h1 : (i 1).val = (y 1).val) : iblk0 V c 2 t y = eaA V c i := by
  show V c main_v9 (((cfg0.win 2).blk t).view.emb y) = V c main_v9 i
  have e := index_facts t
  congr 1
  funext a; apply Fin.ext
  match a with
  | ⟨0, _⟩ => show win0_2.index t (0 : Fin 2) * 5000 + 1 * (y 0).val = (i 0).val; omega
  | ⟨1, _⟩ => show win0_2.index t (1 : Fin 2) * 51 + 1 * (y 1).val = (i 1).val; omega

/-- Entry y of point t's block of the in-degrees is entry (5000 t + y 0, y 1) of the array. -/
private theorem read_deg (c : Dev nD) (t : Fin cfg0.N) (y : S5000x1.Idx) (i : S50000x1.Idx)
    (h0 : (i 0).val = 5000 * t.val + (y 0).val) (h1 : (i 1).val = (y 1).val) : iblk0 V c 3 t y = deg V c i := by
  show V c main_v10 (((cfg0.win 3).blk t).view.emb y) = V c main_v10 i
  have e := index_facts t
  congr 1
  funext a; apply Fin.ext
  match a with
  | ⟨0, _⟩ => show win0_3.index t (0 : Fin 2) * 5000 + 1 * (y 0).val = (i 0).val; omega
  | ⟨1, _⟩ => show win0_3.index t (1 : Fin 2) * 1 + 1 * (y 1).val = (i 1).val; omega

/-- Every point's block of the edge weights is the whole array. -/
private theorem read_we (c : Dev nD) (t : Fin cfg0.N) (y : S51x151.Idx) : iblk0 V c 4 t y = we V c y := by
  show V c main_arg2 (((cfg0.win 4).blk t).view.emb y) = V c main_arg2 y
  have e := index_facts t
  congr 1
  funext a; apply Fin.ext
  match a with
  | ⟨0, _⟩ => show win0_4.index t (0 : Fin 2) * 51 + 1 * (y 0).val = (y 0).val; omega
  | ⟨1, _⟩ => show win0_4.index t (1 : Fin 2) * 151 + 1 * (y 1).val = (y 1).val; omega

/-- Every point's block of the edge bias is the whole array. -/
private theorem read_be (c : Dev nD) (t : Fin cfg0.N) (y : S1x151.Idx) : iblk0 V c 5 t y = be V c y := by
  show V c main_v15 (((cfg0.win 5).blk t).view.emb y) = V c main_v15 y
  have e := index_facts t
  congr 1
  funext a; apply Fin.ext
  match a with
  | ⟨0, _⟩ => show win0_5.index t (0 : Fin 2) * 1 + 1 * (y 0).val = (y 0).val; omega
  | ⟨1, _⟩ => show win0_5.index t (1 : Fin 2) * 151 + 1 * (y 1).val = (y 1).val; omega

/-- Every point's block of the layer weights is the whole array. -/
private theorem read_w (c : Dev nD) (t : Fin cfg0.N) (y : S151x128.Idx) : iblk0 V c 6 t y = w V c y := by
  show V c main_arg4 (((cfg0.win 6).blk t).view.emb y) = V c main_arg4 y
  have e := index_facts t
  congr 1
  funext a; apply Fin.ext
  match a with
  | ⟨0, _⟩ => show win0_6.index t (0 : Fin 2) * 151 + 1 * (y 0).val = (y 0).val; omega
  | ⟨1, _⟩ => show win0_6.index t (1 : Fin 2) * 128 + 1 * (y 1).val = (y 1).val; omega

/-- Every point's block of the layer bias is the whole array. -/
private theorem read_b (c : Dev nD) (t : Fin cfg0.N) (y : S1x128.Idx) : iblk0 V c 7 t y = b V c y := by
  show V c main_v16 (((cfg0.win 7).blk t).view.emb y) = V c main_v16 y
  have e := index_facts t
  congr 1
  funext a; apply Fin.ext
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- The stored value at block entry y, when row y 0 of the four row-tiled blocks is row i 0 of four arrays and the
    column is the same, is the first layer's output of those arrays at (i 0, i 1). -/
private theorem point_value (x0 x1 : Vec Ideal S5000x151 .f32) (x2 : Vec Ideal S5000x51 .f32) (x3 : Vec Ideal S5000x1 .f32)
    (x4 : Vec Ideal S51x151 .f32) (x5 : Vec Ideal S1x151 .f32) (x6 : Vec Ideal S151x128 .f32) (x7 : Vec Ideal S1x128 .f32)
    (A0 A1 : FVec Ideal S50000x151 .f32) (A2 : FVec Ideal S50000x51 .f32) (A3 : FVec Ideal S50000x1 .f32)
    (A4 : FVec Ideal S51x151 .f32) (A5 : FVec Ideal S1x151 .f32) (A6 : FVec Ideal S151x128 .f32) (A7 : FVec Ideal S1x128 .f32)
    (y : S5000x128.Idx) (i : S50000x128.Idx)
    (h0 : ∀ a : Fin 151, x0 (ix2 (y 0) a) = A0 (ix2 (i 0) a))
    (h1 : ∀ a : Fin 151, x1 (ix2 (y 0) a) = A1 (ix2 (i 0) a))
    (h2 : ∀ d : Fin 51, x2 (ix2 (y 0) d) = A2 (ix2 (i 0) d))
    (h3 : x3 (ix2 (y 0) (0 : Fin 1)) = A3 (ix2 (i 0) (0 : Fin 1)))
    (h4 : x4 = A4) (h5 : x5 = A5) (h6 : x6 = A6) (h7 : x7 = A7)
    (hq : i 1 = y 1) :
    k0_pay1 (F := Ideal) x2 x4 x3 x0 x5 x1 x6 x7 y = layer0At (R := 50000) A0 A1 A2 A3 A4 A5 A6 A7 (i 0) (i 1) := by
  subst h4 h5 h6 h7
  have e : k0_pay1 (F := Ideal) x2 x4 x3 x0 x5 x1 x6 x7 y = layer0At (R := 5000) x0 x1 x2 x3 x4 x5 x6 x7 (y 0) (y 1) :=
    (congrArg (k0_pay1 (F := Ideal) x2 x4 x3 x0 x5 x1 x6 x7) (eq_ix2 y)).trans
      (Pay0.k0_pay1_apply x2 x4 x3 x0 x5 x1 x6 x7 (y 0) (y 1))
  rw [e, hq]
  unfold layer0At combined
  simp only [h0, h1, h2, h3]

/-- The array the output ends holding: the first layer of the entry arrays, row by row. -/
private abbrev G (c : Dev nD) : FVec Ideal S50000x128 .f32 :=
  fun i => layer0At (R := 50000) (xagg V c) (xin V c) (eaA V c) (deg V c) (we V c) (be V c) (w V c) (b V c) (i 0) (i 1)

/-- Where point t's output block sits in the array: rows 5000 t .., all columns. -/
private theorem out_emb (t : Fin cfg0.N) (j : S5000x128.Idx) :
    ((((cfg0.win 8).blk t).view.emb j : S50000x128.Idx) 0).val = 5000 * t.val + (j 0).val
    ∧ (((cfg0.win 8).blk t).view.emb j : S50000x128.Idx) 1 = j 1 := by
  have e := index_facts t
  refine ⟨?_, Fin.ext ?_⟩
  · show win0_8.index t (0 : Fin 2) * 5000 + 1 * (j 0).val = _; omega
  · show win0_8.index t (1 : Fin 2) * 128 + 1 * (j 1).val = (j 1).val; omega

/-- What point t writes back is its block of that array. -/
private theorem flushed_eq (c : Dev nD) (t : Fin cfg0.N) :
    (dat0 (F := Ideal) V c).flushed 8 t = ((cfg0.win 8).blk t).view.read (Elt Ideal) (G V c) := by
  show (cfg0.win 8).cut (grid0.coords t) ((dat0 V c).after 8 t) = _
  rw [after0_8]
  unfold out0_8
  rw [View.canon_unit_zero hz]
  simp only [View.ld_unit_zero (S := S5000x51) hz, View.ld_unit_zero (S := S51x151) hz, View.ld_unit_zero (S := S5000x1) hz,
    View.ld_unit_zero (S := S5000x151) hz, View.ld_unit_zero (S := S1x151) hz, View.ld_unit_zero (S := S151x128) hz,
    View.ld_unit_zero (S := S1x128) hz]
  funext j
  obtain ⟨hr, hc⟩ := out_emb t j
  exact point_value (iblk0 V c 0 t) (iblk0 V c 1 t) (iblk0 V c 2 t) (iblk0 V c 3 t) (iblk0 V c 4 t) (iblk0 V c 5 t)
    (iblk0 V c 6 t) (iblk0 V c 7 t) (xagg V c) (xin V c) (eaA V c) (deg V c) (we V c) (be V c) (w V c) (b V c)
    j (((cfg0.win 8).blk t).view.emb j)
    (fun a => read_xagg V c t _ _ hr rfl) (fun a => read_xin V c t _ _ hr rfl) (fun d => read_eaA V c t _ _ hr rfl)
    (read_deg V c t _ _ hr rfl)
    (funext (read_we V c t)) (funext (read_be V c t)) (funext (read_w V c t)) (funext (read_b V c t)) hc

/-- An index of the array is in point t's block exactly when each coordinate is in the block's range on its axis. -/
private theorem mem_blk (t : Fin cfg0.N) (i : S50000x128.Idx) :
    i ∈ ((cfg0.win 8).blk t).view.set ↔ ∀ a : Fin 2, win0_8.index t a * S5000x128.size a ≤ (i a).val
      ∧ (i a).val < win0_8.index t a * S5000x128.size a + S5000x128.size a := by
  show i ∈ ((View.whole main_v17).slice (win0_8.rect t)).set ↔ _
  rw [View.set_slice_whole, Rect.mem_set_unit]
  exact Iff.rfl

/-- Row r of the output is written by point r / 5000: the ten blocks cover the array. -/
private theorem cover (i : S50000x128.Idx) :
    ∃ t : Fin cfg0.N, (cfg0.win 8).flush t = true ∧ i ∈ ((cfg0.win 8).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  have e := index_facts t
  refine ⟨t, flush0_8 t, ?_⟩
  rw [mem_blk]
  intro a
  match a with
  | ⟨0, _⟩ =>
    show win0_8.index t (0 : Fin 2) * 5000 ≤ (i 0).val ∧ (i 0).val < win0_8.index t (0 : Fin 2) * 5000 + 5000
    omega
  | ⟨1, _⟩ =>
    show win0_8.index t (1 : Fin 2) * 128 ≤ (i 1).val ∧ (i 1).val < win0_8.index t (1 : Fin 2) * 128 + 128
    omega

/-- After the first call its output array is the first layer of the entry arrays, row by row. -/
theorem final (c : Dev nD) :
    ((dat0 (F := Ideal) V c).arrAt 8 cfg0.N : FVec Ideal S50000x128 .f32)
      = fun i => layer0At (R := 50000) (xagg V c) (xin V c) (eaA V c) (deg V c) (we V c) (be V c) (w V c) (b V c)
          (i 0) (i 1) := by
  exact (dat0 (F := Ideal) V c).arrAt_eq_of_cover 8 (G V c) (fun t _ => flushed_eq V c t) cover

end Cert.KernelIdeal.Final0

end
-- ==== Proof.Pay1.lean ====
/-
  The second kernel's body, as one pure value of the blocks it loads, read at an index (p, o) of its 5000 x 51 output
  block: three matrix products into zero accumulators as sums over the shared coordinate, the broadcasts of the degree
  column and of the bias rows, and what is left is the fused second layer followed by the output projection.
-/
import proofs.«417725_j34583076668022_2_alg».proof.Proof.Gen.KernelIdeal.Skeleton
import proofs.«417725_j34583076668022_2_alg».proof.Proof.NodeRow
import proofs.«417725_j34583076668022_2_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay1

open Idealize.ShloMosaic Idealize.ShloMosaic.ValueIdx Cert.KernelIdeal Cert.KernelIdeal.Gen Cert.NodeRow

/-- The single-precision pattern 0x3F800000 denotes the real number one. -/
private theorem ofBits_one_f32 : Ideal.ofBits .f32 0x3F800000#32 = 1 := by
  simp [Ideal.ofBits, Ideal.ieee]
  rw [← EReal.coe_mul]
  norm_num

/-- A column of extent one broadcast along the second axis reads, at (p, c), the column's entry of row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The combined node features as the kernel computes them (the first matrix product into a zero accumulator, the
    degree column plus one broadcast along the channels, the bias row broadcast along the rows), read at (p, a). -/
private theorem combined_block (v0 : FVec Ideal S5000x51 .f32) (v2 : FVec Ideal S51x128 .f32) (v4 : FVec Ideal S5000x1 .f32)
    (v8 : FVec Ideal S5000x128 .f32) (v11 : FVec Ideal S1x128 .f32) (v17 : FVec Ideal S5000x128 .f32)
    (p : Fin 5000) (a : Fin 128) :
    (addf
          (addf
            (addf (shapeCast S5000x128 v8 shapeCasts_S5000x128_S5000x128)
              (matmul (φ₁ := .f32) (φ₂ := .f32) dot_S5000x51_S51x128_S5000x128_1_0_0_1_n_n none
                (shapeCast S5000x51 v0 shapeCasts_S5000x51_S5000x51) v2 (constant S5000x128 FTy.f32 0x00000000#32)))
            (mulf
              (broadcastTo S5000x128
                (addf (shapeCast S5000x1 v4 shapeCasts_S5000x1_S5000x1)
                  (broadcast S5000x1 (Scalar.ofBits (F := Ideal) FTy.f32 0x3F800000#32)))
                broadcasts_S5000x1_S5000x128)
              (broadcastTo S5000x128 (shapeCast S1x128 v11 shapeCasts_S1x128_S1x128) broadcasts_S1x128_S5000x128)))
          (shapeCast S5000x128 v17 shapeCasts_S5000x128_S5000x128) : FVec Ideal S5000x128 .f32) (ix2 p a)
      = combined (R := 5000) v8 v17 v0 v4 v2 v11 p a := by
  unfold combined
  rw [shapeCast_self, shapeCast_self, shapeCast_self, shapeCast_self, shapeCast_self]
  -- the matrix product into the zero accumulator is the sum over the shared coordinate
  have hdot : (matmul (φ₁ := .f32) (φ₂ := .f32) dot_S5000x51_S51x128_S5000x128_1_0_0_1_n_n none v0 v2
      (constant (F := Ideal) S5000x128 FTy.f32 0x00000000#32) : FVec Ideal S5000x128 .f32) (ix2 p a)
      = ∑ d : Fin 51, v0 (ix2 p d) * v2 (ix2 d a) :=
    Cert.LibDot.matmul_plain_zero_apply none v0 v2 p a
  -- the degree column plus one, broadcast along the channels, reads row p of the column
  have hcol : (broadcastTo S5000x128 (addf v4 (broadcast S5000x1 (Scalar.ofBits (F := Ideal) FTy.f32 0x3F800000#32)))
      broadcasts_S5000x1_S5000x128 : FVec Ideal S5000x128 .f32) (ix2 p a) = v4 (ix2 p (0 : Fin 1)) + 1 := by
    refine (broadcastTo_a1_ab_apply _ broadcasts_S5000x1_S5000x128 p a).trans ?_
    show v4 (ix2 p (0 : Fin 1)) + Ideal.ofBits .f32 0x3F800000#32 = _
    rw [ofBits_one_f32]
  -- the bias row broadcast along the rows reads its one row
  have hrow : (broadcastTo S5000x128 v11 broadcasts_S1x128_S5000x128 : FVec Ideal S5000x128 .f32) (ix2 p a)
      = v11 (ix2 (0 : Fin 1) a) :=
    broadcastTo_1b_ab_apply v11 broadcasts_S1x128_S5000x128 p a
  show ((v8 (ix2 p a) + _) + _ * _) + v17 (ix2 p a) = _
  rw [hdot, hcol, hrow]

/-- The second kernel's stored value at (p, o) is the second layer and output projection for row p of the loaded blocks. -/
theorem k1_pay1_apply (v0 : Vec Ideal S5000x51 .f32) (v2 : Vec Ideal S51x128 .f32) (v4 : Vec Ideal S5000x1 .f32)
    (v8 : Vec Ideal S5000x128 .f32) (v11 : Vec Ideal S1x128 .f32) (v17 : Vec Ideal S5000x128 .f32)
    (v20 : Vec Ideal S128x128 .f32) (v22 : Vec Ideal S1x128 .f32) (v26 : Vec Ideal S128x51 .f32)
    (v28 : Vec Ideal S1x51 .f32) (p : Fin 5000) (o : Fin 51) :
    k1_pay1 (F := Ideal) v0 v2 v4 v8 v11 v17 v20 v22 v26 v28 (ix2 p o)
      = layer1At (R := 5000) v8 v17 v0 v4 v2 v11 v20 v22 v26 v28 p o := by
  unfold k1_pay1 layer1At
  rw [shapeCast_self v28, shapeCast_self v22]
  -- the sum of the third matrix product and the broadcast output bias row, read at (p, o)
  refine (addf_apply (φ := .f32) _ _ (ix2 p o)).trans ?_
  refine congrArg₂ (· + ·) ?_ (broadcastTo_1b_ab_apply v28 broadcasts_S1x51_S5000x51 p o)
  -- the third matrix product is the sum over the 128 hidden channels of the second layer's row times the weights
  refine (Cert.LibDot.matmul_plain_zero_apply (φ₁ := .f32) (φ₂ := .f32) none _ v26 p o).trans ?_
  refine Finset.sum_congr rfl fun k _ => congrArg (· * v26 (ix2 k o)) ?_
  -- the second layer's row at channel k: the second matrix product plus the broadcast bias row
  refine (addf_apply (φ := .f32) _ _ (ix2 p k)).trans ?_
  refine congrArg₂ (· + ·) ?_ (broadcastTo_1b_ab_apply v22 broadcasts_S1x128_S5000x128 p k)
  -- the second matrix product is the sum over the 128 channels of the combined features times the weights
  refine (Cert.LibDot.matmul_plain_zero_apply (φ₁ := .f32) (φ₂ := .f32) none _ v20 p k).trans ?_
  exact Finset.sum_congr rfl fun c _ => congrArg (· * v20 (ix2 c k)) (combined_block v0 v2 v4 v8 v11 v17 p c)

end Cert.KernelIdeal.Pay1

end
-- ==== Proof.Final1.lean ====
/-
  The second kernel call, from blocks to the array. The grid has ten points; point t stages rows 5000 t .. 5000 t + 4999
  of the four row-tiled operands and the whole of the six small ones, and writes back the 5000 x 51 block of rows
  5000 t .. of the output. What point t writes back is the fused second layer and output projection of its input
  blocks, which are the restrictions of the entry arrays to those rows; the ten blocks cover the output. So after the
  call the output array is, index by index, the fused second layer and output projection of the entry arrays.
-/
import proofs.«417725_j34583076668022_2_alg».proof.Proof.Gen.KernelIdeal.Frame
import proofs.«417725_j34583076668022_2_alg».proof.Proof.Pay1
import proofs.«417725_j34583076668022_2_alg».proof.Proof.NodeRow
import Idealize.ShloMosaic.Lib.Pipeline.Value
import Idealize.ShloMosaic.Lib.ValueIdx

set_option maxRecDepth 16384

noncomputable section

namespace Cert.KernelIdeal.Final1

open Idealize.ShloMosaic Idealize.ShloMosaic.TcCoe Idealize.ShloMosaic.ValueIdx Idealize.SL.Sem
open Cert.KernelIdeal Cert.KernelIdeal.Gen Cert.NodeRow
open Idealize.ShloMosaic.Pipeline (Dat Cfg Window)

-- the TensorCore's buffer contents when the call is entered
variable (V : (c : Dev nD) → (b : Ref sig .tc) → Buf (Elt Ideal) ((c : Thread nD τ).loc b))

abbrev xagg (c : Dev nD) : FVec Ideal S50000x128 .f32 := V c main_v21
abbrev hin (c : Dev nD) : FVec Ideal S50000x128 .f32 := V c main_v17
abbrev eaA (c : Dev nD) : FVec Ideal S50000x51 .f32 := V c main_v9
abbrev deg (c : Dev nD) : FVec Ideal S50000x1 .f32 := V c main_v10
abbrev we (c : Dev nD) : FVec Ideal S51x128 .f32 := V c main_arg6
abbrev be (c : Dev nD) : FVec Ideal S1x128 .f32 := V c main_v22
abbrev w1 (c : Dev nD) : FVec Ideal S128x128 .f32 := V c main_arg8
abbrev b1 (c : Dev nD) : FVec Ideal S1x128 .f32 := V c main_v23
abbrev wo (c : Dev nD) : FVec Ideal S128x51 .f32 := V c main_arg10
abbrev bo (c : Dev nD) : FVec Ideal S1x51 .f32 := V c main_v24

private theorem hz : (![0, 0] : Fin 2 → Nat) = fun _ => 0 := funext fun a => by fin_cases a <;> rfl

/-- The block index maps over the ten grid points: the four row-tiled inputs and the output sit at block row t,
    block column 0; the six small operands sit at block (0, 0). -/
private theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

/-- Entry y of point t's block of the aggregated hidden features is entry (5000 t + y 0, y 1) of the array. -/
private theorem read_xagg (c : Dev nD) (t : Fin cfg1.N) (y : S5000x128.Idx) (i : S50000x128.Idx)
    (h0 : (i 0).val = 5000 * t.val + (y 0).val) (h1 : (i 1).val = (y 1).val) : iblk1 V c 0 t y = xagg V c i := by
  show V c main_v21 (((cfg1.win 0).blk t).view.emb y) = V c main_v21 i
  have e := index_facts t
  congr 1
  funext a; apply Fin.ext
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- Entry y of point t's block of the hidden features is entry (5000 t + y 0, y 1) of the array. -/
private theorem read_hin (c : Dev nD) (t : Fin cfg1.N) (y : S5000x128.Idx) (i : S50000x128.Idx)
    (h0 : (i 0).val = 5000 * t.val + (y 0).val) (h1 : (i 1).val = (y 1).val) : iblk1 V c 1 t y = hin V c i := by
  show V c main_v17 (((cfg1.win 1).blk t).view.emb y) = V c main_v17 i
  have e := index_facts t
  congr 1
  funext a; apply Fin.ext
  match a with
  | ⟨0, _⟩ => show win1_1.index t (0 : Fin 2) * 5000 + 1 * (y 0).val = (i 0).val; omega
  | ⟨1, _⟩ => show win1_1.index t (1 : Fin 2) * 128 + 1 * (y 1).val = (i 1).val; omega

/-- Entry y of point t's block of the aggregated edge attributes is entry (5000 t + y 0, y 1) of the array. -/
private theorem read_eaA (c : Dev nD) (t : Fin cfg1.N) (y : S5000x51.Idx) (i : S50000x51.Idx)
    (h0 : (i 0).val = 5000 * t.val + (y 0).val) (h1 : (i 1).val = (y 1).val) : iblk1 V c 2 t y = eaA V c i := by
  show V c main_v9 (((cfg1.win 2).blk t).view.emb y) = V c main_v9 i
  have e := index_facts t
  congr 1
  funext a; apply Fin.ext
  match a with
  | ⟨0, _⟩ => show win1_2.index t (0 : Fin 2) * 5000 + 1 * (y 0).val = (i 0).val; omega
  | ⟨1, _⟩ => show win1_2.index t (1 : Fin 2) * 51 + 1 * (y 1).val = (i 1).val; omega

/-- Entry y of point t's block of the in-degrees is entry (5000 t + y 0, y 1) of the array. -/
private theorem read_deg (c : Dev nD) (t : Fin cfg1.N) (y : S5000x1.Idx) (i : S50000x1.Idx)
    (h0 : (i 0).val = 5000 * t.val + (y 0).val) (h1 : (i 1).val = (y 1).val) : iblk1 V c 3 t y = deg V c i := by
  show V c main_v10 (((cfg1.win 3).blk t).view.emb y) = V c main_v10 i
  have e := index_facts t
  congr 1
  funext a; apply Fin.ext
  match a with
  | ⟨0, _⟩ => show win1_3.index t (0 : Fin 2) * 5000 + 1 * (y 0).val = (i 0).val; omega
  | ⟨1, _⟩ => show win1_3.index t (1 : Fin 2) * 1 + 1 * (y 1).val = (i 1).val; omega

/-- Every point's block of the edge weights is the whole array. -/
private theorem read_we (c : Dev nD) (t : Fin cfg1.N) (y : S51x128.Idx) : iblk1 V c 4 t y = we V c y := by
  show V c main_arg6 (((cfg1.win 4).blk t).view.emb y) = V c main_arg6 y
  have e := index_facts t
  congr 1
  funext a; apply Fin.ext
  match a with
  | ⟨0, _⟩ => show win1_4.index t (0 : Fin 2) * 51 + 1 * (y 0).val = (y 0).val; omega
  | ⟨1, _⟩ => show win1_4.index t (1 : Fin 2) * 128 + 1 * (y 1).val = (y 1).val; omega

/-- Every point's block of the edge bias is the whole array. -/
private theorem read_be (c : Dev nD) (t : Fin cfg1.N) (y : S1x128.Idx) : iblk1 V c 5 t y = be V c y := by
  show V c main_v22 (((cfg1.win 5).blk t).view.emb y) = V c main_v22 y
  have e := index_facts t
  congr 1
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Every point's block of the second layer's weights is the whole array. -/
private theorem read_w1 (c : Dev nD) (t : Fin cfg1.N) (y : S128x128.Idx) : iblk1 V c 6 t y = w1 V c y := by
  show V c main_arg8 (((cfg1.win 6).blk t).view.emb y) = V c main_arg8 y
  have e := index_facts t
  congr 1
  funext a; apply Fin.ext
  match a with
  | ⟨0, _⟩ => show win1_6.index t (0 : Fin 2) * 128 + 1 * (y 0).val = (y 0).val; omega
  | ⟨1, _⟩ => show win1_6.index t (1 : Fin 2) * 128 + 1 * (y 1).val = (y 1).val; omega

/-- Every point's block of the second layer's bias is the whole array. -/
private theorem read_b1 (c : Dev nD) (t : Fin cfg1.N) (y : S1x128.Idx) : iblk1 V c 7 t y = b1 V c y := by
  show V c main_v23 (((cfg1.win 7).blk t).view.emb y) = V c main_v23 y
  have e := index_facts t
  congr 1
  funext a; apply Fin.ext
  match a with
  | ⟨0, _⟩ => show win1_7.index t (0 : Fin 2) * 1 + 1 * (y 0).val = (y 0).val; omega
  | ⟨1, _⟩ => show win1_7.index t (1 : Fin 2) * 128 + 1 * (y 1).val = (y 1).val; omega

/-- Every point's block of the output projection's weights is the whole array. -/
private theorem read_wo (c : Dev nD) (t : Fin cfg1.N) (y : S128x51.Idx) : iblk1 V c 8 t y = wo V c y := by
  show V c main_arg10 (((cfg1.win 8).blk t).view.emb y) = V c main_arg10 y
  have e := index_facts t
  congr 1
  funext a; apply Fin.ext
  match a with
  | ⟨0, _⟩ => show win1_8.index t (0 : Fin 2) * 128 + 1 * (y 0).val = (y 0).val; omega
  | ⟨1, _⟩ => show win1_8.index t (1 : Fin 2) * 51 + 1 * (y 1).val = (y 1).val; omega

/-- Every point's block of the output projection's bias is the whole array. -/
private theorem read_bo (c : Dev nD) (t : Fin cfg1.N) (y : S1x51.Idx) : iblk1 V c 9 t y = bo V c y := by
  show V c main_v24 (((cfg1.win 9).blk t).view.emb y) = V c main_v24 y
  have e := index_facts t
  congr 1
  funext a; apply Fin.ext
  match a with
  | ⟨0, _⟩ => show win1_9.index t (0 : Fin 2) * 1 + 1 * (y 0).val = (y 0).val; omega
  | ⟨1, _⟩ => show win1_9.index t (1 : Fin 2) * 51 + 1 * (y 1).val = (y 1).val; omega

/-- The stored value at block entry y, when row y 0 of the four row-tiled blocks is row i 0 of four arrays and the
    column is the same, is the second layer and output projection of those arrays at (i 0, i 1). -/
private theorem point_value (x0 x1 : Vec Ideal S5000x128 .f32) (x2 : Vec Ideal S5000x51 .f32) (x3 : Vec Ideal S5000x1 .f32)
    (x4 : Vec Ideal S51x128 .f32) (x5 : Vec Ideal S1x128 .f32) (x6 : Vec Ideal S128x128 .f32) (x7 : Vec Ideal S1x128 .f32)
    (x8 : Vec Ideal S128x51 .f32) (x9 : Vec Ideal S1x51 .f32)
    (A0 A1 : FVec Ideal S50000x128 .f32) (A2 : FVec Ideal S50000x51 .f32) (A3 : FVec Ideal S50000x1 .f32)
    (A4 : FVec Ideal S51x128 .f32) (A5 : FVec Ideal S1x128 .f32) (A6 : FVec Ideal S128x128 .f32) (A7 : FVec Ideal S1x128 .f32)
    (A8 : FVec Ideal S128x51 .f32) (A9 : FVec Ideal S1x51 .f32)
    (y : S5000x51.Idx) (i : S50000x51.Idx)
    (h0 : ∀ a : Fin 128, x0 (ix2 (y 0) a) = A0 (ix2 (i 0) a))
    (h1 : ∀ a : Fin 128, x1 (ix2 (y 0) a) = A1 (ix2 (i 0) a))
    (h2 : ∀ d : Fin 51, x2 (ix2 (y 0) d) = A2 (ix2 (i 0) d))
    (h3 : x3 (ix2 (y 0) (0 : Fin 1)) = A3 (ix2 (i 0) (0 : Fin 1)))
    (h4 : x4 = A4) (h5 : x5 = A5) (h6 : x6 = A6) (h7 : x7 = A7) (h8 : x8 = A8) (h9 : x9 = A9)
    (hq : i 1 = y 1) :
    k1_pay1 (F := Ideal) x2 x4 x3 x0 x5 x1 x6 x7 x8 x9 y
      = layer1At (R := 50000) A0 A1 A2 A3 A4 A5 A6 A7 A8 A9 (i 0) (i 1) := by
  subst h4 h5 h6 h7 h8 h9
  have e : k1_pay1 (F := Ideal) x2 x4 x3 x0 x5 x1 x6 x7 x8 x9 y
      = layer1At (R := 5000) x0 x1 x2 x3 x4 x5 x6 x7 x8 x9 (y 0) (y 1) :=
    (congrArg (k1_pay1 (F := Ideal) x2 x4 x3 x0 x5 x1 x6 x7 x8 x9) (eq_ix2 y)).trans
      (Pay1.k1_pay1_apply x2 x4 x3 x0 x5 x1 x6 x7 x8 x9 (y 0) (y 1))
  rw [e, hq]
  unfold layer1At combined
  simp only [h0, h1, h2, h3]

/-- The array the output ends holding: the second layer and output projection of the entry arrays, row by row. -/
private abbrev G (c : Dev nD) : FVec Ideal S50000x51 .f32 :=
  fun i => layer1At (R := 50000) (xagg V c) (hin V c) (eaA V c) (deg V c) (we V c) (be V c) (w1 V c) (b1 V c)
    (wo V c) (bo V c) (i 0) (i 1)

/-- Where point t's output block sits in the array: rows 5000 t .., all columns. -/
private theorem out_emb (t : Fin cfg1.N) (j : S5000x51.Idx) :
    ((((cfg1.win 10).blk t).view.emb j : S50000x51.Idx) 0).val = 5000 * t.val + (j 0).val
    ∧ (((cfg1.win 10).blk t).view.emb j : S50000x51.Idx) 1 = j 1 := by
  have e := index_facts t
  refine ⟨?_, Fin.ext ?_⟩
  · show win1_10.index t (0 : Fin 2) * 5000 + 1 * (j 0).val = _; omega
  · show win1_10.index t (1 : Fin 2) * 51 + 1 * (j 1).val = (j 1).val; omega

/-- What point t writes back is its block of that array. -/
private theorem flushed_eq (c : Dev nD) (t : Fin cfg1.N) :
    (dat1 (F := Ideal) V c).flushed 10 t = ((cfg1.win 10).blk t).view.read (Elt Ideal) (G V c) := by
  show (cfg1.win 10).cut (grid1.coords t) ((dat1 V c).after 10 t) = _
  rw [after1_10]
  unfold out1_10
  rw [View.canon_unit_zero hz]
  simp only [View.ld_unit_zero (S := S5000x51) hz, View.ld_unit_zero (S := S51x128) hz, View.ld_unit_zero (S := S5000x1) hz,
    View.ld_unit_zero (S := S5000x128) hz, View.ld_unit_zero (S := S1x128) hz, View.ld_unit_zero (S := S128x128) hz,
    View.ld_unit_zero (S := S128x51) hz, View.ld_unit_zero (S := S1x51) hz]
  funext j
  obtain ⟨hr, hc⟩ := out_emb t j
  exact point_value (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t)
    (xagg V c) (hin V c) (eaA V c) (deg V c) (we V c) (be V c) (w1 V c) (b1 V c) (wo V c) (bo V c)
    j (((cfg1.win 10).blk t).view.emb j)
    (fun a => read_xagg V c t _ _ hr rfl) (fun a => read_hin V c t _ _ hr rfl) (fun d => read_eaA V c t _ _ hr rfl)
    (read_deg V c t _ _ hr rfl)
    (funext (read_we V c t)) (funext (read_be V c t)) (funext (read_w1 V c t)) (funext (read_b1 V c t))
    (funext (read_wo V c t)) (funext (read_bo V c t)) hc

/-- An index of the array is in point t's block exactly when each coordinate is in the block's range on its axis. -/
private theorem mem_blk (t : Fin cfg1.N) (i : S50000x51.Idx) :
    i ∈ ((cfg1.win 10).blk t).view.set ↔ ∀ a : Fin 2, win1_10.index t a * S5000x51.size a ≤ (i a).val
      ∧ (i a).val < win1_10.index t a * S5000x51.size a + S5000x51.size a := by
  show i ∈ ((View.whole main_v25).slice (win1_10.rect t)).set ↔ _
  rw [View.set_slice_whole, Rect.mem_set_unit]
  exact Iff.rfl

/-- Row r of the output is written by point r / 5000: the ten blocks cover the array. -/
private theorem cover (i : S50000x51.Idx) :
    ∃ t : Fin cfg1.N, (cfg1.win 10).flush t = true ∧ i ∈ ((cfg1.win 10).blk t).view.set := by
  have hi0 : (i 0).val < 50000 := (i 0).isLt
  have hi1 : (i 1).val < 51 := (i 1).isLt
  have hN : cfg1.N = 10 := N_1
  obtain ⟨t, ht⟩ : ∃ t : Fin cfg1.N, t.val = (i 0).val / 5000 := ⟨⟨(i 0).val / 5000, by rw [hN]; omega⟩, rfl⟩
  have e := index_facts t
  refine ⟨t, flush1_10 t, ?_⟩
  rw [mem_blk]
  intro a
  match a with
  | ⟨0, _⟩ =>
    show win1_10.index t (0 : Fin 2) * 5000 ≤ (i 0).val ∧ (i 0).val < win1_10.index t (0 : Fin 2) * 5000 + 5000
    omega
  | ⟨1, _⟩ =>
    show win1_10.index t (1 : Fin 2) * 51 ≤ (i 1).val ∧ (i 1).val < win1_10.index t (1 : Fin 2) * 51 + 51
    omega

/-- After the second call its output array is the second layer and output projection of the entry arrays, row by row. -/
theorem final (c : Dev nD) :
    ((dat1 (F := Ideal) V c).arrAt 10 cfg1.N : FVec Ideal S50000x51 .f32)
      = fun i => layer1At (R := 50000) (xagg V c) (hin V c) (eaA V c) (deg V c) (we V c) (be V c) (w1 V c) (b1 V c)
          (wo V c) (bo V c) (i 0) (i 1) := by
  exact (dat1 (F := Ideal) V c).arrAt_eq_of_cover 10 (G V c) (fun t _ => flushed_eq V c t) cover

end Cert.KernelIdeal.Final1

end
-- ==== Proof.LibScatter.lean ====
/-
  A general reading lemma at the extended reals, over any extents: a scatter-add of the rows of a matrix of updates
  into the rows of a matrix, the target row of update row e read (signed) off a column of indices. Entry (n, c) of the
  result is the operand's entry plus the sum, over the update rows whose index is n, of their entries in column c;
  an update row whose index names no row of the operand contributes nothing.
-/
import Idealize.ShloMosaic.Lib.ValueIdx
import Idealize.ShloMosaic.PureOps.Ideal.Laws

noncomputable section

namespace Cert.LibScatter

open Idealize.ShloMosaic Idealize.ShloMosaic.ValueIdx

/-- The dimension numbers of a row scatter: update axis 1 is the window, operand axis 0 is indexed, the index
    vector lies along axis 1 of the indices. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Unfold
variable {N E C w : Nat}
  (wf : ScatterDims.WF ⟨2, ![N, C]⟩ ⟨2, ![E, 1]⟩ ⟨2, ![E, C]⟩ [1] [0] [0] 1)

/-- On the row axis the window of update entry (e, c') starts at the signed index read at (e, 0). -/
private theorem start0 (idx : IVec ⟨2, ![E, 1]⟩ w) (e : Fin E) (c' : Fin C) :
    (rowScatter N E C wf).start (ix2 e c') idx 0 = (idx (ix2 e (0 : Fin 1))).toInt := by
  unfold ScatterDims.start
  rw [dif_pos (show (0 : Fin 2) ∈ (rowScatter N E C wf).scatterDimsToOperandDims from List.mem_singleton.mpr rfl)]
  congr 2
  funext b; refine Fin.ext ?_
  match b with
  | ⟨0, _⟩ => rfl
  | ⟨1, _⟩ => rfl

/-- On the column axis, which no index names, the window starts at 0. -/
private theorem start1 (idx : IVec ⟨2, ![E, 1]⟩ w) (j : (⟨2, ![E, C]⟩ : Shape).Idx) :
    (rowScatter N E C wf).start j idx 1 = 0 := by
  unfold ScatterDims.start
  rw [dif_neg (show ¬ (1 : Fin 2) ∈ ([0] : List (Fin 2)) by decide)]

/-- The row axis is an inserted window axis: its window coordinate is 0. -/
private theorem window0 (j : (⟨2, ![E, C]⟩ : Shape).Idx) :
    (rowScatter N E C wf).window j 0 = 0 := by
  unfold ScatterDims.window
  have h : (0 : Fin 2) ∉ (rowScatter N E C wf).sKept := (show ¬ (0 : Fin 2) ∈ ([1] : List (Fin 2)) by decide)
  rw [dif_neg h]

/-- On the column axis the window coordinate of update entry (e, c') is its column c'. -/
private theorem window1 (e : Fin E) (c' : Fin C) :
    (rowScatter N E C wf).window (ix2 e c') 1 = c'.val := by
  unfold ScatterDims.window
  have h : (1 : Fin 2) ∈ (rowScatter N E C wf).sKept := (show (1 : Fin 2) ∈ ([1] : List (Fin 2)) by decide)
  rw [dif_pos h]
  rfl

/-- Update entry (e, c') lands on operand entry (n, c) exactly when row e's index, read signed, is n and the columns
    agree. (An index outside [0, N) lands nowhere, so it equals no n.) -/
private theorem resultIdx_eq_some_iff (idx : IVec ⟨2, ![E, 1]⟩ w) (e : Fin E) (c' : Fin C) (n : Fin N) (c : Fin C) :
    (rowScatter N E C wf).resultIdx? (ix2 e c') idx = some (ix2 n c)
      ↔ (idx (ix2 e (0 : Fin 1))).toInt = (n.val : ℤ) ∧ c' = c := by
  unfold ScatterDims.resultIdx?
  constructor
  · intro h
    split at h
    · rename_i hr
      have hf := Option.some.inj h
      have h0 := congrArg Fin.val (congrFun hf 0)
      have h1 := congrArg Fin.val (congrFun hf 1)
      have hr0 := hr 0
      have hr1 := hr 1
      simp only [start0, start1, window0, window1] at h0 h1 hr0 hr1
      have e0 : ((ix2 n c : (⟨2, ![N, C]⟩ : Shape).Idx) 0).val = n.val := rfl
      have e1 : ((ix2 n c : (⟨2, ![N, C]⟩ : Shape).Idx) 1).val = c.val := rfl
      rw [e0] at h0
      rw [e1] at h1
      refine ⟨by omega, Fin.ext (by omega)⟩
    · exact absurd h (by simp)
  · rintro ⟨hi, rfl⟩
    have hr : ∀ a, 0 ≤ (rowScatter N E C wf).start (ix2 e c') idx a + (rowScatter N E C wf).window (ix2 e c') a ∧
        (rowScatter N E C wf).start (ix2 e c') idx a + (rowScatter N E C wf).window (ix2 e c') a
          < (⟨2, ![N, C]⟩ : Shape).size a := by
      intro a
      match a with
      | ⟨0, _⟩ =>
        show 0 ≤ (rowScatter N E C wf).start (ix2 e c') idx 0 + (rowScatter N E C wf).window (ix2 e c') 0 ∧
          (rowScatter N E C wf).start (ix2 e c') idx 0 + (rowScatter N E C wf).window (ix2 e c') 0 < (N : ℤ)
        rw [start0, window0, hi]
        have := n.isLt
        omega
      | ⟨1, _⟩ =>
        show 0 ≤ (rowScatter N E C wf).start (ix2 e c') idx 1 + (rowScatter N E C wf).window (ix2 e c') 1 ∧
          (rowScatter N E C wf).start (ix2 e c') idx 1 + (rowScatter N E C wf).window (ix2 e c') 1 < (C : ℤ)
        rw [start1, window1]
        have := c'.isLt
        omega
    rw [dif_pos hr]
    congr 1
    funext a
    refine Fin.ext ?_
    match a with
    | ⟨0, _⟩ =>
      show ((rowScatter N E C wf).start (ix2 e c') idx 0 + (rowScatter N E C wf).window (ix2 e c') 0).toNat = n.val
      rw [start0, window0, hi]
      omega
    | ⟨1, _⟩ =>
      show ((rowScatter N E C wf).start (ix2 e c') idx 1 + (rowScatter N E C wf).window (ix2 e c') 1).toNat = c'.val
      rw [start1, window1]
      omega

end Unfold

/-- The row scatter-add read at (n, c). The sum over the update entries landing on (n, c) is split by row and column;
    in row e only column c can land there, and it does exactly when row e's index is n. -/
theorem scatterAdd_rows_apply {N E C w : Nat}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (n : Fin N) (c : Fin C) :
    Host.scatterAdd (rowScatter N E C wf) x idx upd (ix2 n c)
      = x (ix2 n c)
        + ∑ e ∈ Finset.univ.filter (fun e : Fin E => (idx (ix2 e (0 : Fin 1))).toInt = (n.val : ℤ)),
            upd (ix2 e c) := by
  unfold Host.scatterAdd
  rw [Ideal.hostScatterAdd_def]
  unfold Ideal.hostScatterAdd
  congr 1
  rw [Finset.sum_filter, sum_idx2, Finset.sum_filter]
  refine Finset.sum_congr rfl (fun e _ => ?_)
  simp only [resultIdx_eq_some_iff]
  by_cases hq : (idx (ix2 e (0 : Fin 1))).toInt = (n.val : ℤ)
  · simp only [hq, true_and, if_true]
    rw [Finset.sum_ite_eq']
    simp
  · simp only [hq, false_and, if_false]
    exact Finset.sum_const_zero

end Cert.LibScatter

end
-- ==== Proof.Reads.lean ====
/-
  The host values around the kernel calls, read at an index, at the extended reals.
  Seg a12 n is the set of edges whose destination index is n. Each segment sum at (n, c) is zero plus the sum over
  Seg a12 n of the update rows' entries in column c; of the edge attributes with a column of ones appended, columns
  0..50 give the aggregated attributes and column 51 the number of edges into n. When every source index lies in
  [-50000, 50000) the wrapped index lies in [0, 49999], the mask is all ones, and the masked gather is the gather.
  A vector reshaped to one row reads its entry.
-/
import proofs.«417725_j34583076668022_2_alg».proof.Proof.KTerms
import proofs.«417725_j34583076668022_2_alg».proof.Proof.LibScatter
import Idealize.ShloMosaic.Lib.ValueIdx
import Idealize.ShloMosaic.Lib.ValueLayout
import Idealize.ShloMosaic.Lib.Pipeline.Value
import Idealize.ShloMosaic.Lib.ReduceAll
import Idealize.ShloMosaic.Lib.StableHlo.Predicate
import Idealize.ShloMosaic.PureOps.Ideal.Laws

noncomputable section

namespace Cert.KernelIdeal.Reads

open Idealize.ShloMosaic Idealize.ShloMosaic.ValueIdx Idealize.SL.Sem
open Cert.KernelIdeal Cert.KernelIdeal.Terms Cert.KernelIdeal.Facts₀ Cert.KernelIdeal.Facts

/-- The edges whose destination index is node n. -/
def Seg (a12 : IVec S2x800000 32) (n : Fin 50000) : Finset (Fin 800000) :=
  Finset.univ.filter (fun e : Fin 800000 => (dstI a12 (ix2 e (0 : Fin 1))).toInt = (n.val : ℤ))

/-! ## The segment sums -/

/-- An array filled with the zero word reads 0 at every index. -/
private theorem zeros_apply {t : Shape} (h : S_.BroadcastsInDim t (![] : Fin 0 → Fin t.rank)) (j : t.Idx) :
    broadcastInDim t ![] h (constant (F := Ideal) S_ .f32 0x00000000#32) j = 0 := by
  show Ideal.ofBits .f32 0x00000000#32 = 0
  exact Ideal.ofBits_zero_f32

theorem seg151_apply (u : FVec Ideal S800000x151 .f32) (a12 : IVec S2x800000 32) (n : Fin 50000) (c : Fin 151) :
    seg151 (F := Ideal) u a12 (ix2 n c) = 0 + ∑ e ∈ Seg a12 n, u (ix2 e c) := by
  unfold seg151 Seg
  refine (Cert.LibScatter.scatterAdd_rows_apply Facts₀.scatter_S50000x151_S800000x1_S800000x151_1_0_0_1_wf
    _ (dstI a12) u n c).trans ?_
  rw [zeros_apply]

theorem seg128_apply (u : FVec Ideal S800000x128 .f32) (a12 : IVec S2x800000 32) (n : Fin 50000) (c : Fin 128) :
    seg128 (F := Ideal) u a12 (ix2 n c) = 0 + ∑ e ∈ Seg a12 n, u (ix2 e c) := by
  unfold seg128 Seg
  refine (Cert.LibScatter.scatterAdd_rows_apply Facts₀.scatter_S50000x128_S800000x1_S800000x128_1_0_0_1_wf
    _ (dstI a12) u n c).trans ?_
  rw [zeros_apply]

/-- The one word 0x3F800000 is the extended real 1. -/
private theorem ofBits_one_f32 : Ideal.ofBits .f32 0x3F800000#32 = 1 := by
  simp [Ideal.ofBits, Ideal.ieee]
  rw [← EReal.coe_mul]
  norm_num

/-- The edge attributes with a column of ones appended: the array the 52-column segment sum adds up. -/
private abbrev cat52 (a1 : FVec Ideal S800000x51 .f32) : FVec Ideal S800000x52 .f32 :=
  concatenate S800000x52 1 [⟨S800000x51, a1⟩,
    ⟨S800000x1, broadcastInDim S800000x1 ![] bcast_S_S800000x1 (constant S_ .f32 0x3F800000#32)⟩]
    concatenates_S800000x51_S800000x1_S800000x52_d1

/-- In a column below 51 the appended array reads the attribute. -/
private theorem cat52_left (a1 : FVec Ideal S800000x51 .f32) (e : Fin 800000) (d : Fin 51) (hd : d.val < 52) :
    cat52 a1 (ix2 e (⟨d.val, hd⟩ : Fin 52)) = a1 (ix2 e d) := by
  refine concatenate_pair_apply_left (1 : Fin 2) a1 _ concatenates_S800000x51_S800000x1_S800000x52_d1
    (ix2 e (⟨d.val, hd⟩ : Fin 52)) rfl (ix2 e d) (fun b => ?_)
  match b with
  | ⟨0, _⟩ => rfl
  | ⟨1, _⟩ => rfl

/-- In column 51 the appended array reads 1. -/
private theorem cat52_right (a1 : FVec Ideal S800000x51 .f32) (e : Fin 800000) :
    cat52 a1 (ix2 e (⟨51, by decide⟩ : Fin 52)) = 1 := by
  refine (concatenate_pair_apply_right (t := S800000x52) (s₁ := S800000x51) (s₂ := S800000x1) (1 : Fin 2) a1
    (broadcastInDim S800000x1 ![] bcast_S_S800000x1 (constant S_ .f32 0x3F800000#32))
    concatenates_S800000x51_S800000x1_S800000x52_d1
    (ix2 e (⟨51, by decide⟩ : Fin 52)) rfl rfl (ix2 e (0 : Fin 1)) (fun b hb => ?_) rfl).trans ?_
  · match b with
    | ⟨0, _⟩ => rfl
    | ⟨1, _⟩ => exact absurd rfl hb
  · show Ideal.ofBits .f32 0x3F800000#32 = 1
    exact ofBits_one_f32

/-- The 52-column segment sum read at (n, c). -/
private theorem seg52_apply (a1 : FVec Ideal S800000x51 .f32) (a12 : IVec S2x800000 32) (n : Fin 50000) (c : Fin 52) :
    seg52 (F := Ideal) a1 a12 (ix2 n c) = 0 + ∑ e ∈ Seg a12 n, cat52 a1 (ix2 e c) := by
  unfold seg52 Seg
  refine (Cert.LibScatter.scatterAdd_rows_apply Facts₀.scatter_S50000x52_S800000x1_S800000x52_1_0_0_1_wf
    _ (dstI a12) _ n c).trans ?_
  rw [zeros_apply]

/-- Columns 0..50 of a 52-column array, read at (n, d): the array at (n, d). -/
private theorem slice51_apply (x : FVec Ideal S50000x52 .f32) (n : Fin 50000) (d : Fin 51) (hd : d.val < 52) :
    extractStridedSlice S50000x51 ![0, 0] x slices_S50000x52_S50000x51_0_0 (ix2 n d)
      = x (ix2 n (⟨d.val, hd⟩ : Fin 52)) := by
  refine extractStridedSlice_apply _ _ slices_S50000x52_S50000x51_0_0 (ix2 n d) (ix2 n (⟨d.val, hd⟩ : Fin 52)) (by
    intro a
    match a with
    | ⟨0, _⟩ => show n.val = 0 + n.val; omega
    | ⟨1, _⟩ => show d.val = 0 + d.val; omega)

/-- Column 51 of a 52-column array, read at (n, 0): the array at (n, 51). -/
private theorem slice1_apply (x : FVec Ideal S50000x52 .f32) (n : Fin 50000) :
    extractStridedSlice S50000x1 ![0, 51] x slices_S50000x52_S50000x1_0_51 (ix2 n (0 : Fin 1))
      = x (ix2 n (⟨51, by decide⟩ : Fin 52)) := by
  refine extractStridedSlice_apply _ _ slices_S50000x52_S50000x1_0_51 (ix2 n (0 : Fin 1))
    (ix2 n (⟨51, by decide⟩ : Fin 52)) (by
    intro a
    match a with
    | ⟨0, _⟩ => show n.val = 0 + n.val; omega
    | ⟨1, _⟩ => rfl)

theorem eaAgg_apply (a1 : FVec Ideal S800000x51 .f32) (a12 : IVec S2x800000 32) (n : Fin 50000) (d : Fin 51) :
    eaAgg (F := Ideal) a1 a12 (ix2 n d) = 0 + ∑ e ∈ Seg a12 n, a1 (ix2 e d) := by
  have hd : d.val < 52 := Nat.lt_of_lt_of_le d.isLt (by decide)
  unfold eaAgg
  rw [slice51_apply _ n d hd, seg52_apply]
  exact congrArg (fun t : EReal => 0 + t) (Finset.sum_congr rfl (fun e _ => cat52_left a1 e d hd))

theorem degT_apply (a1 : FVec Ideal S800000x51 .f32) (a12 : IVec S2x800000 32) (n : Fin 50000) :
    degT (F := Ideal) a1 a12 (ix2 n (0 : Fin 1)) = 0 + ∑ _e ∈ Seg a12 n, (1 : EReal) := by
  unfold degT
  rw [slice1_apply, seg52_apply]
  exact congrArg (fun t : EReal => 0 + t) (Finset.sum_congr rfl (fun e _ => cat52_right a1 e))

/-! ## The mask and the masked gathers -/

/-- One and one is one. -/
private theorem andi_one_one : IntOp.andi (1#1) (1#1) = 1#1 := by decide

/-- A left fold by "and" from 1 over words that are all 1 is 1. -/
private theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, andi_one_one]
    exact foldl_andi_ones f hf l

/-- The signed comparison "s < 0" holds exactly when s, read signed, is negative. -/
private theorem slt_zero_iff (s : BitVec 32) : IntOp.cmpi .slt s 0#32 = 1#1 ↔ s.toInt < 0 := by
  unfold IntOp.cmpi
  show BitVec.ofBool (s.slt 0#32) = 1#1 ↔ _
  rw [StableHlo.Predicate.ofBool_eq_one_iff, BitVec.slt, decide_eq_true_eq,
    StableHlo.Predicate.toInt_ofNat_small 0 (by norm_num)]
  simp

/-- For s in [-50000, 50000) the wrapped word (s + 50000 where s < 0, else s), read unsigned, is below 50000:
    a negative s is 2^32 + s unsigned, and adding 50000 wraps it round to s + 50000. -/
private theorem wrap_lt (s : BitVec 32) (hlo : (-50000 : ℤ) ≤ s.toInt) (hhi : s.toInt < 50000) :
    (Scalar.select (IntOp.cmpi .slt s 0#32) (IntOp.addi s 50000#32) s).toNat < 50000 := by
  have e1 := BitVec.toInt_eq_toNat_cond s
  have hs := s.isLt
  by_cases hneg : s.toInt < 0
  · rw [(slt_zero_iff s).2 hneg, select_one]
    show (s + 50000#32).toNat < 50000
    rw [BitVec.toNat_add]
    have e5 : (50000#32).toNat = 50000 := by decide
    rw [e5]
    split_ifs at e1 <;> omega
  · have hc : ¬ IntOp.cmpi .slt s 0#32 = 1#1 := fun h => hneg ((slt_zero_iff s).1 h)
    have : Scalar.select (IntOp.cmpi .slt s 0#32) (IntOp.addi s 50000#32) s = s := if_neg hc
    rw [this]
    split_ifs at e1 <;> omega

/-- So both comparisons, 0 ≤ wrapped and wrapped ≤ 49999, hold. -/
private theorem wrap_ok (s : BitVec 32) (hlo : (-50000 : ℤ) ≤ s.toInt) (hhi : s.toInt < 50000) :
    IntOp.andi
      (IntOp.cmpi .sge (Scalar.select (IntOp.cmpi .slt s 0#32) (IntOp.addi s 50000#32) s) 0#32)
      (IntOp.cmpi .sle (Scalar.select (IntOp.cmpi .slt s 0#32) (IntOp.addi s 50000#32) s) 49999#32) = 1#1 := by
  have hw := wrap_lt s hlo hhi
  generalize Scalar.select (IntOp.cmpi .slt s 0#32) (IntOp.addi s 50000#32) s = w at hw
  have hw31 : w.toNat < 2 ^ 31 := by omega
  have h0 : (0#32).toNat = 0 := by decide
  have h9 : (49999#32).toNat = 49999 := by decide
  rw [(StableHlo.Predicate.sge_iff_toNat hw31 (by rw [h0]; norm_num)).2 (by rw [h0]; omega),
    (StableHlo.Predicate.sle_iff_toNat hw31 (by rw [h9]; norm_num)).2 (by rw [h9]; omega)]
  exact andi_one_one

/-- Each row of the 800000 x 1 array of comparisons is 1, so the "and" along each row, from 1, is 1. -/
theorem mask_one (a12 : IVec S2x800000 32) (hlo : ∀ i : S800000.Idx, (-50000 : ℤ) ≤ (srcT a12 i).toInt)
    (hhi : ∀ i : S800000.Idx, (srcT a12 i).toInt < (50000 : ℤ)) : maskT a12 = fun _ => 1#1 := by
  have key : ∀ k : S800000.Idx,
      IntOp.andi (IntOp.cmpi .sge (wrapT a12 k) 0#32) (IntOp.cmpi .sle (wrapT a12 k) 49999#32) = 1#1 :=
    fun k => wrap_ok (srcT a12 k) (hlo k) (hhi k)
  funext j
  unfold maskT
  rw [Host.reduce_eq_foldl]
  exact foldl_andi_ones _ (fun i => key _) _

variable {F : FTy → Type} [FloatOps F]

theorem take151_of_mask (z : FVec F S50000x151 .f32) (a12 : IVec S2x800000 32) (h : maskT a12 = fun _ => 1#1) :
    take151 z a12 = Host.gather gather_S50000x151_S800000x1_S800000x151_1_0_n_n_0_1_1151 z (srcW a12) := by
  unfold take151
  funext i
  rw [select_apply]
  have hb : broadcastInDim S800000x151 ![0] bcast_S800000_S800000x151_0 (maskT a12) i = 1#1 := by
    rw [h]; rfl
  rw [hb, select_one]

theorem take128_of_mask (z : FVec F S50000x128 .f32) (a12 : IVec S2x800000 32) (h : maskT a12 = fun _ => 1#1) :
    take128 z a12 = Host.gather gather_S50000x128_S800000x1_S800000x128_1_0_n_n_0_1_1128 z (srcW a12) := by
  unfold take128
  funext i
  rw [select_apply]
  have hb : broadcastInDim S800000x128 ![0] bcast_S800000_S800000x128_0 (maskT a12) i = 1#1 := by
    rw [h]; rfl
  rw [hb, select_one]

/-! ## A vector as one row -/

theorem row151_apply (v : FVec F S151 .f32) (a : Fin 151) :
    shapeCast S1x151 v Facts₀.shapeCasts_S151_S1x151 (ix2 (0 : Fin 1) a) = v (ix1 a) :=
  shapeCast_a_1a_apply v Facts₀.shapeCasts_S151_S1x151 (0 : Fin 1) a

theorem row128_apply (v : FVec F S128 .f32) (k : Fin 128) :
    shapeCast S1x128 v Facts₀.shapeCasts_S128_S1x128 (ix2 (0 : Fin 1) k) = v (ix1 k) :=
  shapeCast_a_1a_apply v Facts₀.shapeCasts_S128_S1x128 (0 : Fin 1) k

theorem row51_apply (v : FVec F S51 .f32) (o : Fin 51) :
    shapeCast S1x51 v Facts₀.shapeCasts_S51_S1x51 (ix2 (0 : Fin 1) o) = v (ix1 o) :=
  shapeCast_a_1a_apply v Facts₀.shapeCasts_S51_S1x51 (0 : Fin 1) o

end Cert.KernelIdeal.Reads

end
-- ==== Proof.SegLinear.lean ====
/-
  Linearity of a sum over a segment, at the extended reals with real entries.
  For a finite set S of edges, real gathered entries g, real edge attributes ea, a real weight column We, a real bias
  be and a real self term z, the two arrangements
      ((0 + Σ_{e ∈ S} (g e + (Σ_d ea e d · We d + be))) + z) + be
      (((0 + Σ_{e ∈ S} g e) + Σ_d (0 + Σ_{e ∈ S} ea e d) · We d) + ((0 + Σ_{e ∈ S} 1) + 1) · be) + z
  are the same real number: the weight column moves out of the sum over the edges, and the bias summed over S is
  the number of edges times the bias.
-/
import Mathlib.Data.EReal.Basic
import Mathlib.Algebra.BigOperators.Ring.Finset
import Mathlib.Algebra.BigOperators.Group.Finset.Sigma
import Mathlib.Tactic.Ring

noncomputable section

namespace Cert.SegLinear

open Finset

variable {ι κ : Type*} [Fintype κ]

/-- The aggregated entry, as a real number. -/
def agg (S : Finset ι) (g : ι → ℝ) (ea : ι → κ → ℝ) (We : κ → ℝ) (be z : ℝ) : ℝ :=
  (∑ e ∈ S, (g e + (∑ d, ea e d * We d + be))) + z + be

/-- A finite sum of real numbers, taken in the extended reals, is the real sum. -/
theorem coe_sum {α : Type*} (S : Finset α) (f : α → ℝ) : (∑ i ∈ S, (f i : EReal)) = ((∑ i ∈ S, f i : ℝ) : EReal) := by
  classical
  induction S using Finset.induction_on with
  | empty => simp only [Finset.sum_empty, EReal.coe_zero]
  | insert a s ha ih => rw [Finset.sum_insert ha, Finset.sum_insert ha, EReal.coe_add, ih]

/-- The arrangement that adds each edge's whole message. -/
theorem msg_form (S : Finset ι) (g : ι → ℝ) (ea : ι → κ → ℝ) (We : κ → ℝ) (be z : ℝ) :
    (((0 : EReal) + ∑ e ∈ S, ((g e : EReal) + ((∑ d, (ea e d : EReal) * (We d : EReal)) + (be : EReal))))
        + (z : EReal)) + (be : EReal) = ((agg S g ea We be z : ℝ) : EReal) := by
  simp only [← EReal.coe_mul, coe_sum, ← EReal.coe_add, ← EReal.coe_zero]
  rw [EReal.coe_eq_coe_iff]
  unfold agg
  rw [zero_add]

/-- The arrangement that aggregates the gathered entries, the edge attributes and the edge count separately. -/
theorem split_form (S : Finset ι) (g : ι → ℝ) (ea : ι → κ → ℝ) (We : κ → ℝ) (be z : ℝ) :
    ((((0 : EReal) + ∑ e ∈ S, (g e : EReal))
          + ∑ d, ((0 : EReal) + ∑ e ∈ S, (ea e d : EReal)) * (We d : EReal))
        + (((0 : EReal) + ∑ e ∈ S, (1 : EReal)) + 1) * (be : EReal)) + (z : EReal)
      = ((agg S g ea We be z : ℝ) : EReal) := by
  simp only [← EReal.coe_one, ← EReal.coe_mul, coe_sum, ← EReal.coe_add, ← EReal.coe_zero]
  rw [EReal.coe_eq_coe_iff]
  unfold agg
  have h1 : ∑ d, (0 + ∑ e ∈ S, ea e d) * We d = ∑ e ∈ S, ∑ d, ea e d * We d := by
    simp only [zero_add, Finset.sum_mul]
    exact Finset.sum_comm
  have h2 : (∑ _e ∈ S, (1 : ℝ)) * be = ∑ _e ∈ S, be := by
    rw [Finset.sum_mul]
    simp only [one_mul]
  rw [h1]
  simp only [Finset.sum_add_distrib, zero_add]
  rw [← h2]
  ring

/-- A row times a weight column plus a bias, with real entries. -/
theorem dot_bias (a W : κ → ℝ) (b : ℝ) :
    (∑ c, (a c : EReal) * (W c : EReal)) + (b : EReal) = ((∑ c, a c * W c + b : ℝ) : EReal) := by
  simp only [← EReal.coe_mul, coe_sum, ← EReal.coe_add]

end Cert.SegLinear

end
-- ==== Proof.KLayer.lean ====
/-
  The fused node rows with real entries. If, at node row p and channel a, the neighbour aggregate is zero plus a sum
  of real gathered entries over a set S of edges, the aggregated edge attributes are zero plus the sums of real
  attributes over S, the degree entry is zero plus a sum of ones over S, and the weights, bias and the node's own
  entry are real, then the combined entry is the real aggregate. And with real combined entries, weights and biases
  the layer formulas are the real ones.
-/
import proofs.«417725_j34583076668022_2_alg».proof.Proof.NodeRow
import proofs.«417725_j34583076668022_2_alg».proof.Proof.SegLinear

noncomputable section

namespace Cert.KLayer

open Idealize.ShloMosaic Idealize.ShloMosaic.ValueIdx Cert.NodeRow Cert.SegLinear

/-- The combined entry, from its separately aggregated parts, is the real aggregate. -/
theorem combined_real {R C : Nat} {ι : Type*} (xa x : FVec Ideal ⟨2, ![R, C]⟩ .f32) (ea : FVec Ideal ⟨2, ![R, 51]⟩ .f32)
    (dg : FVec Ideal ⟨2, ![R, 1]⟩ .f32) (we : FVec Ideal ⟨2, ![51, C]⟩ .f32) (be : FVec Ideal ⟨2, ![1, C]⟩ .f32)
    (S : Finset ι) (g : ι → ℝ) (ear : ι → Fin 51 → ℝ) (Wer : Fin 51 → ℝ) (ber z : ℝ) (p : Fin R) (a : Fin C)
    (hxa : xa (ix2 p a) = 0 + ∑ e ∈ S, (g e : EReal))
    (hea : ∀ d : Fin 51, ea (ix2 p d) = 0 + ∑ e ∈ S, (ear e d : EReal))
    (hdg : dg (ix2 p (0 : Fin 1)) = 0 + ∑ _e ∈ S, (1 : EReal))
    (hwe : ∀ d : Fin 51, we (ix2 d a) = (Wer d : EReal)) (hbe : be (ix2 (0 : Fin 1) a) = (ber : EReal))
    (hx : x (ix2 p a) = (z : EReal)) :
    combined xa x ea dg we be p a = ((agg S g ear Wer ber z : ℝ) : EReal) := by
  unfold combined
  rw [hxa, hdg, hbe, hx]
  simp only [hea, hwe]
  exact split_form S g ear Wer ber z

/-- The first layer's row with real combined entries, weights and bias. -/
theorem layer0At_real {R : Nat} (xa x : FVec Ideal ⟨2, ![R, 151]⟩ .f32) (ea : FVec Ideal ⟨2, ![R, 51]⟩ .f32)
    (dg : FVec Ideal ⟨2, ![R, 1]⟩ .f32) (we : FVec Ideal ⟨2, ![51, 151]⟩ .f32) (be : FVec Ideal ⟨2, ![1, 151]⟩ .f32)
    (w : FVec Ideal ⟨2, ![151, 128]⟩ .f32) (b : FVec Ideal ⟨2, ![1, 128]⟩ .f32)
    (A W : Fin 151 → ℝ) (bb : ℝ) (p : Fin R) (q : Fin 128)
    (hA : ∀ a : Fin 151, combined xa x ea dg we be p a = (A a : EReal))
    (hw : ∀ a : Fin 151, w (ix2 a q) = (W a : EReal)) (hb : b (ix2 (0 : Fin 1) q) = (bb : EReal)) :
    layer0At xa x ea dg we be w b p q = ((∑ a, A a * W a + bb : ℝ) : EReal) := by
  unfold layer0At
  simp only [hA, hw]
  rw [hb]
  exact dot_bias A W bb

/-- The second layer and output projection with real combined entries, weights and biases. -/
theorem layer1At_real {R : Nat} (xa h : FVec Ideal ⟨2, ![R, 128]⟩ .f32) (ea : FVec Ideal ⟨2, ![R, 51]⟩ .f32)
    (dg : FVec Ideal ⟨2, ![R, 1]⟩ .f32) (we : FVec Ideal ⟨2, ![51, 128]⟩ .f32) (be : FVec Ideal ⟨2, ![1, 128]⟩ .f32)
    (w1 : FVec Ideal ⟨2, ![128, 128]⟩ .f32) (b1 : FVec Ideal ⟨2, ![1, 128]⟩ .f32)
    (wo : FVec Ideal ⟨2, ![128, 51]⟩ .f32) (bo : FVec Ideal ⟨2, ![1, 51]⟩ .f32)
    (A : Fin 128 → ℝ) (W1 : Fin 128 → Fin 128 → ℝ) (B1 Wo : Fin 128 → ℝ) (bbo : ℝ) (p : Fin R) (o : Fin 51)
    (hA : ∀ c : Fin 128, combined xa h ea dg we be p c = (A c : EReal))
    (hw1 : ∀ c k : Fin 128, w1 (ix2 c k) = (W1 c k : EReal)) (hb1 : ∀ k : Fin 128, b1 (ix2 (0 : Fin 1) k) = (B1 k : EReal))
    (hwo : ∀ k : Fin 128, wo (ix2 k o) = (Wo k : EReal)) (hbo : bo (ix2 (0 : Fin 1) o) = (bbo : EReal)) :
    layer1At xa h ea dg we be w1 b1 wo bo p o
      = ((∑ k, (∑ c, A c * W1 c k + B1 k) * Wo k + bbo : ℝ) : EReal) := by
  unfold layer1At
  -- the second layer's entry at hidden channel k is a real row times a real column plus a real bias
  have hk : ∀ k : Fin 128, (∑ c : Fin 128, combined xa h ea dg we be p c * w1 (ix2 c k)) + b1 (ix2 (0 : Fin 1) k)
      = ((∑ c, A c * W1 c k + B1 k : ℝ) : EReal) := fun k => by
    simp only [hA, hw1, hb1]
    exact dot_bias A (fun c => W1 c k) (B1 k)
  simp only [hk, hwo]
  rw [hbo]
  -- and the output projection is again a real row times a real column plus a real bias
  exact dot_bias (fun k => ∑ c, A c * W1 c k + B1 k) Wo bbo

end Cert.KLayer

end
-- ==== Proof.Spec.lean ====
/-
  The network's result as a real number, from real inputs.
  For node n let S n be the set of edges whose destination is n, and let gx e a (gh e c) name the row and channel a
  gather reads for edge e. With x the node features, ea the edge attributes, (We0, be0, W0, b0) and (We1, be1, W1, b1)
  the two layers' edge and node weights and biases, (Wout, bout) the output projection:
      h1 n k  = Σ_a agg0 n a · W0 a k + b0 k,   agg0 n a = Σ_{e ∈ S n} (x (gx e a) + (Σ_d ea e d · We0 d a + be0 a)) + x n a + be0 a
      h2 n k  = Σ_c agg1 n c · W1 c k + b1 k,   agg1 n c = Σ_{e ∈ S n} (h1 (gh e c) + (Σ_d ea e d · We1 d c + be1 c)) + h1 n c + be1 c
      out n o = Σ_k h2 n k · Wout k o + bout o.
-/
import proofs.«417725_j34583076668022_2_alg».proof.Proof.SegLinear
import Idealize.ShloMosaic.Lib.ValueIdx

noncomputable section

namespace Cert.Spec

open Idealize.ShloMosaic Idealize.ShloMosaic.ValueIdx Cert.SegLinear

variable (r0 : (⟨2, ![50000, 151]⟩ : Shape).Idx → ℝ) (r1 : (⟨2, ![800000, 51]⟩ : Shape).Idx → ℝ)
  (r2 : (⟨2, ![51, 151]⟩ : Shape).Idx → ℝ) (r3 : (⟨1, ![151]⟩ : Shape).Idx → ℝ)
  (r4 : (⟨2, ![151, 128]⟩ : Shape).Idx → ℝ) (r5 : (⟨1, ![128]⟩ : Shape).Idx → ℝ)
  (r6 : (⟨2, ![51, 128]⟩ : Shape).Idx → ℝ) (r7 : (⟨1, ![128]⟩ : Shape).Idx → ℝ)
  (r8 : (⟨2, ![128, 128]⟩ : Shape).Idx → ℝ) (r9 : (⟨1, ![128]⟩ : Shape).Idx → ℝ)
  (r10 : (⟨2, ![128, 51]⟩ : Shape).Idx → ℝ) (r11 : (⟨1, ![51]⟩ : Shape).Idx → ℝ)
  (S : Fin 50000 → Finset (Fin 800000))
  (gx : Fin 800000 → Fin 151 → (⟨2, ![50000, 151]⟩ : Shape).Idx)
  (gh : Fin 800000 → Fin 128 → (⟨2, ![50000, 128]⟩ : Shape).Idx)

/-- The first layer's output at node n, hidden channel k. -/
def h1R (n : Fin 50000) (k : Fin 128) : ℝ :=
  ∑ a : Fin 151, agg (S n) (fun e => r0 (gx e a)) (fun e d => r1 (ix2 e d)) (fun d => r2 (ix2 d a)) (r3 (ix1 a))
      (r0 (ix2 n a)) * r4 (ix2 a k) + r5 (ix1 k)

/-- The second layer's output at node n, hidden channel k. -/
def h2R (n : Fin 50000) (k : Fin 128) : ℝ :=
  ∑ c : Fin 128, agg (S n) (fun e => h1R r0 r1 r2 r3 r4 r5 S gx (gh e c 0) (gh e c 1)) (fun e d => r1 (ix2 e d))
      (fun d => r6 (ix2 d c)) (r7 (ix1 c)) (h1R r0 r1 r2 r3 r4 r5 S gx n c) * r8 (ix2 c k) + r9 (ix1 k)

/-- The network's output at node n, output channel o. -/
def outR (n : Fin 50000) (o : Fin 51) : ℝ :=
  ∑ k : Fin 128, h2R r0 r1 r2 r3 r4 r5 r6 r7 r8 r9 S gx gh n k * r10 (ix2 k o) + r11 (ix1 o)

end Cert.Spec

end
-- ==== Proof.KTermsValue.lean ====
/-
  The kernel's two fused layers over its host terms, with real inputs and every source index in range, are the real
  network's layers. The neighbour aggregate is the segment sum of the gathered rows (the mask is all ones, so the masked
  gather is the gather, and a gather of a real array is real); the aggregated edge attributes and the in-degree are
  the segment sums of the attributes and of ones; so each combined entry is the real aggregate, by linearity of the
  segment sum, and each layer the real layer.
-/
import proofs.«417725_j34583076668022_2_alg».proof.Proof.KTerms
import proofs.«417725_j34583076668022_2_alg».proof.Proof.Reads
import proofs.«417725_j34583076668022_2_alg».proof.Proof.KLayer
import proofs.«417725_j34583076668022_2_alg».proof.Proof.Spec

noncomputable section

namespace Cert.KernelIdeal.KTermsValue

open Idealize.ShloMosaic Idealize.ShloMosaic.ValueIdx Idealize.SL.Sem
open Cert.KernelIdeal Cert.KernelIdeal.Terms Cert.KernelIdeal.Reads Cert.KernelIdeal.Facts₀ Cert.KernelIdeal.Facts
open Cert.NodeRow Cert.SegLinear Cert.Spec Cert.KLayer

/-- The entry of the node features the first gather reads for edge e, channel a. -/
def gxK (a12 : IVec S2x800000 32) (e : Fin 800000) (a : Fin 151) : (⟨2, ![50000, 151]⟩ : Shape).Idx :=
  gather_S50000x151_S800000x1_S800000x151_1_0_n_n_0_1_1151.operandIdx (ix2 e a) (srcW a12)

/-- The entry of the hidden features the second gather reads for edge e, channel c. -/
def ghK (a12 : IVec S2x800000 32) (e : Fin 800000) (c : Fin 128) : (⟨2, ![50000, 128]⟩ : Shape).Idx :=
  gather_S50000x128_S800000x1_S800000x128_1_0_n_n_0_1_1128.operandIdx (ix2 e c) (srcW a12)

variable (r0 : (⟨2, ![50000, 151]⟩ : Shape).Idx → ℝ) (r1 : (⟨2, ![800000, 51]⟩ : Shape).Idx → ℝ)
  (r2 : (⟨2, ![51, 151]⟩ : Shape).Idx → ℝ) (r3 : (⟨1, ![151]⟩ : Shape).Idx → ℝ)
  (r4 : (⟨2, ![151, 128]⟩ : Shape).Idx → ℝ) (r5 : (⟨1, ![128]⟩ : Shape).Idx → ℝ)
  (r6 : (⟨2, ![51, 128]⟩ : Shape).Idx → ℝ) (r7 : (⟨1, ![128]⟩ : Shape).Idx → ℝ)
  (r8 : (⟨2, ![128, 128]⟩ : Shape).Idx → ℝ) (r9 : (⟨1, ![128]⟩ : Shape).Idx → ℝ)
  (r10 : (⟨2, ![128, 51]⟩ : Shape).Idx → ℝ) (r11 : (⟨1, ![51]⟩ : Shape).Idx → ℝ)
  (a12 : IVec S2x800000 32) (hm : maskT a12 = fun _ => 1#1)

include hm

/-- The first fused layer over the host terms, at (n, k), is the real first layer. -/
theorem layer0_terms (n : Fin 50000) (k : Fin 128) :
    layer0At (R := 50000)
        (seg151 (F := Ideal) (take151 (fun i => (r0 i : EReal)) a12) a12) (fun i => (r0 i : EReal))
        (eaAgg (F := Ideal) (fun i => (r1 i : EReal)) a12) (degT (F := Ideal) (fun i => (r1 i : EReal)) a12)
        (fun i => (r2 i : EReal)) (shapeCast S1x151 (fun i => (r3 i : EReal)) Facts₀.shapeCasts_S151_S1x151)
        (fun i => (r4 i : EReal)) (shapeCast S1x128 (fun i => (r5 i : EReal)) Facts₀.shapeCasts_S128_S1x128) n k
      = ((h1R r0 r1 r2 r3 r4 r5 (Seg a12) (gxK a12) n k : ℝ) : EReal) := by
  unfold h1R
  refine layer0At_real _ _ _ _ _ _ _ _
    (fun a => agg (Seg a12 n) (fun e => r0 (gxK a12 e a)) (fun e d => r1 (ix2 e d)) (fun d => r2 (ix2 d a)) (r3 (ix1 a))
      (r0 (ix2 n a))) (fun a => r4 (ix2 a k)) (r5 (ix1 k)) n k (fun a => ?_) (fun a => rfl) (row128_apply (F := Ideal) (fun i => (r5 i : EReal)) k)
  refine combined_real _ _ _ _ _ _ (Seg a12 n) _ _ _ _ _ n a ?_ (fun d => eaAgg_apply _ a12 n d) (degT_apply _ a12 n)
    (fun d => rfl) (row151_apply (F := Ideal) (fun i => (r3 i : EReal)) a) rfl
  rw [seg151_apply, take151_of_mask _ a12 hm]
  rfl

/-- The first fused layer over the host terms, as an array of real numbers. -/
theorem layer0_terms_fun :
    (fun i : S50000x128.Idx => layer0At (R := 50000)
        (seg151 (F := Ideal) (take151 (fun i => (r0 i : EReal)) a12) a12) (fun i => (r0 i : EReal))
        (eaAgg (F := Ideal) (fun i => (r1 i : EReal)) a12) (degT (F := Ideal) (fun i => (r1 i : EReal)) a12)
        (fun i => (r2 i : EReal)) (shapeCast S1x151 (fun i => (r3 i : EReal)) Facts₀.shapeCasts_S151_S1x151)
        (fun i => (r4 i : EReal)) (shapeCast S1x128 (fun i => (r5 i : EReal)) Facts₀.shapeCasts_S128_S1x128) (i 0) (i 1))
      = fun i => ((h1R r0 r1 r2 r3 r4 r5 (Seg a12) (gxK a12) (i 0) (i 1) : ℝ) : EReal) :=
  funext fun i => layer0_terms r0 r1 r2 r3 r4 r5 a12 hm (i 0) (i 1)

/-- The second fused layer and output projection over the host terms and the real first layer, at (n, o), is the real
    network output. -/
theorem layer1_terms (n : Fin 50000) (o : Fin 51) :
    layer1At (R := 50000)
        (seg128 (F := Ideal) (take128 (fun i => ((h1R r0 r1 r2 r3 r4 r5 (Seg a12) (gxK a12) (i 0) (i 1) : ℝ) : EReal)) a12) a12)
        (fun i => ((h1R r0 r1 r2 r3 r4 r5 (Seg a12) (gxK a12) (i 0) (i 1) : ℝ) : EReal))
        (eaAgg (F := Ideal) (fun i => (r1 i : EReal)) a12) (degT (F := Ideal) (fun i => (r1 i : EReal)) a12)
        (fun i => (r6 i : EReal)) (shapeCast S1x128 (fun i => (r7 i : EReal)) Facts₀.shapeCasts_S128_S1x128)
        (fun i => (r8 i : EReal)) (shapeCast S1x128 (fun i => (r9 i : EReal)) Facts₀.shapeCasts_S128_S1x128)
        (fun i => (r10 i : EReal)) (shapeCast S1x51 (fun i => (r11 i : EReal)) Facts₀.shapeCasts_S51_S1x51) n o
      = ((outR r0 r1 r2 r3 r4 r5 r6 r7 r8 r9 r10 r11 (Seg a12) (gxK a12) (ghK a12) n o : ℝ) : EReal) := by
  unfold outR h2R
  refine layer1At_real _ _ _ _ _ _ _ _ _ _
    (fun c => agg (Seg a12 n) (fun e => h1R r0 r1 r2 r3 r4 r5 (Seg a12) (gxK a12) (ghK a12 e c 0) (ghK a12 e c 1))
      (fun e d => r1 (ix2 e d)) (fun d => r6 (ix2 d c)) (r7 (ix1 c)) (h1R r0 r1 r2 r3 r4 r5 (Seg a12) (gxK a12) n c))
    (fun c k => r8 (ix2 c k)) (fun k => r9 (ix1 k)) (fun k => r10 (ix2 k o)) (r11 (ix1 o)) n o
    (fun c => ?_) (fun c k => rfl) (fun k => row128_apply (F := Ideal) (fun i => (r9 i : EReal)) k) (fun k => rfl)
    (row51_apply (F := Ideal) (fun i => (r11 i : EReal)) o)
  refine combined_real _ _ _ _ _ _ (Seg a12 n) _ _ _ _ _ n c ?_ (fun d => eaAgg_apply _ a12 n d) (degT_apply _ a12 n)
    (fun d => rfl) (row128_apply (F := Ideal) (fun i => (r7 i : EReal)) c) rfl
  rw [seg128_apply, take128_of_mask _ a12 hm]
  rfl

end Cert.KernelIdeal.KTermsValue

end
-- ==== Proof.KValue.lean ====
/-
  The kernel program's result with real inputs and every source index in range. The first call's output array is the
  first fused layer of what it finds in its operand arrays, which are the host terms of the arguments: the real first
  layer. The second call finds that array, its masked gather's segment sum and the same edge aggregates, and leaves
  the second fused layer and output projection: the real network output. The run names that array as the result.
-/
import proofs.«417725_j34583076668022_2_alg».proof.Proof.KRun
import proofs.«417725_j34583076668022_2_alg».proof.Proof.KHost
import proofs.«417725_j34583076668022_2_alg».proof.Proof.Final0
import proofs.«417725_j34583076668022_2_alg».proof.Proof.Final1
import proofs.«417725_j34583076668022_2_alg».proof.Proof.KTermsValue

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.Terms Cert.KernelIdeal.Reads Cert.KernelIdeal.KHost
open Cert.KernelIdeal.KTermsValue Cert.KernelIdeal.Facts₀ Cert.KernelIdeal.Facts
open Cert.NodeRow Cert.Spec

variable (m : (ℓ : Loc nD τ sig) → Buf (Elt Ideal) ℓ) (ρ : Dev nD → PrngReg) (c : Dev nD)
variable (r0 : (⟨2, ![50000, 151]⟩ : Shape).Idx → ℝ) (r1 : (⟨2, ![800000, 51]⟩ : Shape).Idx → ℝ)
  (r2 : (⟨2, ![51, 151]⟩ : Shape).Idx → ℝ) (r3 : (⟨1, ![151]⟩ : Shape).Idx → ℝ)
  (r4 : (⟨2, ![151, 128]⟩ : Shape).Idx → ℝ) (r5 : (⟨1, ![128]⟩ : Shape).Idx → ℝ)
  (r6 : (⟨2, ![51, 128]⟩ : Shape).Idx → ℝ) (r7 : (⟨1, ![128]⟩ : Shape).Idx → ℝ)
  (r8 : (⟨2, ![128, 128]⟩ : Shape).Idx → ℝ) (r9 : (⟨1, ![128]⟩ : Shape).Idx → ℝ)
  (r10 : (⟨2, ![128, 51]⟩ : Shape).Idx → ℝ) (r11 : (⟨1, ![51]⟩ : Shape).Idx → ℝ)

/-- The first call's output array is the real first layer. -/
theorem hidden_real (e0 : in0 m c = fun i => (r0 i : EReal)) (e1 : in1 m c = fun i => (r1 i : EReal)) (e2 : in2 m c = fun i => (r2 i : EReal)) (e3 : in3 m c = fun i => (r3 i : EReal)) (e4 : in4 m c = fun i => (r4 i : EReal)) (e5 : in5 m c = fun i => (r5 i : EReal))
    (hm : maskT (in12 m c) = fun _ => 1#1) :
    hidden m ρ c = fun i => ((h1R r0 r1 r2 r3 r4 r5 (Seg (in12 m c)) (gxK (in12 m c)) (i 0) (i 1) : ℝ) : EReal) := by
  refine (Final0.final (V3 m ρ) c).trans ?_
  show (fun i : S50000x128.Idx => layer0At (R := 50000) (V3 m ρ c main_v14 : FVec Ideal S50000x151 .f32)
      (V3 m ρ c main_arg0 : FVec Ideal S50000x151 .f32) (V3 m ρ c main_v9 : FVec Ideal S50000x51 .f32)
      (V3 m ρ c main_v10 : FVec Ideal S50000x1 .f32) (V3 m ρ c main_arg2 : FVec Ideal S51x151 .f32)
      (V3 m ρ c main_v15 : FVec Ideal S1x151 .f32) (V3 m ρ c main_arg4 : FVec Ideal S151x128 .f32)
      (V3 m ρ c main_v16 : FVec Ideal S1x128 .f32) (i 0) (i 1)) = _
  rw [V3_xagg, V3_x, V3_eaAgg, V3_deg, V3_we, V3_be, V3_w, V3_b, e0, e1, e2, e3, e4, e5]
  exact layer0_terms_fun r0 r1 r2 r3 r4 r5 (in12 m c) hm

/-- The result array after the run is the real network output. -/
theorem out_real (e0 : in0 m c = fun i => (r0 i : EReal)) (e1 : in1 m c = fun i => (r1 i : EReal)) (e2 : in2 m c = fun i => (r2 i : EReal)) (e3 : in3 m c = fun i => (r3 i : EReal)) (e4 : in4 m c = fun i => (r4 i : EReal)) (e5 : in5 m c = fun i => (r5 i : EReal)) (e6 : in6 m c = fun i => (r6 i : EReal)) (e7 : in7 m c = fun i => (r7 i : EReal)) (e8 : in8 m c = fun i => (r8 i : EReal)) (e9 : in9 m c = fun i => (r9 i : EReal)) (e10 : in10 m c = fun i => (r10 i : EReal)) (e11 : in11 m c = fun i => (r11 i : EReal))
    (hm : maskT (in12 m c) = fun _ => 1#1) :
    (W7 m ρ c (Proc.devRef .tc main_v25) : FVec Ideal S50000x51 .f32)
      = fun i => ((outR r0 r1 r2 r3 r4 r5 r6 r7 r8 r9 r10 r11 (Seg (in12 m c)) (gxK (in12 m c)) (ghK (in12 m c))
          (i 0) (i 1) : ℝ) : EReal) := by
  refine (W7_arr m ρ c 10).trans ?_
  refine (Final1.final (V6 m ρ) c).trans ?_
  show (fun i : S50000x51.Idx => layer1At (R := 50000) (V6 m ρ c main_v21 : FVec Ideal S50000x128 .f32)
      (V6 m ρ c main_v17 : FVec Ideal S50000x128 .f32) (V6 m ρ c main_v9 : FVec Ideal S50000x51 .f32)
      (V6 m ρ c main_v10 : FVec Ideal S50000x1 .f32) (V6 m ρ c main_arg6 : FVec Ideal S51x128 .f32)
      (V6 m ρ c main_v22 : FVec Ideal S1x128 .f32) (V6 m ρ c main_arg8 : FVec Ideal S128x128 .f32)
      (V6 m ρ c main_v23 : FVec Ideal S1x128 .f32) (V6 m ρ c main_arg10 : FVec Ideal S128x51 .f32)
      (V6 m ρ c main_v24 : FVec Ideal S1x51 .f32) (i 0) (i 1)) = _
  rw [V6_xagg, V6_h, V6_eaAgg, V6_deg, V6_we, V6_be, V6_w1, V6_b1, V6_wo, V6_bo,
    hidden_real m ρ c r0 r1 r2 r3 r4 r5 e0 e1 e2 e3 e4 e5 hm, e1, e6, e7, e8, e9, e10, e11]
  exact funext fun i => layer1_terms r0 r1 r2 r3 r4 r5 r6 r7 r8 r9 r10 r11 (in12 m c) hm (i 0) (i 1)

end Cert.KernelIdeal.KValue

end
-- ==== Proof.RefValue.lean ====
/-
  The reference's result, read index by index at the extended reals, is the network's real result of real inputs.
  Each layer: a message per edge (the gathered node row plus the edge attributes through the edge weights plus the edge
  bias), summed into its destination node, plus the node's own row and the edge bias once more, then through the node
  weights plus the node bias. With real inputs every entry is a real number, and the sums are the real sums.
-/
import proofs.«417725_j34583076668022_2_alg».proof.Proof.Gen.ReferenceIdeal.Read
import proofs.«417725_j34583076668022_2_alg».proof.Proof.Spec
import proofs.«417725_j34583076668022_2_alg».proof.Proof.LibScatter
import proofs.«417725_j34583076668022_2_alg».proof.Proof.SegLinear

noncomputable section

namespace Cert.ReferenceIdeal.RefValue

open Idealize.ShloMosaic Idealize.ShloMosaic.ValueIdx Idealize.SL.Sem
open Cert.ReferenceIdeal Cert.ReferenceIdeal.Gen Cert.ReferenceIdeal.Read Cert.SegLinear Cert.Spec

/-- The edges whose destination index is node n, by the reference's column of scatter indices. -/
def SegR (x12 : IVec S2x800000 32) (n : Fin 50000) : Finset (Fin 800000) :=
  Finset.univ.filter (fun e : Fin 800000 => (val_main_v17 (F := Ideal) x12 (ix2 e (0 : Fin 1))).toInt = (n.val : ℤ))

/-- The entry of the node features the first gather reads for edge e, channel a. -/
def gxR (x12 : IVec S2x800000 32) (e : Fin 800000) (a : Fin 151) : (⟨2, ![50000, 151]⟩ : Shape).Idx :=
  gather_S50000x151_S800000x1_S800000x151_1_0_n_n_0_1_1151.operandIdx (ix2 e a) (val_main_v13 (F := Ideal) x12)

/-- The entry of the hidden features the second gather reads for edge e, channel c. -/
def ghR (x12 : IVec S2x800000 32) (e : Fin 800000) (c : Fin 128) : (⟨2, ![50000, 128]⟩ : Shape).Idx :=
  gather_S50000x128_S800000x1_S800000x128_1_0_n_n_0_1_1128.operandIdx (ix2 e c) (val_main_v13 (F := Ideal) x12)

/-! ## The broadcast biases and the edge products, at an index -/

theorem be0_edge (x3 : FVec Ideal S151 .f32) (e : Fin 800000) (a : Fin 151) :
    val_main_v6 (F := Ideal) x3 (ix2 e a) = x3 (ix1 a) := by
  rw [val_main_v6_apply, val_main_v5_apply]
  exact congrArg x3 (funext fun b => Fin.ext (by match b with | ⟨0, _⟩ => rfl))

theorem be0_node (x3 : FVec Ideal S151 .f32) (n : Fin 50000) (a : Fin 151) :
    val_main_v21 (F := Ideal) x3 (ix2 n a) = x3 (ix1 a) := by
  rw [val_main_v21_apply, val_main_v20_apply]
  exact congrArg x3 (funext fun b => Fin.ext (by match b with | ⟨0, _⟩ => rfl))

theorem b0_node (x5 : FVec Ideal S128 .f32) (n : Fin 50000) (k : Fin 128) :
    val_main_v25 (F := Ideal) x5 (ix2 n k) = x5 (ix1 k) := by
  rw [val_main_v25_apply, val_main_v24_apply]
  exact congrArg x5 (funext fun b => Fin.ext (by match b with | ⟨0, _⟩ => rfl))

theorem eaWe0 (x1 : FVec Ideal S800000x51 .f32) (x2 : FVec Ideal S51x151 .f32) (e : Fin 800000) (a : Fin 151) :
    val_main_v4 (F := Ideal) x1 x2 (ix2 e a) = ∑ d : Fin 51, x1 (ix2 e d) * x2 (ix2 d a) := by
  rw [val_main_v4_apply]
  refine Finset.sum_congr rfl fun d _ => ?_
  have hl : lidx_main_v4 (ix2 e a) d = ix2 e d := funext fun b => Fin.ext (by match b with | ⟨0, _⟩ => rfl | ⟨1, _⟩ => rfl)
  have hr : ridx_main_v4 (ix2 e a) d = ix2 d a := funext fun b => Fin.ext (by match b with | ⟨0, _⟩ => rfl | ⟨1, _⟩ => rfl)
  rw [hl, hr]

/-- The operand of the first scatter is zero everywhere. -/
theorem zeros151 (j : S50000x151.Idx) : val_main_v16 (F := Ideal) j = 0 := by
  rw [val_main_v16_apply, val_main_cst_apply]
  exact Ideal.ofBits_zero_f32

/-- The first scatter at (n, a): zero plus the sum over the edges into n of their messages' entries in channel a. -/
theorem scatter0 (x0 : FVec Ideal S50000x151 .f32) (x1 : FVec Ideal S800000x51 .f32) (x2 : FVec Ideal S51x151 .f32)
    (x3 : FVec Ideal S151 .f32) (x12 : IVec S2x800000 32) (n : Fin 50000) (a : Fin 151) :
    val_main_v18 (F := Ideal) x0 x1 x2 x3 x12 (ix2 n a)
      = 0 + ∑ e ∈ SegR x12 n, val_main_v15 (F := Ideal) x0 x1 x2 x3 x12 (ix2 e a) := by
  unfold val_main_v18
  refine (Cert.LibScatter.scatterAdd_rows_apply scatter_S50000x151_S800000x1_S800000x151_1_0_0_1_wf
    (val_main_v16 (F := Ideal)) (val_main_v17 (F := Ideal) x12) (val_main_v15 (F := Ideal) x0 x1 x2 x3 x12) n a).trans ?_
  rw [zeros151]
  rfl

/-! ## The first layer -/

section Layer0

variable (r0 : (⟨2, ![50000, 151]⟩ : Shape).Idx → ℝ) (r1 : (⟨2, ![800000, 51]⟩ : Shape).Idx → ℝ)
  (r2 : (⟨2, ![51, 151]⟩ : Shape).Idx → ℝ) (r3 : (⟨1, ![151]⟩ : Shape).Idx → ℝ)
  (r4 : (⟨2, ![151, 128]⟩ : Shape).Idx → ℝ) (r5 : (⟨1, ![128]⟩ : Shape).Idx → ℝ) (x12 : IVec S2x800000 32)

/-- With real inputs, the first layer's aggregated entry at (n, a) is the real aggregate: the message per edge is the
    gathered entry plus the edge attributes through the edge weights plus the edge bias. -/
theorem agg0 (n : Fin 50000) (a : Fin 151) :
    val_main_v22 (F := Ideal) (fun i => (r0 i : EReal)) (fun i => (r1 i : EReal)) (fun i => (r2 i : EReal))
        (fun i => (r3 i : EReal)) x12 (ix2 n a)
      = ((agg (SegR x12 n) (fun e => r0 (gxR x12 e a)) (fun e d => r1 (ix2 e d)) (fun d => r2 (ix2 d a)) (r3 (ix1 a))
          (r0 (ix2 n a)) : ℝ) : EReal) := by
  rw [val_main_v22_apply, val_main_v19_apply, scatter0, be0_node, ← msg_form]
  simp only [Ideal.addf_def]
  refine congrArg (fun s => ((0 : EReal) + s + ((r0 (ix2 n a) : ℝ) : EReal)) + ((r3 (ix1 a) : ℝ) : EReal)) ?_
  refine Finset.sum_congr rfl fun e _ => ?_
  rw [val_main_v15_apply, val_main_v7_apply, eaWe0, be0_edge]
  rfl

/-- With real inputs, the first layer's output at (n, k) is the real first layer. -/
theorem layer0 (n : Fin 50000) (k : Fin 128) :
    val_main_v26 (F := Ideal) (fun i => (r0 i : EReal)) (fun i => (r1 i : EReal)) (fun i => (r2 i : EReal))
        (fun i => (r3 i : EReal)) (fun i => (r4 i : EReal)) (fun i => (r5 i : EReal)) x12 (ix2 n k)
      = ((h1R r0 r1 r2 r3 r4 r5 (SegR x12) (gxR x12) n k : ℝ) : EReal) := by
  rw [val_main_v26_apply, val_main_v23_apply, b0_node]
  unfold h1R
  rw [← dot_bias]
  simp only [Ideal.addf_def]
  refine congrArg (fun s => s + ((r5 (ix1 k) : ℝ) : EReal)) ?_
  refine Finset.sum_congr rfl fun a _ => ?_
  have hl : lidx_main_v23 (ix2 n k) a = ix2 n a := funext fun b => Fin.ext (by match b with | ⟨0, _⟩ => rfl | ⟨1, _⟩ => rfl)
  have hr : ridx_main_v23 (ix2 n k) a = ix2 a k := funext fun b => Fin.ext (by match b with | ⟨0, _⟩ => rfl | ⟨1, _⟩ => rfl)
  rw [hl, hr, agg0]

end Layer0

/-! ## The second layer and the output projection -/

theorem be1_edge (x7 : FVec Ideal S128 .f32) (e : Fin 800000) (c : Fin 128) :
    val_main_v29 (F := Ideal) x7 (ix2 e c) = x7 (ix1 c) := by
  rw [val_main_v29_apply, val_main_v28_apply]
  exact congrArg x7 (funext fun b => Fin.ext (by match b with | ⟨0, _⟩ => rfl))

theorem be1_node (x7 : FVec Ideal S128 .f32) (n : Fin 50000) (c : Fin 128) :
    val_main_v44 (F := Ideal) x7 (ix2 n c) = x7 (ix1 c) := by
  rw [val_main_v44_apply, val_main_v43_apply]
  exact congrArg x7 (funext fun b => Fin.ext (by match b with | ⟨0, _⟩ => rfl))

theorem b1_node (x9 : FVec Ideal S128 .f32) (n : Fin 50000) (k : Fin 128) :
    val_main_v48 (F := Ideal) x9 (ix2 n k) = x9 (ix1 k) := by
  rw [val_main_v48_apply, val_main_v47_apply]
  exact congrArg x9 (funext fun b => Fin.ext (by match b with | ⟨0, _⟩ => rfl))

theorem bout_node (x11 : FVec Ideal S51 .f32) (n : Fin 50000) (o : Fin 51) :
    val_main_v52 (F := Ideal) x11 (ix2 n o) = x11 (ix1 o) := by
  rw [val_main_v52_apply, val_main_v51_apply]
  exact congrArg x11 (funext fun b => Fin.ext (by match b with | ⟨0, _⟩ => rfl))

theorem eaWe1 (x1 : FVec Ideal S800000x51 .f32) (x6 : FVec Ideal S51x128 .f32) (e : Fin 800000) (c : Fin 128) :
    val_main_v27 (F := Ideal) x1 x6 (ix2 e c) = ∑ d : Fin 51, x1 (ix2 e d) * x6 (ix2 d c) := by
  rw [val_main_v27_apply]
  refine Finset.sum_congr rfl fun d _ => ?_
  have hl : lidx_main_v27 (ix2 e c) d = ix2 e d := funext fun b => Fin.ext (by match b with | ⟨0, _⟩ => rfl | ⟨1, _⟩ => rfl)
  have hr : ridx_main_v27 (ix2 e c) d = ix2 d c := funext fun b => Fin.ext (by match b with | ⟨0, _⟩ => rfl | ⟨1, _⟩ => rfl)
  rw [hl, hr]

/-- The operand of the second scatter is zero everywhere. -/
theorem zeros128 (j : S50000x128.Idx) : val_main_v39 (F := Ideal) j = 0 := by
  rw [val_main_v39_apply, val_main_cst_3_apply]
  exact Ideal.ofBits_zero_f32

/-- The second scatter's indices are the first's, and the second gather's indices the first's: the same operations
    of the same edge index array. -/
theorem v40_eq (x12 : IVec S2x800000 32) : val_main_v40 (F := Ideal) x12 = val_main_v17 (F := Ideal) x12 := rfl
theorem v36_eq (x12 : IVec S2x800000 32) : val_main_v36 (F := Ideal) x12 = val_main_v13 (F := Ideal) x12 := rfl

section Layer1

variable (r0 : (⟨2, ![50000, 151]⟩ : Shape).Idx → ℝ) (r1 : (⟨2, ![800000, 51]⟩ : Shape).Idx → ℝ)
  (r2 : (⟨2, ![51, 151]⟩ : Shape).Idx → ℝ) (r3 : (⟨1, ![151]⟩ : Shape).Idx → ℝ)
  (r4 : (⟨2, ![151, 128]⟩ : Shape).Idx → ℝ) (r5 : (⟨1, ![128]⟩ : Shape).Idx → ℝ)
  (r6 : (⟨2, ![51, 128]⟩ : Shape).Idx → ℝ) (r7 : (⟨1, ![128]⟩ : Shape).Idx → ℝ)
  (r8 : (⟨2, ![128, 128]⟩ : Shape).Idx → ℝ) (r9 : (⟨1, ![128]⟩ : Shape).Idx → ℝ)
  (r10 : (⟨2, ![128, 51]⟩ : Shape).Idx → ℝ) (r11 : (⟨1, ![51]⟩ : Shape).Idx → ℝ) (x12 : IVec S2x800000 32)

/-- The first layer's output as an array of real numbers. -/
theorem layer0_fun :
    val_main_v26 (F := Ideal) (fun i => (r0 i : EReal)) (fun i => (r1 i : EReal)) (fun i => (r2 i : EReal)) (fun i => (r3 i : EReal)) (fun i => (r4 i : EReal)) (fun i => (r5 i : EReal)) x12
      = fun i => ((h1R r0 r1 r2 r3 r4 r5 (SegR x12) (gxR x12) (i 0) (i 1) : ℝ) : EReal) := by
  funext i
  obtain ⟨n, k, rfl⟩ : ∃ (n : Fin 50000) (k : Fin 128), i = ix2 n k := ⟨i 0, i 1, eq_ix2 i⟩
  exact layer0 r0 r1 r2 r3 r4 r5 x12 n k

/-- The second scatter at (n, c): zero plus the sum over the edges into n of their messages' entries in channel c. -/
theorem scatter1 (n : Fin 50000) (c : Fin 128) :
    val_main_v41 (F := Ideal) (fun i => (r0 i : EReal)) (fun i => (r1 i : EReal)) (fun i => (r2 i : EReal)) (fun i => (r3 i : EReal)) (fun i => (r4 i : EReal)) (fun i => (r5 i : EReal)) (fun i => (r6 i : EReal)) (fun i => (r7 i : EReal)) x12 (ix2 n c)
      = 0 + ∑ e ∈ SegR x12 n, val_main_v38 (F := Ideal) (fun i => (r0 i : EReal)) (fun i => (r1 i : EReal)) (fun i => (r2 i : EReal)) (fun i => (r3 i : EReal)) (fun i => (r4 i : EReal)) (fun i => (r5 i : EReal)) (fun i => (r6 i : EReal)) (fun i => (r7 i : EReal)) x12 (ix2 e c) := by
  unfold val_main_v41
  refine (Cert.LibScatter.scatterAdd_rows_apply scatter_S50000x128_S800000x1_S800000x128_1_0_0_1_wf
    (val_main_v39 (F := Ideal)) (val_main_v40 (F := Ideal) x12) (val_main_v38 (F := Ideal) (fun i => (r0 i : EReal)) (fun i => (r1 i : EReal)) (fun i => (r2 i : EReal)) (fun i => (r3 i : EReal)) (fun i => (r4 i : EReal)) (fun i => (r5 i : EReal)) (fun i => (r6 i : EReal)) (fun i => (r7 i : EReal)) x12) n c).trans ?_
  rw [zeros128, v40_eq]
  rfl

/-- The gathered hidden entry for edge e, channel c, is the real first layer at the entry the gather reads. -/
theorem gather1 (e : Fin 800000) (c : Fin 128) :
    val_main_v37 (F := Ideal) (fun i => (r0 i : EReal)) (fun i => (r1 i : EReal)) (fun i => (r2 i : EReal)) (fun i => (r3 i : EReal)) (fun i => (r4 i : EReal)) (fun i => (r5 i : EReal)) x12 (ix2 e c)
      = ((h1R r0 r1 r2 r3 r4 r5 (SegR x12) (gxR x12) (ghR x12 e c 0) (ghR x12 e c 1) : ℝ) : EReal) := by
  unfold val_main_v37
  rw [layer0_fun, v36_eq]
  rfl

/-- With real inputs, the second layer's aggregated entry at (n, c) is the real aggregate over the first layer. -/
theorem agg1 (n : Fin 50000) (c : Fin 128) :
    val_main_v45 (F := Ideal) (fun i => (r0 i : EReal)) (fun i => (r1 i : EReal)) (fun i => (r2 i : EReal)) (fun i => (r3 i : EReal)) (fun i => (r4 i : EReal)) (fun i => (r5 i : EReal)) (fun i => (r6 i : EReal)) (fun i => (r7 i : EReal)) x12 (ix2 n c)
      = ((agg (SegR x12 n) (fun e => h1R r0 r1 r2 r3 r4 r5 (SegR x12) (gxR x12) (ghR x12 e c 0) (ghR x12 e c 1))
          (fun e d => r1 (ix2 e d)) (fun d => r6 (ix2 d c)) (r7 (ix1 c))
          (h1R r0 r1 r2 r3 r4 r5 (SegR x12) (gxR x12) n c) : ℝ) : EReal) := by
  rw [val_main_v45_apply, val_main_v42_apply, scatter1, be1_node, layer0, ← msg_form]
  simp only [Ideal.addf_def]
  refine congrArg (fun s => ((0 : EReal) + s + ((h1R r0 r1 r2 r3 r4 r5 (SegR x12) (gxR x12) n c : ℝ) : EReal))
    + ((r7 (ix1 c) : ℝ) : EReal)) ?_
  refine Finset.sum_congr rfl fun e _ => ?_
  rw [val_main_v38_apply, val_main_v30_apply, gather1, eaWe1, be1_edge]
  rfl

/-- With real inputs, the second layer's output at (n, k) is the real second layer. -/
theorem layer1 (n : Fin 50000) (k : Fin 128) :
    val_main_v49 (F := Ideal) (fun i => (r0 i : EReal)) (fun i => (r1 i : EReal)) (fun i => (r2 i : EReal)) (fun i => (r3 i : EReal)) (fun i => (r4 i : EReal)) (fun i => (r5 i : EReal)) (fun i => (r6 i : EReal)) (fun i => (r7 i : EReal)) (fun i => (r8 i : EReal)) (fun i => (r9 i : EReal)) x12 (ix2 n k)
      = ((h2R r0 r1 r2 r3 r4 r5 r6 r7 r8 r9 (SegR x12) (gxR x12) (ghR x12) n k : ℝ) : EReal) := by
  rw [val_main_v49_apply, val_main_v46_apply, b1_node]
  unfold h2R
  rw [← dot_bias]
  simp only [Ideal.addf_def]
  refine congrArg (fun s => s + ((r9 (ix1 k) : ℝ) : EReal)) ?_
  refine Finset.sum_congr rfl fun c _ => ?_
  have hl : lidx_main_v46 (ix2 n k) c = ix2 n c := funext fun b => Fin.ext (by match b with | ⟨0, _⟩ => rfl | ⟨1, _⟩ => rfl)
  have hr : ridx_main_v46 (ix2 n k) c = ix2 c k := funext fun b => Fin.ext (by match b with | ⟨0, _⟩ => rfl | ⟨1, _⟩ => rfl)
  rw [hl, hr, agg1]

/-- With real inputs, the reference's result at (n, o) is the real network output. -/
theorem out_apply (n : Fin 50000) (o : Fin 51) :
    val_main_v53 (F := Ideal) (fun i => (r0 i : EReal)) (fun i => (r1 i : EReal)) (fun i => (r2 i : EReal)) (fun i => (r3 i : EReal)) (fun i => (r4 i : EReal)) (fun i => (r5 i : EReal)) (fun i => (r6 i : EReal)) (fun i => (r7 i : EReal)) (fun i => (r8 i : EReal)) (fun i => (r9 i : EReal)) (fun i => (r10 i : EReal)) (fun i => (r11 i : EReal)) x12 (ix2 n o)
      = ((outR r0 r1 r2 r3 r4 r5 r6 r7 r8 r9 r10 r11 (SegR x12) (gxR x12) (ghR x12) n o : ℝ) : EReal) := by
  rw [val_main_v53_apply, val_main_v50_apply, bout_node]
  unfold outR
  rw [← dot_bias]
  simp only [Ideal.addf_def]
  refine congrArg (fun s => s + ((r11 (ix1 o) : ℝ) : EReal)) ?_
  refine Finset.sum_congr rfl fun k _ => ?_
  have hl : lidx_main_v50 (ix2 n o) k = ix2 n k := funext fun b => Fin.ext (by match b with | ⟨0, _⟩ => rfl | ⟨1, _⟩ => rfl)
  have hr : ridx_main_v50 (ix2 n o) k = ix2 k o := funext fun b => Fin.ext (by match b with | ⟨0, _⟩ => rfl | ⟨1, _⟩ => rfl)
  rw [hl, hr, layer1]

/-- The reference's result array, with real inputs, is the real network output, index by index. -/
theorem result_real :
    val_main_v53 (F := Ideal) (fun i => (r0 i : EReal)) (fun i => (r1 i : EReal)) (fun i => (r2 i : EReal)) (fun i => (r3 i : EReal)) (fun i => (r4 i : EReal)) (fun i => (r5 i : EReal)) (fun i => (r6 i : EReal)) (fun i => (r7 i : EReal)) (fun i => (r8 i : EReal)) (fun i => (r9 i : EReal)) (fun i => (r10 i : EReal)) (fun i => (r11 i : EReal)) x12
      = fun i => ((outR r0 r1 r2 r3 r4 r5 r6 r7 r8 r9 r10 r11 (SegR x12) (gxR x12) (ghR x12) (i 0) (i 1) : ℝ) : EReal) := by
  funext i
  obtain ⟨n, o, rfl⟩ : ∃ (n : Fin 50000) (o : Fin 51), i = ix2 n o := ⟨i 0, i 1, eq_ix2 i⟩
  exact out_apply r0 r1 r2 r3 r4 r5 r6 r7 r8 r9 r10 r11 x12 n o

end Layer1

end Cert.ReferenceIdeal.RefValue

end
-- ==== Proof.Join.lean ====
/-
  The two programs read the edge index array by the same operations: the column of destination indices, and the
  column of source indices with a negative index wrapped, are the same arrays in both, so the sets of edges into a
  node and the entries the gathers read are the same.
-/
import proofs.«417725_j34583076668022_2_alg».proof.Proof.KTermsValue
import proofs.«417725_j34583076668022_2_alg».proof.Proof.RefValue

noncomputable section

namespace Cert.Join

open Idealize.ShloMosaic

theorem seg_eq (a12 : (⟨2, ![2, 800000]⟩ : Shape).Idx → BitVec 32) :
    Cert.KernelIdeal.Reads.Seg a12 = Cert.ReferenceIdeal.RefValue.SegR a12 := rfl

theorem gx_eq (a12 : (⟨2, ![2, 800000]⟩ : Shape).Idx → BitVec 32) :
    Cert.KernelIdeal.KTermsValue.gxK a12 = Cert.ReferenceIdeal.RefValue.gxR a12 := rfl

theorem gh_eq (a12 : (⟨2, ![2, 800000]⟩ : Shape).Idx → BitVec 32) :
    Cert.KernelIdeal.KTermsValue.ghK a12 = Cert.ReferenceIdeal.RefValue.ghR a12 := rfl

end Cert.Join

end
-- ==== Proof.lean ====
/-
  The kernel computes a two-layer graph network and an output projection with the edge-attribute transform moved out
  of the per-edge messages: since the segment sum over the edges into a node is linear, the sum of the messages
  (gathered node row + edge attributes through the edge weights + edge bias) is the segment sum of the gathered rows,
  plus the segment sum of the edge attributes through the edge weights, plus the in-degree times the edge bias. The
  kernel takes the segment sum of the edge attributes and the in-degree once (one scatter of the attributes with a
  column of ones appended) and fuses the rest of each layer into a kernel call over blocks of 5000 node rows.
  Over the extended reals that rearrangement needs every entry finite, which the precondition gives; and it needs
  every source index to be a valid row index, since the kernel's gather answers not-a-number for an index out of range
  where the reference's gather clamps it: the precondition's added conjunct.
  Both programs' results are shown to be the same real-valued function of real inputs: the kernel's by reading each
  call's output array off its frame run as the fused layer of the arrays it finds, and those as host terms of the
  arguments; the reference's by reading its run one operation at a time. The two programs read the edge index array
  by the same operations, so the sets of edges into a node and the gathered entries are the same on both sides.
-/
import proofs.«417725_j34583076668022_2_alg».proof.Defs
import proofs.«417725_j34583076668022_2_alg».proof.Proof.Gen.Kernel
import proofs.«417725_j34583076668022_2_alg».proof.Proof.Gen.Kernel.Frame
import proofs.«417725_j34583076668022_2_alg».proof.Proof.Gen.KernelIdeal
import proofs.«417725_j34583076668022_2_alg».proof.Proof.Gen.KernelIdeal.Frame
import proofs.«417725_j34583076668022_2_alg».proof.Proof.Gen.ReferenceIdeal
import proofs.«417725_j34583076668022_2_alg».proof.Proof.Gen.ReferenceIdeal.Run
import proofs.«417725_j34583076668022_2_alg».proof.Proof.Gen.ReferenceIdeal.Read
import proofs.«417725_j34583076668022_2_alg».proof.Proof.Gen.Pre_finite_inputs
import proofs.«417725_j34583076668022_2_alg».proof.Proof.PreFacts
import proofs.«417725_j34583076668022_2_alg».proof.Proof.KValue
import proofs.«417725_j34583076668022_2_alg».proof.Proof.RefValue
import proofs.«417725_j34583076668022_2_alg».proof.Proof.Join
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal.Terms Cert.KernelIdeal.Reads Cert.KernelIdeal.KHost Cert.KernelIdeal.KTermsValue Cert.Spec

/-- The word-level kernel program runs and leaves its arguments unchanged: its generated frame. -/
theorem frame_kernel : Cert.frame_Kernel := fun m ρ _ => Cert.Kernel.Gen.frame m ρ

/-- The idealized kernel program runs and leaves its arguments unchanged: its generated frame. -/
theorem frame_kernelIdeal : Cert.frame_KernelIdeal := fun m ρ _ => Cert.KernelIdeal.Gen.frame m ρ

/-- The idealized reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing: the idealized kernel is the kernel's own text read at the extended reals. -/
theorem preserves : Cert.preserves_Kernel_KernelIdeal := trivial

/-- From memories agreeing on the arguments, with finite float inputs and every source index a valid row index, both
    programs end with the real network output of the real inputs. -/
theorem algebraic : Cert.algebraic_KernelIdeal_ReferenceIdeal := by
  intro m ρ m' ρ' hpre hagree
  have H := fun c => Cert.PreFacts.holds_of_pre _ _ _ _ _ _ _ _ _ _ _ _ _ (hpre c)
  choose r0 hr0 using fun c => (H c).real0
  choose r1 hr1 using fun c => (H c).real1
  choose r2 hr2 using fun c => (H c).real2
  choose r3 hr3 using fun c => (H c).real3
  choose r4 hr4 using fun c => (H c).real4
  choose r5 hr5 using fun c => (H c).real5
  choose r6 hr6 using fun c => (H c).real6
  choose r7 hr7 using fun c => (H c).real7
  choose r8 hr8 using fun c => (H c).real8
  choose r9 hr9 using fun c => (H c).real9
  choose r10 hr10 using fun c => (H c).real10
  choose r11 hr11 using fun c => (H c).real11
  have hm : ∀ c, maskT (in12 m c) = fun _ => 1#1 := fun c => mask_one (in12 m c) (H c).src_lo (H c).src_hi
  refine ⟨fun c => (fun i : Cert.KernelIdeal.S50000x51.Idx =>
      ((outR (r0 c) (r1 c) (r2 c) (r3 c) (r4 c) (r5 c) (r6 c) (r7 c) (r8 c) (r9 c) (r10 c) (r11 c) (Seg (in12 m c)) (gxK (in12 m c)) (ghK (in12 m c)) (i 0) (i 1) : ℝ) : EReal)), ?_, ?_⟩
  · exact (θ_run Cert.KernelIdeal.defs _ _).mono
      (fun r h c => ⟨(h c).1.trans (Cert.KernelIdeal.KValue.out_real m ρ c (r0 c) (r1 c) (r2 c) (r3 c) (r4 c) (r5 c) (r6 c) (r7 c) (r8 c) (r9 c) (r10 c) (r11 c)
        (funext (hr0 c)) (funext (hr1 c)) (funext (hr2 c)) (funext (hr3 c)) (funext (hr4 c)) (funext (hr5 c)) (funext (hr6 c)) (funext (hr7 c)) (funext (hr8 c)) (funext (hr9 c)) (funext (hr10 c)) (funext (hr11 c)) (hm c)), (h c).2⟩)
      (Cert.KernelIdeal.KRun.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v53_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    rw [funext (hr0 c), funext (hr1 c), funext (hr2 c), funext (hr3 c), funext (hr4 c), funext (hr5 c), funext (hr6 c), funext (hr7 c), funext (hr8 c), funext (hr9 c), funext (hr10 c), funext (hr11 c)]
    rw [Cert.ReferenceIdeal.RefValue.result_real, ← Cert.Join.seg_eq, ← Cert.Join.gx_eq, ← Cert.Join.gh_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
